-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S2x4194304 : Shape := ⟨2, ![2, 4194304]⟩
abbrev S16x128 : Shape := ⟨2, ![16, 128]⟩
abbrev S16 : Shape := ⟨1, ![16]⟩
abbrev S39x65536 : Shape := ⟨2, ![39, 65536]⟩
abbrev S39 : Shape := ⟨1, ![39]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_
  bcast_S_S39x65536 : S_.BroadcastsInDim S39x65536 (![] : Fin 0 → Fin S39x65536.rank)
  reducesTo_S39x65536_S_d0_1 : S39x65536.ReducesTo [0, 1] S_
  bcast_S_S39 : S_.BroadcastsInDim S39 (![] : Fin 0 → Fin S39.rank)
  reducesTo_S39_S_d0 : S39.ReducesTo [0] S_

variable [Facts]

def fn_part1 {F : FTy → Type} [FloatOps F] (main_arg5 : FVec F S39x65536 .f32) (main_arg6 : FVec F S39 .f32) (main_v13 : IVec S_ 1) (main_v16 : IVec S16x128 1) : IVec S_ 1 :=
  let main_c_5 : IVec S_ 1 := constantI S_ 1 1#1
  let main_v17 : IVec S_ 1 := (fun x v => Host.reduce IntOp.andi x v reducesTo_S16x128_S_d0_1 h_S_) main_v16 main_c_5
  let main_v18 : IVec S_ 1 := andi main_v13 main_v17
  let main_v19 : FVec F S39x65536 .f32 := Host.absf main_arg5
  let main_cst_6 : FVec F S_ .f32 := constant S_ .f32 0x7F800000#32
  let main_v20 : FVec F S39x65536 .f32 := broadcastInDim S39x65536 ![] bcast_S_S39x65536 main_cst_6
  let main_v21 : IVec S39x65536 1 := cmpf .olt main_v19 main_v20
  let main_c_7 : IVec S_ 1 := constantI S_ 1 1#1
  let main_v22 : IVec S_ 1 := (fun x v => Host.reduce IntOp.andi x v reducesTo_S39x65536_S_d0_1 h_S_) main_v21 main_c_7
  let main_v23 : IVec S_ 1 := andi main_v18 main_v22
  let main_v24 : FVec F S39 .f32 := Host.absf main_arg6
  let main_cst_8 : FVec F S_ .f32 := constant S_ .f32 0x7F800000#32
  let main_v25 : FVec F S39 .f32 := broadcastInDim S39 ![] bcast_S_S39 main_cst_8
  let main_v26 : IVec S39 1 := cmpf .olt main_v24 main_v25
  let main_c_9 : IVec S_ 1 := constantI S_ 1 1#1
  let main_v27 : IVec S_ 1 := (fun x v => Host.reduce IntOp.andi x v reducesTo_S39_S_d0 h_S_) main_v26 main_c_9
  let main_v28 : IVec S_ 1 := andi main_v23 main_v27
  main_v28

def fn {F : FTy → Type} [FloatOps F] (main_arg0 : FVec F S131072x128 .f32) (main_arg1 : IVec S2x4194304 32) (main_arg2 : FVec F S16x128 .f32) (main_arg3 : FVec F S16 .f32) (main_arg4 : FVec F S16x128 .f32) (main_arg5 : FVec F S39x65536 .f32) (main_arg6 : FVec F S39 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S16x128 .f32 := Host.absf main_arg2
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x128 .f32 := Host.absf main_arg4
  let main_cst_4 : FVec F S_ .f32 := constant S_ .f32 0x7F800000#32
  let main_v15 : FVec F S16x128 .f32 := broadcastInDim S16x128 ![] bcast_S_S16x128 main_cst_4
  let main_v16 : IVec S16x128 1 := cmpf .olt main_v14 main_v15
  fn_part1 (F := F) main_arg5 main_arg6 main_v13 main_v16
-- ==== Kernel.lean ====
abbrev S131072x128 : Shape := ⟨2, ![131072, 128]⟩
abbrev S2x4194304 : Shape := ⟨2, ![2, 4194304]⟩
abbrev S16x128 : Shape := ⟨2, ![16, 128]⟩
abbrev S16 : Shape := ⟨1, ![16]⟩
abbrev S39x65536 : Shape := ⟨2, ![39, 65536]⟩
abbrev S39 : Shape := ⟨1, ![39]⟩
abbrev S1x4194304 : Shape := ⟨2, ![1, 4194304]⟩
abbrev S4194304 : Shape := ⟨1, ![4194304]⟩
abbrev S128x16 : Shape := ⟨2, ![128, 16]⟩
abbrev S131072x16 : Shape := ⟨2, ![131072, 16]⟩
abbrev S4096x128 : Shape := ⟨2, ![4096, 128]⟩
abbrev S4096x16 : Shape := ⟨2, ![4096, 16]⟩
abbrev S_ : Shape := ⟨0, ![]⟩
abbrev S4194304x1 : Shape := ⟨2, ![4194304, 1]⟩
abbrev S4194304x16 : Shape := ⟨2, ![4194304, 16]⟩
abbrev S131072 : Shape := ⟨1, ![131072]⟩
abbrev S131072x1 : Shape := ⟨2, ![131072, 1]⟩
abbrev S1x16 : Shape := ⟨2, ![1, 16]⟩
abbrev S32x65536 : Shape := ⟨2, ![32, 65536]⟩
abbrev S1x39 : Shape := ⟨2, ![1, 39]⟩
abbrev S32x39 : Shape := ⟨2, ![32, 39]⟩
abbrev S32x8192 : Shape := ⟨2, ![32, 8192]⟩
abbrev S39x8192 : Shape := ⟨2, ![39, 8192]⟩
abbrev S8192x39 : Shape := ⟨2, ![8192, 39]⟩
abbrev S32x39x1 : Shape := ⟨3, ![32, 39, 1]⟩

abbrev nBuf : Space → Nat
  | .hbm => 46
  | .vmem => 22
  | .smem => 0
  | _ => 0

abbrev bufTy : (tb : Table) → Fin (tcTables nBuf tb) → BufTy
  | .hbm, ⟨0, _⟩ => ⟨S131072x128, .f32⟩
  | .hbm, ⟨1, _⟩ => ⟨S2x4194304, .i32⟩
  | .hbm, ⟨2, _⟩ => ⟨S16x128, .f32⟩
  | .hbm, ⟨3, _⟩ => ⟨S16, .f32⟩
  | .hbm, ⟨4, _⟩ => ⟨S16x128, .f32⟩
  | .hbm, ⟨5, _⟩ => ⟨S39x65536, .f32⟩
  | .hbm, ⟨6, _⟩ => ⟨S39, .f32⟩
  | .hbm, ⟨7, _⟩ => ⟨S1x4194304, .i32⟩
  | .hbm, ⟨8, _⟩ => ⟨S4194304, .i32⟩
  | .hbm, ⟨9, _⟩ => ⟨S1x4194304, .i32⟩
  | .hbm, ⟨10, _⟩ => ⟨S4194304, .i32⟩
  | .hbm, ⟨11, _⟩ => ⟨S128x16, .f32⟩
  | .hbm, ⟨12, _⟩ => ⟨S128x16, .f32⟩
  | .hbm, ⟨13, _⟩ => ⟨S131072x16, .f32⟩
  | .hbm, ⟨14, _⟩ => ⟨S131072x16, .f32⟩
  | .hbm, ⟨15, _⟩ => ⟨S_, .i32⟩
  | .hbm, ⟨16, _⟩ => ⟨S4194304, .i32⟩
  | .hbm, ⟨17, _⟩ => ⟨S4194304, .i1⟩
  | .hbm, ⟨18, _⟩ => ⟨S_, .i32⟩
  | .hbm, ⟨19, _⟩ => ⟨S4194304, .i32⟩
  | .hbm, ⟨20, _⟩ => ⟨S4194304, .i32⟩
  | .hbm, ⟨21, _⟩ => ⟨S4194304, .i32⟩
  | .hbm, ⟨22, _⟩ => ⟨S4194304x1, .i32⟩
  | .hbm, ⟨23, _⟩ => ⟨S4194304x16, .f32⟩
  | .hbm, ⟨24, _⟩ => ⟨S_, .f32⟩
  | .hbm, ⟨25, _⟩ => ⟨S131072x16, .f32⟩
  | .hbm, ⟨26, _⟩ => ⟨S4194304x1, .i32⟩
  | .hbm, ⟨27, _⟩ => ⟨S131072x16, .f32⟩
  | .hbm, ⟨28, _⟩ => ⟨S_, .f32⟩
  | .hbm, ⟨29, _⟩ => ⟨S4194304, .f32⟩
  | .hbm, ⟨30, _⟩ => ⟨S_, .f32⟩
  | .hbm, ⟨31, _⟩ => ⟨S131072, .f32⟩
  | .hbm, ⟨32, _⟩ => ⟨S4194304x1, .i32⟩
  | .hbm, ⟨33, _⟩ => ⟨S131072, .f32⟩
  | .hbm, ⟨34, _⟩ => ⟨S_, .f32⟩
  | .hbm, ⟨35, _⟩ => ⟨S131072, .f32⟩
  | .hbm, ⟨36, _⟩ => ⟨S131072, .f32⟩
  | .hbm, ⟨37, _⟩ => ⟨S131072x1, .f32⟩
  | .hbm, ⟨38, _⟩ => ⟨S131072x16, .f32⟩
  | .hbm, ⟨39, _⟩ => ⟨S131072x16, .f32⟩
  | .hbm, ⟨40, _⟩ => ⟨S1x16, .f32⟩
  | .hbm, ⟨41, _⟩ => ⟨S131072x16, .f32⟩
  | .hbm, ⟨42, _⟩ => ⟨S32x65536, .f32⟩
  | .hbm, ⟨43, _⟩ => ⟨S1x39, .f32⟩
  | .hbm, ⟨44, _⟩ => ⟨S32x39, .f32⟩
  | .hbm, ⟨45, _⟩ => ⟨S32x39x1, .f32⟩
  | .local _ .vmem, ⟨0, _⟩ => ⟨S4096x128, .f32⟩
  | .local _ .vmem, ⟨1, _⟩ => ⟨S4096x128, .f32⟩
  | .local _ .vmem, ⟨2, _⟩ => ⟨S128x16, .f32⟩
  | .local _ .vmem, ⟨3, _⟩ => ⟨S128x16, .f32⟩
  | .local _ .vmem, ⟨4, _⟩ => ⟨S4096x16, .f32⟩
  | .local _ .vmem, ⟨5, _⟩ => ⟨S4096x16, .f32⟩
  | .local _ .vmem, ⟨6, _⟩ => ⟨S4096x16, .f32⟩
  | .local _ .vmem, ⟨7, _⟩ => ⟨S4096x16, .f32⟩
  | .local _ .vmem, ⟨8, _⟩ => ⟨S4096x16, .f32⟩
  | .local _ .vmem, ⟨9, _⟩ => ⟨S4096x16, .f32⟩
  | .local _ .vmem, ⟨10, _⟩ => ⟨S4096x16, .f32⟩
  | .local _ .vmem, ⟨11, _⟩ => ⟨S4096x16, .f32⟩
  | .local _ .vmem, ⟨12, _⟩ => ⟨S1x16, .f32⟩
  | .local _ .vmem, ⟨13, _⟩ => ⟨S4096x16, .f32⟩
  | .local _ .vmem, ⟨14, _⟩ => ⟨S4096x16, .f32⟩
  | .local _ .vmem, ⟨15, _⟩ => ⟨S32x8192, .f32⟩
  | .local _ .vmem, ⟨16, _⟩ => ⟨S32x8192, .f32⟩
  | .local _ .vmem, ⟨17, _⟩ => ⟨S39x8192, .f32⟩
  | .local _ .vmem, ⟨18, _⟩ => ⟨S39x8192, .f32⟩
  | .local _ .vmem, ⟨19, _⟩ => ⟨S1x39, .f32⟩
  | .local _ .vmem, ⟨20, _⟩ => ⟨S32x39, .f32⟩
  | .local _ .vmem, ⟨21, _⟩ => ⟨S32x39, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def k2_cond2 (i : grid2.Coords) : BitVec 1 :=
  let arg0 : BitVec 32 := BitVec.ofNat 32 (i 0).val
  let c7_i32 : BitVec 32 := 7#32
  let v15 : BitVec 1 := Scalar.cmpi .eq arg0 c7_i32
  let v16 : BitVec 32 := Scalar.extui v15
  let c0_i32_8 : BitVec 32 := 0#32
  let v17 : BitVec 1 := Scalar.cmpi .ne v16 c0_i32_8
  v17

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S32x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S39x8192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x39 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x39 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x4194304_S1x4194304_0_0 : S2x4194304.Slices ![0, 0] S1x4194304
  shapeCasts_S1x4194304_S4194304 : S1x4194304.ShapeCasts S4194304
  slices_S2x4194304_S1x4194304_1_0 : S2x4194304.Slices ![1, 0] S1x4194304
  transposes_S16x128_S128x16_1_0 : S16x128.Transposes [1, 0] S128x16
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S4096x16_S4096x16_0_0 : ∀ a, (![0, 0] : Fin 2 → Nat) a + S4096x16.size a ≤ S4096x16.size a
  h_S4096x16 : 0 < S4096x16.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S_S131072x16 : S_.BroadcastsInDim S131072x16 (![] : Fin 0 → Fin S131072x16.rank)
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x16_0_1 : S131072x1.BroadcastsInDim S131072x16 (![0, 1] : Fin 2 → Fin S131072x16.rank)
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  shapeCasts_S4096x16_S4096x16 : S4096x16.ShapeCasts S4096x16
  shapeCasts_S131072x16_S32x65536 : S131072x16.ShapeCasts S32x65536
  shapeCasts_S39_S1x39 : S39.ShapeCasts S1x39
  inb_S32x39_S32x39_0_0 : ∀ a, (![0, 0] : Fin 2 → Nat) a + S32x39.size a ≤ S32x39.size a
  h_S32x39 : 0 < S32x39.numel
  shapeCasts_S32x39_S32x39 : S32x39.ShapeCasts S32x39
  inb_S32x8192_S32x8192_0_0 : ∀ a, (![0, 0] : Fin 2 → Nat) a + S32x8192.size a ≤ S32x8192.size a
  h_S32x8192 : 0 < S32x8192.numel
  shapeCasts_S32x8192_S32x8192 : S32x8192.ShapeCasts S32x8192
  inb_S39x8192_S39x8192_0_0 : ∀ a, (![0, 0] : Fin 2 → Nat) a + S39x8192.size a ≤ S39x8192.size a
  h_S39x8192 : 0 < S39x8192.numel
  transposes_S39x8192_p1_0_S8192x39 : S39x8192.Transposes [1, 0] S8192x39
  inb_S1x39_S1x39_0_0 : ∀ a, (![0, 0] : Fin 2 → Nat) a + S1x39.size a ≤ S1x39.size a
  h_S1x39 : 0 < S1x39.numel
  shapeCasts_S1x39_S1x39 : S1x39.ShapeCasts S1x39
  broadcasts_S1x39_S32x39 : S1x39.Broadcasts S32x39
  bcast_S32x39_S32x39x1_0_1 : S32x39.BroadcastsInDim S32x39x1 (![0, 1] : Fin 2 → Fin S32x39x1.rank)
  dot_S4096x128_S128x16_S4096x16_1_0_0_1_n_n_wf : DotDims.WF S4096x128 S128x16 S4096x16 [1] [0] [0] [1] [] []
  gather_S131072x16_S4194304x1_S4194304x16_1_0_n_n_0_1_116_wf : GatherDims.WF S131072x16 S4194304x1 S4194304x16 [1] [0] [] [0] [] 1 ![1, 16]
  scatter_S131072x16_S4194304x1_S4194304x16_1_0_0_1_wf : ScatterDims.WF S131072x16 S4194304x1 S4194304x16 [1] [0] [0] 1
  scatter_S131072_S4194304x1_S4194304_n_0_0_1_wf : ScatterDims.WF S131072 S4194304x1 S4194304 [] [0] [0] 1
  dot_S32x8192_S8192x39_S32x39_1_0_0_1_n_n_wf : DotDims.WF S32x8192 S8192x39 S32x39 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x16.size a ≤ S131072x16.size a
  hwx0_3 : ∀ i : grid0.Coords, EltTy.bits .f32 = 32 ∨ (Rect.block (s := S131072x16) S4096x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x16.size a ≤ S131072x16.size a
  hwx0_4 : ∀ i : grid0.Coords, EltTy.bits .f32 = 32 ∨ (Rect.block (s := S131072x16) S4096x16.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x16.size a ≤ S131072x16.size a
  hwx1_0 : ∀ i : grid1.Coords, EltTy.bits .f32 = 32 ∨ (Rect.block (s := S131072x16) S4096x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x16.size a ≤ S131072x16.size a
  hwx1_1 : ∀ i : grid1.Coords, EltTy.bits .f32 = 32 ∨ (Rect.block (s := S131072x16) S4096x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x16.size a ≤ S131072x16.size a
  hwx1_3 : ∀ i : grid1.Coords, EltTy.bits .f32 = 32 ∨ (Rect.block (s := S131072x16) S4096x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x8192.size a ≤ S32x65536.size a
  hwx2_0 : ∀ i : grid2.Coords, EltTy.bits .f32 = 32 ∨ (Rect.block (s := S32x65536) S32x8192.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S39x8192.size a ≤ S39x65536.size a
  hwx2_1 : ∀ i : grid2.Coords, EltTy.bits .f32 = 32 ∨ (Rect.block (s := S39x65536) S39x8192.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x39.size a ≤ S1x39.size a
  hwx2_2 : ∀ i : grid2.Coords, EltTy.bits .f32 = 32 ∨ (Rect.block (s := S1x39) S1x39.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x39.size a ≤ S32x39.size a
  hwx2_3 : ∀ i : grid2.Coords, EltTy.bits .f32 = 32 ∨ (Rect.block (s := S32x39) S32x39.size (cc2_transform_3 i) (hinb2_3 i)).WholeWords (EltTy.packing .f32)

variable [Facts₀]

def dot_S4096x128_S128x16_S4096x16_1_0_0_1_n_n : DotDims S4096x128 S128x16 S4096x16 where
  lhsContracting := [1]
  rhsContracting := [0]
  lhsNonContracting := [0]
  rhsNonContracting := [1]
  lhsBatch := []
  rhsBatch := []
  wf := dot_S4096x128_S128x16_S4096x16_1_0_0_1_n_n_wf
def gather_S131072x16_S4194304x1_S4194304x16_1_0_n_n_0_1_116 : GatherDims S131072x16 S4194304x1 S4194304x16 where
  offsetDims := [1]
  collapsedSliceDims := [0]
  operandBatchingDims := []
  startIndicesBatchingDims := []
  startIndexMap := [0]
  indexVectorDim := 1
  sliceSizes := ![1, 16]
  wf := gather_S131072x16_S4194304x1_S4194304x16_1_0_n_n_0_1_116_wf
def scatter_S131072x16_S4194304x1_S4194304x16_1_0_0_1 : ScatterDims S131072x16 S4194304x1 S4194304x16 where
  updateWindowDims := [1]
  insertedWindowDims := [0]
  scatterDimsToOperandDims := [0]
  indexVectorDim := 1
  wf := scatter_S131072x16_S4194304x1_S4194304x16_1_0_0_1_wf
def scatter_S131072_S4194304x1_S4194304_n_0_0_1 : ScatterDims S131072 S4194304x1 S4194304 where
  updateWindowDims := []
  insertedWindowDims := [0]
  scatterDimsToOperandDims := [0]
  indexVectorDim := 1
  wf := scatter_S131072_S4194304x1_S4194304_n_0_0_1_wf
def dot_S32x8192_S8192x39_S32x39_1_0_0_1_n_n : DotDims S32x8192 S8192x39 S32x39 where
  lhsContracting := [1]
  rhsContracting := [0]
  lhsNonContracting := [0]
  rhsNonContracting := [1]
  lhsBatch := []
  rhsBatch := []
  wf := dot_S32x8192_S8192x39_S32x39_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S4096x16.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S4096x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v25) S4096x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S4096x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S4096x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S32x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S39x8192.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S1x39.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S32x39.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S131072x128 : Shape := ⟨2, ![131072, 128]⟩
abbrev S2x4194304 : Shape := ⟨2, ![2, 4194304]⟩
abbrev S16x128 : Shape := ⟨2, ![16, 128]⟩
abbrev S16 : Shape := ⟨1, ![16]⟩
abbrev S39x65536 : Shape := ⟨2, ![39, 65536]⟩
abbrev S39 : Shape := ⟨1, ![39]⟩
abbrev S1x4194304 : Shape := ⟨2, ![1, 4194304]⟩
abbrev S4194304 : Shape := ⟨1, ![4194304]⟩
abbrev S128x16 : Shape := ⟨2, ![128, 16]⟩
abbrev S131072x16 : Shape := ⟨2, ![131072, 16]⟩
abbrev S_ : Shape := ⟨0, ![]⟩
abbrev S4194304x1 : Shape := ⟨2, ![4194304, 1]⟩
abbrev S4194304x16 : Shape := ⟨2, ![4194304, 16]⟩
abbrev S131072 : Shape := ⟨1, ![131072]⟩
abbrev S131072x1 : Shape := ⟨2, ![131072, 1]⟩
abbrev S1x16 : Shape := ⟨2, ![1, 16]⟩
abbrev S32x65536 : Shape := ⟨2, ![32, 65536]⟩
abbrev S65536x39 : Shape := ⟨2, ![65536, 39]⟩
abbrev S32x39 : Shape := ⟨2, ![32, 39]⟩
abbrev S1x39 : Shape := ⟨2, ![1, 39]⟩
abbrev S32x39x1 : Shape := ⟨3, ![32, 39, 1]⟩

abbrev nBuf : Space → Nat
  | .hbm => 54
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S2x4194304, .i32⟩
  | .hbm, ⟨2, _⟩ => ⟨S16x128, .f32⟩
  | .hbm, ⟨3, _⟩ => ⟨S16, .f32⟩
  | .hbm, ⟨4, _⟩ => ⟨S16x128, .f32⟩
  | .hbm, ⟨5, _⟩ => ⟨S39x65536, .f32⟩
  | .hbm, ⟨6, _⟩ => ⟨S39, .f32⟩
  | .hbm, ⟨7, _⟩ => ⟨S1x4194304, .i32⟩
  | .hbm, ⟨8, _⟩ => ⟨S4194304, .i32⟩
  | .hbm, ⟨9, _⟩ => ⟨S1x4194304, .i32⟩
  | .hbm, ⟨10, _⟩ => ⟨S4194304, .i32⟩
  | .hbm, ⟨11, _⟩ => ⟨S128x16, .f32⟩
  | .hbm, ⟨12, _⟩ => ⟨S131072x16, .f32⟩
  | .hbm, ⟨13, _⟩ => ⟨S_, .i32⟩
  | .hbm, ⟨14, _⟩ => ⟨S4194304, .i32⟩
  | .hbm, ⟨15, _⟩ => ⟨S4194304, .i1⟩
  | .hbm, ⟨16, _⟩ => ⟨S_, .i32⟩
  | .hbm, ⟨17, _⟩ => ⟨S4194304, .i32⟩
  | .hbm, ⟨18, _⟩ => ⟨S4194304, .i32⟩
  | .hbm, ⟨19, _⟩ => ⟨S4194304, .i32⟩
  | .hbm, ⟨20, _⟩ => ⟨S4194304x1, .i32⟩
  | .hbm, ⟨21, _⟩ => ⟨S4194304x16, .f32⟩
  | .hbm, ⟨22, _⟩ => ⟨S_, .f32⟩
  | .hbm, ⟨23, _⟩ => ⟨S131072x16, .f32⟩
  | .hbm, ⟨24, _⟩ => ⟨S4194304x1, .i32⟩
  | .hbm, ⟨25, _⟩ => ⟨S131072x16, .f32⟩
  | .hbm, ⟨26, _⟩ => ⟨S_, .f32⟩
  | .hbm, ⟨27, _⟩ => ⟨S4194304, .f32⟩
  | .hbm, ⟨28, _⟩ => ⟨S_, .f32⟩
  | .hbm, ⟨29, _⟩ => ⟨S131072, .f32⟩
  | .hbm, ⟨30, _⟩ => ⟨S4194304x1, .i32⟩
  | .hbm, ⟨31, _⟩ => ⟨S131072, .f32⟩
  | .hbm, ⟨32, _⟩ => ⟨S_, .f32⟩
  | .hbm, ⟨33, _⟩ => ⟨S131072, .f32⟩
  | .hbm, ⟨34, _⟩ => ⟨S131072, .f32⟩
  | .hbm, ⟨35, _⟩ => ⟨S131072x1, .f32⟩
  | .hbm, ⟨36, _⟩ => ⟨S131072x16, .f32⟩
  | .hbm, ⟨37, _⟩ => ⟨S131072x16, .f32⟩
  | .hbm, ⟨38, _⟩ => ⟨S1x16, .f32⟩
  | .hbm, ⟨39, _⟩ => ⟨S131072x16, .f32⟩
  | .hbm, ⟨40, _⟩ => ⟨S131072x16, .f32⟩
  | .hbm, ⟨41, _⟩ => ⟨S128x16, .f32⟩
  | .hbm, ⟨42, _⟩ => ⟨S131072x16, .f32⟩
  | .hbm, ⟨43, _⟩ => ⟨S131072x16, .f32⟩
  | .hbm, ⟨44, _⟩ => ⟨S_, .f32⟩
  | .hbm, ⟨45, _⟩ => ⟨S131072x16, .f32⟩
  | .hbm, ⟨46, _⟩ => ⟨S131072x16, .f32⟩
  | .hbm, ⟨47, _⟩ => ⟨S32x65536, .f32⟩
  | .hbm, ⟨48, _⟩ => ⟨S65536x39, .f32⟩
  | .hbm, ⟨49, _⟩ => ⟨S32x39, .f32⟩
  | .hbm, ⟨50, _⟩ => ⟨S1x39, .f32⟩
  | .hbm, ⟨51, _⟩ => ⟨S32x39, .f32⟩
  | .hbm, ⟨52, _⟩ => ⟨S32x39, .f32⟩
  | .hbm, ⟨53, _⟩ => ⟨S32x39x1, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_cst : Ref sig .tc := ⟨.hbm, 44, rfl⟩
abbrev main_call0_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  slices_S2x4194304_S1x4194304_0_0 : S2x4194304.Slices ![0, 0] S1x4194304
  shapeCasts_S1x4194304_S4194304 : S1x4194304.ShapeCasts S4194304
  slices_S2x4194304_S1x4194304_1_0 : S2x4194304.Slices ![1, 0] S1x4194304
  transposes_S16x128_S128x16_1_0 : S16x128.Transposes [1, 0] S128x16
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S_S131072x16 : S_.BroadcastsInDim S131072x16 (![] : Fin 0 → Fin S131072x16.rank)
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x16_0_1 : S131072x1.BroadcastsInDim S131072x16 (![0, 1] : Fin 2 → Fin S131072x16.rank)
  bcast_S16_S1x16_1 : S16.BroadcastsInDim S1x16 (![1] : Fin 1 → Fin S1x16.rank)
  bcast_S1x16_S131072x16_0_1 : S1x16.BroadcastsInDim S131072x16 (![0, 1] : Fin 2 → Fin S131072x16.rank)
  shapeCasts_S131072x16_S32x65536 : S131072x16.ShapeCasts S32x65536
  transposes_S39x65536_S65536x39_1_0 : S39x65536.Transposes [1, 0] S65536x39
  bcast_S39_S1x39_1 : S39.BroadcastsInDim S1x39 (![1] : Fin 1 → Fin S1x39.rank)
  bcast_S1x39_S32x39_0_1 : S1x39.BroadcastsInDim S32x39 (![0, 1] : Fin 2 → Fin S32x39.rank)
  bcast_S32x39_S32x39x1_0_1 : S32x39.BroadcastsInDim S32x39x1 (![0, 1] : Fin 2 → Fin S32x39x1.rank)
  dot_S131072x128_S128x16_S131072x16_1_0_0_1_n_n_wf : DotDims.WF S131072x128 S128x16 S131072x16 [1] [0] [0] [1] [] []
  gather_S131072x16_S4194304x1_S4194304x16_1_0_n_n_0_1_116_wf : GatherDims.WF S131072x16 S4194304x1 S4194304x16 [1] [0] [] [0] [] 1 ![1, 16]
  scatter_S131072x16_S4194304x1_S4194304x16_1_0_0_1_wf : ScatterDims.WF S131072x16 S4194304x1 S4194304x16 [1] [0] [0] 1
  scatter_S131072_S4194304x1_S4194304_n_0_0_1_wf : ScatterDims.WF S131072 S4194304x1 S4194304 [] [0] [0] 1
  dot_S32x65536_S65536x39_S32x39_1_0_0_1_n_n_wf : DotDims.WF S32x65536 S65536x39 S32x39 [1] [0] [0] [1] [] []

variable [Facts₀]

def dot_S131072x128_S128x16_S131072x16_1_0_0_1_n_n : DotDims S131072x128 S128x16 S131072x16 where
  lhsContracting := [1]
  rhsContracting := [0]
  lhsNonContracting := [0]
  rhsNonContracting := [1]
  lhsBatch := []
  rhsBatch := []
  wf := dot_S131072x128_S128x16_S131072x16_1_0_0_1_n_n_wf
def gather_S131072x16_S4194304x1_S4194304x16_1_0_n_n_0_1_116 : GatherDims S131072x16 S4194304x1 S4194304x16 where
  offsetDims := [1]
  collapsedSliceDims := [0]
  operandBatchingDims := []
  startIndicesBatchingDims := []
  startIndexMap := [0]
  indexVectorDim := 1
  sliceSizes := ![1, 16]
  wf := gather_S131072x16_S4194304x1_S4194304x16_1_0_n_n_0_1_116_wf
def scatter_S131072x16_S4194304x1_S4194304x16_1_0_0_1 : ScatterDims S131072x16 S4194304x1 S4194304x16 where
  updateWindowDims := [1]
  insertedWindowDims := [0]
  scatterDimsToOperandDims := [0]
  indexVectorDim := 1
  wf := scatter_S131072x16_S4194304x1_S4194304x16_1_0_0_1_wf
def scatter_S131072_S4194304x1_S4194304_n_0_0_1 : ScatterDims S131072 S4194304x1 S4194304 where
  updateWindowDims := []
  insertedWindowDims := [0]
  scatterDimsToOperandDims := [0]
  indexVectorDim := 1
  wf := scatter_S131072_S4194304x1_S4194304_n_0_0_1_wf
def dot_S32x65536_S65536x39_S32x39_1_0_0_1_n_n : DotDims S32x65536 S65536x39 S32x39 where
  lhsContracting := [1]
  rhsContracting := [0]
  lhsNonContracting := [0]
  rhsNonContracting := [1]
  lhsBatch := []
  rhsBatch := []
  wf := dot_S32x65536_S65536x39_S32x39_1_0_0_1_n_n_wf

class Facts : Prop extends Facts₀ where

variable [Facts]
-- ==== Proof.Kernel.Linear.lean ====
/-
  The first call: on each block of 4096 rows of x it forms the two products x·W_lᵀ and x·W_rᵀ (the rows and both
  weight matrices rounded to bf16 first, which over the reals changes nothing), one 4096×16 block of each result per
  grid point. Stated at any contents V of the buffers when the call is entered: what each window's staging buffer
  holds after the body at a point, the body's triple, and the obligation the pipeline asks of the body.
-/
import proofs.«123501_j84713934946331_1_alg».proof.Proof.Gen.Kernel.Launch
import proofs.«123501_j84713934946331_1_alg».proof.Proof.Gen.Kernel.Skeleton
import proofs.«123501_j84713934946331_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window w's block at point t, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S4096x128 := Rect.unit (s := S4096x128) ![0, 0] S4096x128.size inb_S4096x128_S4096x128_0_0
abbrev rW0 : Rect S128x16 := Rect.unit (s := S128x16) ![0, 0] S128x16.size inb_S128x16_S128x16_0_0
abbrev rO0 : Rect S4096x16 := Rect.unit (s := S4096x16) ![0, 0] S4096x16.size inb_S4096x16_S4096x16_0_0

/-- The block of x·W_lᵀ the body leaves: the product of the row block with the whole (transposed) weight matrix. -/
def xlBlk (x : Vec F S4096x128 .f32) (wl : Vec F S128x16 .f32) : Vec F S4096x16 .f32 :=
  View.canon [⟨rO0, k0_pay2 (View.ld x rX0) (View.ld wl rW0)⟩]

/-- The block of x·W_rᵀ the body leaves. -/
def xrBlk (x : Vec F S4096x128 .f32) (wr : Vec F S128x16 .f32) : Vec F S4096x16 .f32 :=
  View.canon [⟨rO0, k0_pay3 (View.ld x rX0) (View.ld wr rW0)⟩]

/-- One whole-block store covers the block. -/
theorem cover0 (p0 : Vec F S4096x16 .f32) (y : S4096x16.Idx) :
    ∃ pc ∈ ([⟨rO0, p0⟩] : List (View.Piece (Elt F) S4096x16 .f32)), y ∈ pc.1.set :=
  View.cover_of_tiled [⟨rO0, p0⟩] S4096x16.size (by rfl) y

/-! ## The body's triple -/

set_option maxHeartbeats 1000000 in
/-- On whole staging memrefs, the three inputs' at read contents and the two outputs' at anything, the body runs to the
    continuation holding the inputs as they were and the outputs at the two products' blocks. -/
theorem linear_kernel_runs (c : Dev nD) (E : Set ℕ) (i : grid0.Coords)
    (arg1 : Memref sig .tc .vmem S4096x128 .f32) (harg1 : arg1.IsWhole) (arg2 : Memref sig .tc .vmem S128x16 .f32) (harg2 : arg2.IsWhole)
    (arg3 : Memref sig .tc .vmem S128x16 .f32) (harg3 : arg3.IsWhole) (arg4 : Memref sig .tc .vmem S4096x16 .f32) (harg4 : arg4.IsWhole)
    (arg5 : Memref sig .tc .vmem S4096x16 .f32) (harg5 : arg5.IsWhole)
    (x0 : Vec F S4096x128 .f32) (x1 : Vec F S128x16 .f32) (x2 : Vec F S128x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (xlBlk x0 x1) ∗ owns (c : Thread nD τ) arg5 fullShare (xrBlk x0 x2)) -∗ K ⟨⟩))
      ⊢ wp frame (wpE (defs₀ (F := F)) Variants.none c none) E (cc0__linear_both_kernel i arg1 harg1 arg2 harg2 arg3 harg3 arg4 harg4 arg5 harg5) K := by
  simp only [cc0__linear_both_kernel_eq_skeleton]; unfold cc0__linear_both_kernel_skel
  unfold xlBlk xrBlk
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! ## The proof data -/

/-- The call's proof data on core c: the arrays as it finds them; after the body at point t each input's buffer at
    its block, the two outputs' at the products of the point's blocks; the invariant the scoped buffers the pipeline
    does not stage and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => xlBlk (blk0 V c 0 t) (blk0 V c 1 t)
    | ⟨4, _⟩ => xrBlk (blk0 V c 0 t) (blk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = xlBlk (blk0 V c 0 t) (blk0 V c 1 t) := by dsimp only [dat0]
theorem after0_4 (c : Dev nD) (t : Fin cfg0.N) : (dat0 V c).after 4 t = xrBlk (blk0 V c 0 t) (blk0 V c 2 t) := by dsimp only [dat0]

/-- Each input's current staging buffer holds its block at every point, fetched there or not (an input not fetched at a
    point has the block index of the point before). -/
theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [A_eq0]; try rfl) t d).trans
    (by unfold Dat.fetched Dat.blockOf blk0; rw [A_eq0]; try rfl)
theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [A_eq0]; try rfl) t d).trans
    (by unfold Dat.fetched Dat.blockOf blk0; rw [A_eq0]; try rfl)
theorem before0_2 (c : Dev nD) (t : Fin cfg0.N) (d) : (dat0 V c).before 2 t d = blk0 V c 2 t :=
  ((dat0 V c).before_in_eq_fetched 2 rfl (fun _ => rfl) (fun _ _ _ => rfl)
    (fun t => by rw [after0_2]; unfold Dat.blockOf blk0; rw [A_eq0]; try rfl) t d).trans
    (by unfold Dat.fetched Dat.blockOf blk0; rw [A_eq0]; try rfl)

/-! ## The body obligation -/

/-- What the body is handed at point t: the invariant, what the core owes, and each window's current staging
    buffer at what it then holds. -/
private def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it hands back: the same invariant and debt, and each buffer at what the body leaves in it. -/
private def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the three inputs' buffers hold their blocks, so the body's triple applies at those blocks;
    the invariant and the core's debt are not read and pass through. -/
private theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (linear_kernel_runs c Set.univ (grid0.coords t) _ _ _ _ _ _ _ _ _ _
    (blk0 V c 0 t) (blk0 V c 1 t) (blk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- What the pipeline asks of the body, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Combine.lean ====
/-
  The second call: on each block of 4096 rows it adds the bias row to the neighbourhood mean, adds the x·W_rᵀ block, and
  takes the maximum with zero. Stated at any contents V of the buffers when the call is entered.
-/
import proofs.«123501_j84713934946331_1_alg».proof.Proof.Gen.Kernel.Launch
import proofs.«123501_j84713934946331_1_alg».proof.Proof.Gen.Kernel.Skeleton
import proofs.«123501_j84713934946331_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window w's block at point t, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rB1 : Rect S1x16 := Rect.unit (s := S1x16) ![0, 0] S1x16.size inb_S1x16_S1x16_0_0
abbrev rO1 : Rect S4096x16 := Rect.unit (s := S4096x16) ![0, 0] S4096x16.size inb_S4096x16_S4096x16_0_0

/-- The block the body leaves: max(mean + bias + x·W_rᵀ, 0), entry by entry. -/
def hBlk (mean : Vec F S4096x16 .f32) (xr : Vec F S4096x16 .f32) (bl : Vec F S1x16 .f32) : Vec F S4096x16 .f32 :=
  View.canon [⟨rO1, k1_pay1 (View.ld bl rB1) (View.ld mean rO1) (View.ld xr rO1)⟩]

/-- One whole-block store covers the block. -/
theorem cover1 (p0 : Vec F S4096x16 .f32) (y : S4096x16.Idx) :
    ∃ pc ∈ ([⟨rO1, p0⟩] : List (View.Piece (Elt F) S4096x16 .f32)), y ∈ pc.1.set :=
  View.cover_of_tiled [⟨rO1, p0⟩] S4096x16.size (by rfl) y

/-! ## The body's triple -/

set_option maxHeartbeats 1000000 in
/-- On whole staging memrefs, the three inputs' at read contents and the output's at anything, the body runs to the
    continuation holding the inputs as they were and the output at the combined block. -/
theorem combine_kernel_runs (c : Dev nD) (E : Set ℕ) (i : grid1.Coords)
    (arg1 : Memref sig .tc .vmem S4096x16 .f32) (harg1 : arg1.IsWhole) (arg2 : Memref sig .tc .vmem S4096x16 .f32) (harg2 : arg2.IsWhole)
    (arg3 : Memref sig .tc .vmem S1x16 .f32) (harg3 : arg3.IsWhole) (arg4 : Memref sig .tc .vmem S4096x16 .f32) (harg4 : arg4.IsWhole)
    (x0 : Vec F S4096x16 .f32) (x1 : Vec F S4096x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (hBlk x0 x1 x2)) -∗ K ⟨⟩))
      ⊢ wp frame (wpE (defs₀ (F := F)) Variants.none c none) E (cc1__combine_kernel i arg1 harg1 arg2 harg2 arg3 harg3 arg4 harg4) K := by
  -- the body is three whole-block loads of the inputs, one load of the output's buffer whose value is dropped, and one
  -- whole-block store of the payload
  simp only [cc1__combine_kernel_eq_skeleton]; unfold cc1__combine_kernel_skel
  unfold owns
  iintro ⟨⟨%fm, %hm, Hm⟩, ⟨%fx, %hx, Hx⟩, ⟨%fb, %hb, Hb⟩, ⟨%d, %fo, -, Ho⟩, Hk⟩
  -- each input's contents is what its buffer reads
  subst hm; subst hx; subst hb
  sl_exec
  sl_step
  iapply Hk
  -- the inputs' buffers were only read
  isplitl [Hm]
  · iexists fm; isplitr; · ipureintro; rfl
    iexact Hm
  isplitl [Hx]
  · iexists fx; isplitr; · ipureintro; rfl
    iexact Hx
  isplitl [Hb]
  · iexists fb; isplitr; · ipureintro; rfl
    iexact Hb
  -- the output's buffer after the one store that covers it reads the payload everywhere, whatever it held
  iexists _; isplitr
  swap; · iexact Ho
  ipureintro
  exact View.read_writes_eq_canon _ _ _ (cover1 _)

/-! ## The proof data -/

/-- The call's proof data on core c: the arrays as it finds them; after the body at point t each input's buffer at
    its block and the output's at the combined block; the invariant the scoped buffers the pipeline does not stage and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => hBlk (blk1 V c 0 t) (blk1 V c 1 t) (blk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = hBlk (blk1 V c 0 t) (blk1 V c 1 t) (blk1 V c 2 t) := by dsimp only [dat1]

/-- Each input's current staging buffer holds its block at every point, fetched there or not. -/
theorem before1_0 (c : Dev nD) (t : Fin cfg1.N) (d) : (dat1 V c).before 0 t d = blk1 V c 0 t := by
  -- fetched at every point: what the fetch puts in the buffer is the block of the array as the call found it
  refine ((dat1 V c).before_in_eq_fetched 0 rfl (fun _ => rfl) (fun _ _ _ => rfl) (fun s => ?_) t d).trans ?_
  · rw [after1_0]; unfold Dat.blockOf blk1; rw [A_eq1]; try rfl
  · unfold Dat.fetched Dat.blockOf blk1; rw [A_eq1]; try rfl
theorem before1_1 (c : Dev nD) (t : Fin cfg1.N) (d) : (dat1 V c).before 1 t d = blk1 V c 1 t := by
  -- fetched at every point: what the fetch puts in the buffer is the block of the array as the call found it
  refine ((dat1 V c).before_in_eq_fetched 1 rfl (fun _ => rfl) (fun _ _ _ => rfl) (fun s => ?_) t d).trans ?_
  · rw [after1_1]; unfold Dat.blockOf blk1; rw [A_eq1]; try rfl
  · unfold Dat.fetched Dat.blockOf blk1; rw [A_eq1]; try rfl
theorem before1_2 (c : Dev nD) (t : Fin cfg1.N) (d) : (dat1 V c).before 2 t d = blk1 V c 2 t := by
  -- the bias row is fetched at the first point only; its block index never moves, so the block kept is the block there
  refine ((dat1 V c).before_in_eq_fetched 2 rfl (fun _ => rfl) (fun _ _ _ => rfl) (fun s => ?_) t d).trans ?_
  · rw [after1_2]; unfold Dat.blockOf blk1; rw [A_eq1]; try rfl
  · unfold Dat.fetched Dat.blockOf blk1; rw [A_eq1]; try rfl

/-! ## The body obligation -/

/-- What the body is handed at point t: the invariant, what the core owes, and each window's current staging buffer at
    what it then holds. -/
private def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it hands back: the same invariant and debt, each buffer at what the body leaves. -/
private def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at a point: the three inputs' buffers hold their blocks, the output's holds anything, so the triple applies at
    the blocks; the invariant and the debt are not touched and do not depend on the point. -/
private theorem combine_at_point (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Hw, ⟨%d0, Hm⟩, ⟨%d1, Hx⟩, ⟨%d2, Hb⟩, ⟨%d3, Ho⟩⟩
  iapply (combine_kernel_runs c Set.univ (grid1.coords t) _ _ _ _ _ _ _ _ (blk1 V c 0 t) (blk1 V c 1 t) (blk1 V c 2 t) _)
  isplitl [Hm]; · iexact Hm
  isplitl [Hx]; · iexact Hx
  isplitl [Hb]; · iexact Hb
  isplitl [Ho]; · iexists _; iexact Ho
  iintro ⟨Hm, Hx, Hb, Ho⟩
  isplitl [HΦ]; · iexact HΦ
  isplitl [Hw]; · iexact Hw
  isplitl [Hm]; · iexact Hm
  isplitl [Hx]; · iexact Hx
  isplitl [Hb]; · iexact Hb
  iexact Ho

/-- What the pipeline asks of the body, at every point. -/
theorem body_obligation1 (c : Dev nD) : BodyObligation (dat1 (F := F) V c) (defs₀ (F := F)) Variants.none () Set.univ := by
  intro t
  -- the four windows one by one
  rw [bigSep_W1, bigSep_W1]
  exact combine_at_point V c t

end Cert.Kernel.Hand

end
-- ==== Proof.Kernel.Final.lean ====
/-
  The third call: the product g·W_outᵀ with the contracted axis of 65536 cut into 8 blocks of 8192, one per grid point.
  A scratch accumulator is set to zero at the first point, gains the product of the point's blocks at every point, and at
  the last point the bias row is added to it and the sum stored as the result. The accumulator is carried between
  points: the invariant before a point names what the point before left in it. The result's window is stored at the
  last point only; at the others the body hands its buffer back as found. Stated at any contents V of the buffers when
  the call is entered.
-/
import proofs.«123501_j84713934946331_1_alg».proof.Proof.Gen.Kernel.Launch
import proofs.«123501_j84713934946331_1_alg».proof.Proof.Gen.Kernel.Skeleton
import proofs.«123501_j84713934946331_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window w's block at point t, read off its array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rG2 : Rect S32x8192 := Rect.unit (s := S32x8192) ![0, 0] S32x8192.size inb_S32x8192_S32x8192_0_0
abbrev rW2 : Rect S39x8192 := Rect.unit (s := S39x8192) ![0, 0] S39x8192.size inb_S39x8192_S39x8192_0_0
abbrev rB2 : Rect S1x39 := Rect.unit (s := S1x39) ![0, 0] S1x39.size inb_S1x39_S1x39_0_0
abbrev rA2 : Rect S32x39 := Rect.unit (s := S32x39) ![0, 0] S32x39.size inb_S32x39_S32x39_0_0

/-- The scratch accumulator: a whole scoped buffer of the call's own, passed beside the windows. -/
abbrev scM2 : Memref sig .tc .vmem S32x39 .f32 := Memref.whole cc2_scratch0

/-! ## The body's two conditions, from the grid coordinate -/

/-- "this is the first block of the contracted axis". -/
abbrev isFirst (i : grid2.Coords) : Prop := (Scalar.cmpi .ne (Scalar.extui (Scalar.cmpi .eq (BitVec.ofNat 32 (i 0).val) 0#32)) 0#32) = 1#1
/-- "this is the last block of the contracted axis". -/
abbrev isLast (i : grid2.Coords) : Prop := k2_cond2 i = 1#1

theorem isFirst_iff : ∀ t : Fin cfg2.N, isFirst (grid2.coords t) ↔ t.val = 0 :=
  (by decide +kernel : ∀ t : Fin grid2.N, isFirst (grid2.coords t) ↔ t.val = 0)
theorem isLast_iff : ∀ t : Fin cfg2.N, isLast (grid2.coords t) ↔ t.val = 7 :=
  (by decide +kernel : ∀ t : Fin grid2.N, isLast (grid2.coords t) ↔ t.val = 7)

/-- The result's window is idle exactly off the last point, and written back exactly at it; the inputs are never idle. -/
theorem idle2_3_iff : ∀ t : Fin cfg2.N, cfg2.idle 3 (grid2.coords t) = true ↔ t.val ≠ 7 :=
  (by decide +kernel : ∀ t : Fin grid2.N, idle2 3 (grid2.coords t) = true ↔ t.val ≠ 7)
theorem flush2_3_iff : ∀ t : Fin cfg2.N, (cfg2.win 3).flush t = true ↔ t.val = 7 :=
  (by decide +kernel : ∀ t : Fin grid2.N, win2_3.flush t = true ↔ t.val = 7)
theorem live2_0 : ∀ t : Fin cfg2.N, cfg2.idle 0 (grid2.coords t) = false := fun _ => rfl
theorem live2_1 : ∀ t : Fin cfg2.N, cfg2.idle 1 (grid2.coords t) = false := fun _ => rfl
theorem live2_2 : ∀ t : Fin cfg2.N, cfg2.idle 2 (grid2.coords t) = false := fun _ => rfl

/-! ## What a point leaves in the accumulator and in the result -/

/-- After the first point: zero plus the product of the first blocks. -/
def accFirst (g : Vec F S32x8192 .f32) (w : Vec F S39x8192 .f32) : Vec F S32x39 .f32 := k2_pay2 g w (k2_pay1 (F := F))
/-- After a later point: what the point before left plus the product of this point's blocks. -/
def accNext (g : Vec F S32x8192 .f32) (w : Vec F S39x8192 .f32) (a : Vec F S32x39 .f32) : Vec F S32x39 .f32 := k2_pay2 g w a
/-- The result stored at the last point: the accumulator plus the bias row. -/
def outLast (a : Vec F S32x39 .f32) (b : Vec F S1x39 .f32) : Vec F S32x39 .f32 := k2_pay3 a b

/-! ## The body's triple, case by case -/

/-- The zero offsets of a whole-buffer rectangle, however they are spelt. -/
private theorem hz2 : (![0, 0] : Fin 2 → Nat) = fun _ => 0 := funext fun a => by fin_cases a <;> rfl

set_option maxHeartbeats 1000000 in
/-- At the first point (not the last): the inputs and the result's buffer come back as they were, the accumulator, found
    at anything, is left at accFirst of the two blocks. -/
theorem final_kernel_first (c : Dev nD) (E : Set ℕ) (i : grid2.Coords) (arg1 : Memref sig .tc .vmem S32x8192 .f32) (harg1 : arg1.IsWhole) (arg2 : Memref sig .tc .vmem S39x8192 .f32) (harg2 : arg2.IsWhole)
    (arg3 : Memref sig .tc .vmem S1x39 .f32) (harg3 : arg3.IsWhole) (arg4 : Memref sig .tc .vmem S32x39 .f32) (harg4 : arg4.IsWhole)
    (arg5 : Memref sig .tc .vmem S32x39 .f32) (harg5 : arg5.IsWhole)
    (hc1 : isFirst i) (hc2 : ¬isLast i)
    (x0 : Vec F S32x8192 .f32) (x1 : Vec F S39x8192 .f32) (x2 : Vec F S1x39 .f32) (xi : Vec F S32x39 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xi ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare xi ∗ owns (c : Thread nD τ) arg5 fullShare (accFirst x0 x1)) -∗ K ⟨⟩))
      ⊢ wp frame (wpE (defs₀ (F := F)) Variants.none c none) E (cc2__final_linear_kernel i arg1 harg1 arg2 harg2 arg3 harg3 arg4 harg4 arg5 harg5) K := by
  simp only [cc2__final_linear_kernel_eq_skeleton]; unfold cc2__final_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1; obtain rfl := harg3.eq_unread hf2
  obtain rfl := harg4.eq_unread hf3
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  sl_unfold_words
  refine (View.read_writes_eq_canon _ _ _ ?_).trans ?_
  · intro y; exact ⟨_, List.mem_cons_self, View.mem_set_unit_zero (S := S32x39) hz2 inb_S32x39_S32x39_0_0 y⟩
  rw [View.canon_cons_unit_zero (S := S32x39) hz2]
  simp only [View.readAt_eq_ld, harg1.read_unread, harg2.read_unread, harg3.read_unread, harg4.read_unread, harg5.read_unread,
    View.readCov_unit_zero (S := S32x39) _ hz2, View.ld_unit_zero (S := S32x8192) hz2, View.ld_unit_zero (S := S39x8192) hz2,
    View.ld_unit_zero (S := S32x39) hz2, View.ld_unit_zero (S := S1x39) hz2]
  rfl

set_option maxHeartbeats 1000000 in
/-- At a point neither first nor last: the accumulator, found at a, is left at accNext of the two blocks and a. -/
theorem final_kernel_mid (c : Dev nD) (E : Set ℕ) (i : grid2.Coords) (arg1 : Memref sig .tc .vmem S32x8192 .f32) (harg1 : arg1.IsWhole) (arg2 : Memref sig .tc .vmem S39x8192 .f32) (harg2 : arg2.IsWhole)
    (arg3 : Memref sig .tc .vmem S1x39 .f32) (harg3 : arg3.IsWhole) (arg4 : Memref sig .tc .vmem S32x39 .f32) (harg4 : arg4.IsWhole)
    (arg5 : Memref sig .tc .vmem S32x39 .f32) (harg5 : arg5.IsWhole)
    (hc1 : ¬isFirst i) (hc2 : ¬isLast i)
    (x0 : Vec F S32x8192 .f32) (x1 : Vec F S39x8192 .f32) (x2 : Vec F S1x39 .f32) (xi : Vec F S32x39 .f32) (a : Vec F S32x39 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xi ∗ owns (c : Thread nD τ) arg5 fullShare a
        ∗ (iprop(owns (c : Thread nD τ) arg1 fullShare x0 ∗ owns (c : Thread nD τ) arg2 fullShare x1 ∗ owns (c : Thread nD τ) arg3 fullShare x2 ∗ owns (c : Thread nD τ) arg4 fullShare xi ∗ owns (c : Thread nD τ) arg5 fullShare (accNext x0 x1 a)) -∗ K ⟨⟩))
      ⊢ wp frame (wpE (defs₀ (F := F)) Variants.none c none) E (cc2__final_linear_kernel i arg1 harg1 arg2 harg2 arg3 harg3 arg4 harg4 arg5 harg5) K := by
  simp only [cc2__final_linear_kernel_eq_skeleton]; unfold cc2__final_linear_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  refine (View.read_writes_eq_canon _ _ _ ?_).trans ?_
  · intro y; exact ⟨_, List.mem_singleton_self _, View.mem_set_unit_zero (S := S32x39) hz2 inb_S32x39_S32x39_0_0 y⟩
  rw [View.canon_unit_zero (S := S32x39) hz2]
  simp only [View.readAt_eq_ld, harg1.read_unread, harg2.read_unread, harg3.read_unread, harg4.read_unread, harg5.read_unread,
    View.readCov_unit_zero (S := S32x39) _ hz2, View.ld_unit_zero (S := S32x8192) hz2, View.ld_unit_zero (S := S39x8192) hz2,
    View.ld_unit_zero (S := S32x39) hz2, View.ld_unit_zero (S := S1x39) hz2]
  rfl

set_option maxHeartbeats 1000000 in
/-- At the last point (not the first): the accumulator, found at a, is left at accNext of the two blocks and a, and the
    result's buffer, found at anything, at that plus the bias row. -/
theorem final_kernel_last (c : Dev nD) (E : Set ℕ) (i : grid2.Coords) (arg1 : Memref sig .tc .vmem S32x8192 .f32) (harg1 : arg1.IsWhole) (arg2 : Memref sig .tc .vmem S39x8192 .f32) (harg2 : arg2.IsWhole)
    (arg3 : Memref sig .tc .vmem S1x39 .f32) (harg3 : arg3.IsWhole) (arg4 : Memref sig .tc .vmem S32x39 .f32) (harg4 : arg4.IsWhole)
    (arg5 : Memref sig .tc .vmem S32x39 .f32) (harg5 : arg5.IsWhole)
    (hc1 : ¬isFirst i) (hc2 : isLast i)
    (x0 : Vec F S32x8192 .f32) (x1 : Vec F S39x8192 .f32) (x2 : Vec F S1x39 .f32) (a : Vec F S32x39 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare a
        ∗ (iprop(owns (c : Thread nD τ) arg1 fullShare x0 ∗ owns (c : Thread nD τ) arg2 fullShare x1 ∗ owns (c : Thread nD τ) arg3 fullShare x2 ∗ owns (c : Thread nD τ) arg4 fullShare (outLast (accNext x0 x1 a) x2) ∗ owns (c : Thread nD τ) arg5 fullShare (accNext x0 x1 a)) -∗ K ⟨⟩))
      ⊢ wp frame (wpE (defs₀ (F := F)) Variants.none c none) E (cc2__final_linear_kernel i arg1 harg1 arg2 harg2 arg3 harg3 arg4 harg4 arg5 harg5) K := by
  simp only [cc2__final_linear_kernel_eq_skeleton]; unfold cc2__final_linear_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg1.eq_unread hf0; obtain rfl := harg2.eq_unread hf1; obtain rfl := harg3.eq_unread hf2
  obtain rfl := harg5.eq_unread hf4
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_words
    refine (View.read_writes_eq_canon _ _ _ ?_).trans ?_
    · intro y; exact ⟨_, List.mem_singleton_self _, View.mem_set_unit_zero (S := S32x39) hz2 inb_S32x39_S32x39_0_0 y⟩
    rw [View.canon_unit_zero (S := S32x39) hz2]
    simp only [View.readAt_eq_ld, harg1.read_unread, harg2.read_unread, harg3.read_unread, harg4.read_unread, harg5.read_unread,
    View.readCov_unit_zero (S := S32x39) _ hz2, View.ld_unit_zero (S := S32x8192) hz2, View.ld_unit_zero (S := S39x8192) hz2,
    View.ld_unit_zero (S := S32x39) hz2, View.ld_unit_zero (S := S1x39) hz2]
    rfl
  iexists _; isplitr
  swap; · iexact H4
  ipureintro
  sl_unfold_words
  refine (View.read_writes_eq_canon _ _ _ ?_).trans ?_
  · intro y; exact ⟨_, List.mem_singleton_self _, View.mem_set_unit_zero (S := S32x39) hz2 inb_S32x39_S32x39_0_0 y⟩
  rw [View.canon_unit_zero (S := S32x39) hz2]
  simp only [View.readAt_eq_ld, harg1.read_unread, harg2.read_unread, harg3.read_unread, harg4.read_unread, harg5.read_unread,
    View.readCov_unit_zero (S := S32x39) _ hz2, View.ld_unit_zero (S := S32x8192) hz2, View.ld_unit_zero (S := S39x8192) hz2,
    View.ld_unit_zero (S := S32x39) hz2, View.ld_unit_zero (S := S1x39) hz2]
  rfl

/-! ## The accumulator point by point -/

/-- What the accumulator holds after point n: the first point's product, then one block's product more per point. -/
def accAt (c : Dev nD) : (n : ℕ) → n < cfg2.N → Vec F S32x39 .f32
  | 0, h => accFirst (blk2 V c 0 ⟨0, h⟩) (blk2 V c 1 ⟨0, h⟩)
  | n + 1, h => accNext (blk2 V c 0 ⟨n + 1, h⟩) (blk2 V c 1 ⟨n + 1, h⟩) (accAt c n (Nat.lt_of_succ_lt h))

theorem accAt_zero (c : Dev nD) (h : 0 < cfg2.N) : accAt V c 0 h = accFirst (blk2 V c 0 ⟨0, h⟩) (blk2 V c 1 ⟨0, h⟩) := rfl
theorem accAt_succ (c : Dev nD) (n : ℕ) (h : n + 1 < cfg2.N) :
    accAt V c (n + 1) h = accNext (blk2 V c 0 ⟨n + 1, h⟩) (blk2 V c 1 ⟨n + 1, h⟩) (accAt V c n (Nat.lt_of_succ_lt h)) := rfl

/-! ## The invariant: the accumulator carried between points -/

/-- The scoped buffers of the other two calls, each whole at some contents, beside S (S speaks of the accumulator). -/
def restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ S)

/-- The class invariant, with the accumulator as a memref owned at some contents. -/
theorem PhiA2_eq (c : Dev nD) :
    (Pipeline.ΦA spec2 c : sProp 𝕄) = iprop(restWith (F := F) c (iprop(∃ d, owns (c : Thread nD τ) scM2 fullShare d)) ∗ (∃ r, prngReg c r)) := by
  unfold Pipeline.ΦA restWith; rw [scopedRest2_eq]; simp only [scM2, owns_whole]; try rfl

/-- Before the first point: the class invariant (the accumulator at anything). Before point n + 1: the accumulator at
    what point n left in it. -/
def accInv (c : Dev nD) : (n : ℕ) → n ≤ cfg2.N → sProp 𝕄
  | 0, _ => Pipeline.ΦA spec2 c
  | n + 1, hn => iprop(restWith (F := F) c (owns (c : Thread nD τ) scM2 fullShare (accAt V c n hn)) ∗ (∃ r, prngReg c r))

/-! ## The proof data -/

/-- The call's proof data on core c: the arrays as it finds them; after the body at point t each input's buffer at its
    block, the result's at the accumulator after t plus the bias row (consulted at the last point only: the window is
    idle elsewhere); the invariant accInv; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => outLast (accAt V c t.val t.isLt) (blk2 V c 2 t)
  Φ t := accInv V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = outLast (accAt V c t.val t.isLt) (blk2 V c 2 t) := by dsimp only [dat2]

/-- Each input's current staging buffer holds its block at every point, fetched there or not. -/
theorem before2_0 (c : Dev nD) (t : Fin cfg2.N) (d) : (dat2 V c).before 0 t d = blk2 V c 0 t :=
  ((dat2 V c).before_in_eq_fetched 0 rfl (fun _ => rfl) (fun _ _ _ => rfl) (fun t => by rw [after2_0]; unfold Dat.blockOf blk2; rw [A_eq2]; try rfl) t d).trans
    (by unfold Dat.fetched Dat.blockOf blk2; rw [A_eq2]; try rfl)
theorem before2_1 (c : Dev nD) (t : Fin cfg2.N) (d) : (dat2 V c).before 1 t d = blk2 V c 1 t :=
  ((dat2 V c).before_in_eq_fetched 1 rfl (fun _ => rfl) (fun _ _ _ => rfl) (fun t => by rw [after2_1]; unfold Dat.blockOf blk2; rw [A_eq2]; try rfl) t d).trans
    (by unfold Dat.fetched Dat.blockOf blk2; rw [A_eq2]; try rfl)
theorem before2_2 (c : Dev nD) (t : Fin cfg2.N) (d) : (dat2 V c).before 2 t d = blk2 V c 2 t :=
  ((dat2 V c).before_in_eq_fetched 2 rfl (fun _ => rfl) (fun _ _ _ => rfl) (fun t => by rw [after2_2]; unfold Dat.blockOf blk2; rw [A_eq2]; try rfl) t d).trans
    (by unfold Dat.fetched Dat.blockOf blk2; rw [A_eq2]; try rfl)

/-! ## The body obligation, and the invariant's two ends -/

/-! ### The invariant and the accumulator at a point given by its position -/

private theorem accInv_castSucc (c : Dev nD) (t : Fin cfg2.N) :
    (dat2 V c).Φ t.castSucc = accInv V c t.val (Nat.le_of_lt t.isLt) := by
  dsimp only [dat2]; simp only [Fin.coe_castSucc]

private theorem accInv_zero (c : Dev nD) (n : ℕ) (h : n ≤ cfg2.N) (hz : n = 0) : accInv V c n h = Pipeline.ΦA spec2 c := by
  subst hz; rfl

private theorem accInv_succ (c : Dev nD) (n : ℕ) (hn : n < cfg2.N) :
    accInv V c (n + 1) hn = iprop(restWith (F := F) c (owns (c : Thread nD τ) scM2 fullShare (accAt V c n hn)) ∗ (∃ r, prngReg c r)) := rfl

private theorem accInv_pos (c : Dev nD) (n : ℕ) (h : n ≤ cfg2.N) (hz : n ≠ 0) :
    accInv V c n h = iprop(restWith (F := F) c (owns (c : Thread nD τ) scM2 fullShare (accAt V c (n - 1) (by omega))) ∗ (∃ r, prngReg c r)) := by
  cases n with
  | zero => exact absurd rfl hz
  | succ n => rfl

private theorem accAt_first (c : Dev nD) (t : Fin cfg2.N) (hz : t.val = 0) :
    accAt V c t.val t.isLt = accFirst (blk2 V c 0 t) (blk2 V c 1 t) := by
  obtain ⟨n, hn⟩ := t
  cases n with
  | zero => rfl
  | succ n => exact absurd hz (Nat.succ_ne_zero n)

private theorem accAt_pos (c : Dev nD) (t : Fin cfg2.N) (hz : t.val ≠ 0) :
    accAt V c t.val t.isLt = accNext (blk2 V c 0 t) (blk2 V c 1 t) (accAt V c (t.val - 1) (Nat.lt_of_le_of_lt (Nat.sub_le _ _) t.isLt)) := by
  obtain ⟨n, hn⟩ := t
  cases n with
  | zero => exact absurd rfl hz
  | succ n => rfl

/-- Each window's current staging memref at point t, as the pipeline passes it to the body. -/
private abbrev ms2_0 (t : Fin cfg2.N) : Memref sig .tc .vmem S32x8192 .f32 := win2_0.stage (cfg2.slots t 0)
private abbrev ms2_1 (t : Fin cfg2.N) : Memref sig .tc .vmem S39x8192 .f32 := win2_1.stage (cfg2.slots t 1)
private abbrev ms2_2 (t : Fin cfg2.N) : Memref sig .tc .vmem S1x39 .f32 := win2_2.stage (cfg2.slots t 2)
private abbrev ms2_3 (t : Fin cfg2.N) : Memref sig .tc .vmem S32x39 .f32 := win2_3.stage (cfg2.slots t 3)

/-- What the body is called with at point t: the invariant, what the core owes, the four windows one by one, -/
private def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
private def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' buffers hold their blocks; the position says which of the three cases the point
    is in. At the first point the invariant hands the accumulator over at anything and takes it back at accFirst of the
    blocks; at a later point it hands it over at what the point before left and takes it back at accNext of the blocks and
    that. The result's buffer goes back as found at every point but the last (idle, not written back), and at the last
    holds the accumulator plus the bias row. The other calls' scoped buffers and the generator register pass through. -/
private theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = accInv V c (t.val + 1) t.isLt from rfl, accInv_succ]
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  rw [show (dat2 V c).leavesExact 2 t = owns (c : Thread nD τ) (ms2_2 t) fullShare ((dat2 V c).after 2 t) from by
    unfold Dat.leavesExact; rw [live2_2 t], after2_2]
  have hN : t.val < 8 := lt_of_lt_of_eq t.isLt N_2
  rw [accInv_castSucc]
  by_cases h0 : t.val = 0
  · -- the first point
    have hc1 : isFirst (grid2.coords t) := (isFirst_iff t).mpr h0
    have hc2 : ¬isLast (grid2.coords t) := fun h => by have := (isLast_iff t).mp h; omega
    have h7 : t.val ≠ 7 := by omega
    rw [Dat.leavesExact_idle (dat2 V c) 3 t ((idle2_3_iff t).mpr h7) (Bool.eq_false_iff.mpr fun h => h7 ((flush2_3_iff t).mp h))]
    rw [accInv_zero V c _ _ h0, PhiA2_eq, accAt_first V c t h0]
    unfold restWith
    iintro ⟨⟨⟨B0, B1, B2, B3, B4, B5, B6, B7, B8, B9, B10, B11, B12, B13, B14, HS⟩, Hg⟩, Ho, ⟨%d0, H0⟩, ⟨%d1, H1⟩, ⟨%d2, H2⟩, ⟨%d3, H3⟩⟩
    iapply (final_kernel_first c Set.univ (grid2.coords t) _ _ _ _ _ _ _ _ _ _ hc1 hc2 (blk2 V c 0 t) (blk2 V c 1 t) (blk2 V c 2 t) ((dat2 V c).before 3 t d3) _)
    isplitl [H0]; · iexact H0
    isplitl [H1]; · iexact H1
    isplitl [H2]; · iexact H2
    isplitl [H3]; · iexact H3
    isplitl [HS]; · iexact HS
    iintro ⟨H0, H1, H2, H3, HS⟩
    isplitl [B0 B1 B2 B3 B4 B5 B6 B7 B8 B9 B10 B11 B12 B13 B14 HS Hg]
    · isplitr [Hg]
      · isplitl [B0]; · iexact B0
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        isplitl [B9]; · iexact B9
        isplitl [B10]; · iexact B10
        isplitl [B11]; · iexact B11
        isplitl [B12]; · iexact B12
        isplitl [B13]; · iexact B13
        isplitl [B14]; · iexact B14
        iexact HS
      iexact Hg
    isplitl [Ho]; · iexact Ho
    isplitl [H0]; · iexact H0
    isplitl [H1]; · iexact H1
    isplitl [H2]; · iexact H2
    iexists _; iexact H3
  · by_cases h7 : t.val = 7
    · -- the last point
      have hc1 : ¬isFirst (grid2.coords t) := fun h => h0 ((isFirst_iff t).mp h)
      have hc2 : isLast (grid2.coords t) := (isLast_iff t).mpr h7
      have hlive : cfg2.idle 3 (grid2.coords t) = false := Bool.eq_false_iff.mpr fun h => (idle2_3_iff t).mp h h7
      rw [show (dat2 V c).leavesExact 3 t = owns (c : Thread nD τ) (ms2_3 t) fullShare ((dat2 V c).after 3 t) from by
        unfold Dat.leavesExact; rw [hlive], after2_3]
      rw [accInv_pos V c _ _ h0, accAt_pos V c t h0]
      unfold restWith
      iintro ⟨⟨⟨B0, B1, B2, B3, B4, B5, B6, B7, B8, B9, B10, B11, B12, B13, B14, HS⟩, Hg⟩, Ho, ⟨%d0, H0⟩, ⟨%d1, H1⟩, ⟨%d2, H2⟩, ⟨%d3, H3⟩⟩
      iapply (final_kernel_last c Set.univ (grid2.coords t) _ _ _ _ _ _ _ _ _ _ hc1 hc2 (blk2 V c 0 t) (blk2 V c 1 t) (blk2 V c 2 t) (accAt V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [B0 B1 B2 B3 B4 B5 B6 B7 B8 B9 B10 B11 B12 B13 B14 HS Hg]
      · isplitr [Hg]
        · isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [B12]; · iexact B12
          isplitl [B13]; · iexact B13
          isplitl [B14]; · iexact B14
          iexact HS
        iexact Hg
      isplitl [Ho]; · iexact Ho
      isplitl [H0]; · iexact H0
      isplitl [H1]; · iexact H1
      isplitl [H2]; · iexact H2
      iexact H3
    · -- a point between
      have hc1 : ¬isFirst (grid2.coords t) := fun h => h0 ((isFirst_iff t).mp h)
      have hc2 : ¬isLast (grid2.coords t) := fun h => h7 ((isLast_iff t).mp h)
      rw [Dat.leavesExact_idle (dat2 V c) 3 t ((idle2_3_iff t).mpr h7) (Bool.eq_false_iff.mpr fun h => h7 ((flush2_3_iff t).mp h))]
      rw [accInv_pos V c _ _ h0, accAt_pos V c t h0]
      unfold restWith
      iintro ⟨⟨⟨B0, B1, B2, B3, B4, B5, B6, B7, B8, B9, B10, B11, B12, B13, B14, HS⟩, Hg⟩, Ho, ⟨%d0, H0⟩, ⟨%d1, H1⟩, ⟨%d2, H2⟩, ⟨%d3, H3⟩⟩
      iapply (final_kernel_mid c Set.univ (grid2.coords t) _ _ _ _ _ _ _ _ _ _ hc1 hc2 (blk2 V c 0 t) (blk2 V c 1 t) (blk2 V c 2 t) ((dat2 V c).before 3 t d3) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [B0 B1 B2 B3 B4 B5 B6 B7 B8 B9 B10 B11 B12 B13 B14 HS Hg]
      · isplitr [Hg]
        · isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [B12]; · iexact B12
          isplitl [B13]; · iexact B13
          isplitl [B14]; · iexact B14
          iexact HS
        iexact Hg
      isplitl [Ho]; · iexact Ho
      isplitl [H0]; · iexact H0
      isplitl [H1]; · iexact H1
      isplitl [H2]; · iexact H2
      iexists _; iexact H3

/-- What the pipeline asks of the body, at every point. -/
theorem body_obligation2 (c : Dev nD) : BodyObligation (dat2 (F := F) V c) (defs₀ (F := F)) Variants.none () Set.univ := fun t => by
  rw [bigSep_W2, bigSep_W2]
  exact sound_body2 V c t

/-- What the launch hands the call is the invariant before the first point. -/
theorem hin2 (c : Dev nD) : (Pipeline.ΦA spec2 c : sProp 𝕄) ⊢ (dat2 V c).Φ 0 := by
  rw [show (dat2 V c).Φ 0 = accInv V c 0 (Nat.zero_le _) from rfl]
  exact Idealize.SL.BI.Entails.refl _

/-- After the last point the invariant gives the class invariant back: the accumulator's named contents forgotten. -/
theorem hout2 (c : Dev nD) : (dat2 V c).Φ (Fin.last cfg2.N) ⊢ (Pipeline.ΦA spec2 c : sProp 𝕄) := by
  rw [show (dat2 V c).Φ (Fin.last cfg2.N) = accInv V c 8 (Nat.le_of_eq N_2.symm) from rfl, PhiA2_eq]
  rw [show accInv V c 8 (Nat.le_of_eq N_2.symm) = iprop(restWith (F := F) c (owns (c : Thread nD τ) scM2 fullShare (accAt V c 7 (Nat.lt_of_lt_of_eq (by decide) N_2.symm))) ∗ (∃ r, prngReg c r)) from rfl]
  unfold restWith
  iintro ⟨⟨B0, B1, B2, B3, B4, B5, B6, B7, B8, B9, B10, B11, B12, B13, B14, HS⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    iexists _; iexact HS
  iexact Hg

end Cert.Kernel.Hand

end
-- ==== Proof.Kernel.MainRun.lean ====
/-
  The whole program as a run: four stretches of host operations around the three calls. The buffer contents at each
  boundary are a fold from the launch memory: a host stretch applies its operations; a call leaves its windows'
  arrays at what its write-backs leave (the inputs as entered) and every other buffer as entered. The three calls'
  proof data, each at its entry contents, the calls and the stretches as segments of one run, and the run itself:
  every weakly fair execution terminates, nothing faulting, with every unscoped buffer at the last boundary's contents.
-/
import proofs.«123501_j84713934946331_1_alg».proof.Proof.Gen.Kernel.Launch
import proofs.«123501_j84713934946331_1_alg».proof.Proof.Gen.Kernel.Skeleton
import proofs.«123501_j84713934946331_1_alg».proof.Proof.Gen.Kernel.Points
import proofs.«123501_j84713934946331_1_alg».proof.Proof.Gen.Kernel.Regions
import proofs.«123501_j84713934946331_1_alg».proof.Proof.Kernel.Linear
import proofs.«123501_j84713934946331_1_alg».proof.Proof.Kernel.Combine
import proofs.«123501_j84713934946331_1_alg».proof.Proof.Kernel.Final
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core c's buffers at launch. -/
abbrev W0 : Dev nD → Valuation τ sig (Elt F) := fun c b => m ((c : Dev nD), b)
/-- After the first host stretch (the two slices of the edge list, the two transposed weight matrices): the first call's entry. -/
def W1 (c : Dev nD) : Valuation τ sig (Elt F) := StableHlo.after hostOps0 (W0 m c)
abbrev V1 : (c : Dev nD) → (b : Ref sig .tc) → Buf (Elt F) ((c : Thread nD τ).loc b) := fun c b => W1 m c b
/-- After the first call: its arrays at what its write-backs leave, every other buffer as entered. -/
def W2 (c : Dev nD) : Valuation τ sig (Elt F) :=
  Pipeline.withArrays spec0 c (W1 m c) fun w => (dat0 (V1 m) c).arrAt w cfg0.N
/-- After the second host stretch (the gather, the two scatter-adds, the quotient, the bias as a row): the second call's entry. -/
def W3 (c : Dev nD) : Valuation τ sig (Elt F) := StableHlo.after hostOps1 (W2 m c)
abbrev V3 : (c : Dev nD) → (b : Ref sig .tc) → Buf (Elt F) ((c : Thread nD τ).loc b) := fun c b => W3 m c b
/-- After the second call. -/
def W4 (c : Dev nD) : Valuation τ sig (Elt F) :=
  Pipeline.withArrays spec1 c (W3 m c) fun w => (dat1 (V3 m) c).arrAt w cfg1.N
/-- After the third host stretch (the per-graph reshape, the output bias as a row): the third call's entry. -/
def W5 (c : Dev nD) : Valuation τ sig (Elt F) := StableHlo.after hostOps2 (W4 m c)
abbrev V5 : (c : Dev nD) → (b : Ref sig .tc) → Buf (Elt F) ((c : Thread nD τ).loc b) := fun c b => W5 m c b
/-- After the third call. -/
def W6 (c : Dev nD) : Valuation τ sig (Elt F) :=
  Pipeline.withArrays spec2 c (W5 m c) fun w => (dat2 (V5 m) c).arrAt w cfg2.N
/-- After the last host stretch (the trailing unit axis): the program's end. -/
def W7 (c : Dev nD) : Valuation τ sig (Elt F) := StableHlo.after hostOps3 (W6 m c)

/-! ## Reading the fold: what each step leaves where

A host stretch leaves every buffer none of its operations writes as it was. A call leaves each of its arrays at what
its write-backs leave (an input's array as entered) and every other buffer as entered. -/

/-- A buffer no operation of host stretch 1 writes is after it what it was before. -/
private theorem W1_of (c : Dev nD) (r : Ref sig .tc) (h : r ∉ hostOps0_W) :
    W1 m c (Proc.devRef .tc r) = W0 m c (Proc.devRef .tc r) :=
  StableHlo.after_of_writes_sub hostOps0 _ hostOps0_writes h

/-- After call 1, each of its arrays holds what the write-backs leave; -/
private theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
/-- every other buffer what it held at entry. -/
private theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The exit contents read at the TensorCore's references. -/
private abbrev V2 : (c : Dev nD) → (b : Ref sig .tc) → Buf (Elt F) ((c : Thread nD τ).loc b) := fun c b => W2 m c b
private theorem hF0 (c : Dev nD) (w : Fin cfg0.W) : (dat0 (V1 m) c).arrAt w cfg0.N = V2 m c (Pipeline.arrRef spec0 w) :=
  (W2_arr m c w).symm
private theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- A buffer no operation of host stretch 2 writes is after it what it was before. -/
private theorem W3_of (c : Dev nD) (r : Ref sig .tc) (h : r ∉ hostOps1_W) :
    W3 m c (Proc.devRef .tc r) = W2 m c (Proc.devRef .tc r) :=
  StableHlo.after_of_writes_sub hostOps1 _ hostOps1_writes h

/-- After call 2, each of its arrays holds what the write-backs leave; -/
private theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
/-- every other buffer what it held at entry. -/
private theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The exit contents read at the TensorCore's references. -/
private abbrev V4 : (c : Dev nD) → (b : Ref sig .tc) → Buf (Elt F) ((c : Thread nD τ).loc b) := fun c b => W4 m c b
private theorem hF1 (c : Dev nD) (w : Fin cfg1.W) : (dat1 (V3 m) c).arrAt w cfg1.N = V4 m c (Pipeline.arrRef spec1 w) :=
  (W4_arr m c w).symm
private theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- A buffer no operation of host stretch 3 writes is after it what it was before. -/
private theorem W5_of (c : Dev nD) (r : Ref sig .tc) (h : r ∉ hostOps2_W) :
    W5 m c (Proc.devRef .tc r) = W4 m c (Proc.devRef .tc r) :=
  StableHlo.after_of_writes_sub hostOps2 _ hostOps2_writes h

/-- After call 3, each of its arrays holds what the write-backs leave; -/
private theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
/-- every other buffer what it held at entry. -/
private theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The exit contents read at the TensorCore's references. -/
private abbrev V6 : (c : Dev nD) → (b : Ref sig .tc) → Buf (Elt F) ((c : Thread nD τ).loc b) := fun c b => W6 m c b
private theorem hF2 (c : Dev nD) (w : Fin cfg2.W) : (dat2 (V5 m) c).arrAt w cfg2.N = V6 m c (Pipeline.arrRef spec2 w) :=
  (W6_arr m c w).symm
private theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- A buffer no operation of host stretch 4 writes is after it what it was before. -/
private theorem W7_of (c : Dev nD) (r : Ref sig .tc) (h : r ∉ hostOps3_W) :
    W7 m c (Proc.devRef .tc r) = W6 m c (Proc.devRef .tc r) :=
  StableHlo.after_of_writes_sub hostOps3 _ hostOps3_writes h

/-! ## The proof data family and the thread state -/

/-- Every call's proof data, each at its own entry contents. -/
private def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
private abbrev 𝒱₀ : Variants := Variants.none
/-- No core owes another anything: no level is assigned. -/
private abbrev L : GSem nD τ sig → Finset Unit := fun _ => ∅
private abbrev lv : GSem nD τ sig → Unit → ℕ := fun _ _ => 0
/-- What rides beside the buffers through every segment: the core's generator register at some state (a call's
    invariant takes it in and gives it back) and what the core owes, which is nothing. -/
private abbrev R (c : Dev nD) : sProp 𝕄 := iprop((∃ r, prngReg c r) ∗ ∃ W, owes (c : Thread nD τ) (0 : CellTallies nD τ sig Unit) W)
/-- A host stretch as a segment over the unscoped references from the contents W, R riding along: it ends with those
    references at the contents its operations leave. -/
private abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without what the core owes: every unscoped buffer at the last boundary's contents, the
    generator register at some state. -/
private abbrev Tₙ (c : Dev nD) : sProp 𝕄 := iprop(StableHlo.held (c : Thread nD τ) (Pipeline.ucRefs τ sig) (W7 m c) ∗ ∃ r, prngReg c r)

/-! ## The calls as segments -/

set_option backward.isDefEq.respectTransparency.types false in
/-- The first call over the thread state: entered from every unscoped buffer at its entry contents, left with its
    arrays at what the write-backs leave and every other buffer as entered. Its arrays are split out of the unscoped
    buffers at entry and put back at exit; the generator register goes into the invariant and comes back; nothing is
    owed; the kernel has no semaphore of its own. -/
private def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: entered from every unscoped buffer at its entry contents, left with its
    arrays at what the write-backs leave and every other buffer as entered. Its arrays are split out of the unscoped
    buffers at entry and put back at exit; the generator register goes into the invariant and comes back; nothing is
    owed; the kernel has no semaphore of its own. -/
private def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third call over the thread state: entered from every unscoped buffer at its entry contents, left with its
    arrays at what the write-backs leave and every other buffer as entered. Its arrays are split out of the unscoped
    buffers at entry and put back at exit; the generator register goes into the invariant and comes back; nothing is
    owed; the kernel has no semaphore of its own. The invariant is not constant here (it carries the scratch accumulator): its
    first instance is made from the class invariant and its last gives the class invariant back. -/
private def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m) c)
    unfold Pipeline.ΦA
    iintro ⟨Hp, -, Hr⟩
    isplitl [Hr]; · iexact Hr
    iexact Hp
  hout c := by
    rw [Pipeline.ownSems0_none]
    refine BIBase.Entails.trans (hout2 (V5 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments -/

/-- The program's seven segments in order: a host segment per stretch from its boundary's contents, a region per call. -/
private abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
/-- The program is the run of its segments: it is the chain of its items, and the segments' run is that chain. -/
private theorem main_run (c : Dev nD) : main (F := F) c = Pipeline.Seg.run (segs m) := (main_chain c).trans (by chain_rfl)

/-! ## The run -/

set_option backward.isDefEq.respectTransparency.types false in
/-- From any memory with zero counters every weakly fair execution of the program terminates, nothing faulting, and
    every final state has every unscoped buffer of every core at the last boundary's contents. -/
theorem run_named : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-! ## The arguments end as launched

No host operation writes an argument, and a call either reads it through an input window, whose array it leaves as
entered, or does not touch it: the fold at an argument's buffer walks back to the launch memory. -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := W7_of m c main_arg0 (by decide)
    _ = W5 m c (Proc.devRef .tc main_arg0) := W6_of_ne m c main_arg0 (by decide)
    _ = W4 m c (Proc.devRef .tc main_arg0) := W5_of m c main_arg0 (by decide)
    _ = W3 m c (Proc.devRef .tc main_arg0) := W4_of_ne m c main_arg0 (by decide)
    _ = W2 m c (Proc.devRef .tc main_arg0) := W3_of m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of m c main_arg0 (by decide)
    _ = m ((c : Thread nD τ).loc main_arg0) := rfl
theorem W7_main_arg1 (c : Dev nD) : W7 m c (Proc.devRef .tc main_arg1) = m ((c : Thread nD τ).loc main_arg1) :=
  calc W7 m c (Proc.devRef .tc main_arg1)
    _ = W6 m c (Proc.devRef .tc main_arg1) := W7_of m c main_arg1 (by decide)
    _ = W5 m c (Proc.devRef .tc main_arg1) := W6_of_ne m c main_arg1 (by decide)
    _ = W4 m c (Proc.devRef .tc main_arg1) := W5_of m c main_arg1 (by decide)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
theorem W7_main_arg2 (c : Dev nD) : W7 m c (Proc.devRef .tc main_arg2) = m ((c : Thread nD τ).loc main_arg2) :=
  calc W7 m c (Proc.devRef .tc main_arg2)
    _ = W6 m c (Proc.devRef .tc main_arg2) := W7_of m c main_arg2 (by decide)
    _ = W5 m c (Proc.devRef .tc main_arg2) := W6_of_ne m c main_arg2 (by decide)
    _ = W4 m c (Proc.devRef .tc main_arg2) := W5_of m c main_arg2 (by decide)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
theorem W7_main_arg3 (c : Dev nD) : W7 m c (Proc.devRef .tc main_arg3) = m ((c : Thread nD τ).loc main_arg3) :=
  calc W7 m c (Proc.devRef .tc main_arg3)
    _ = W6 m c (Proc.devRef .tc main_arg3) := W7_of m c main_arg3 (by decide)
    _ = W5 m c (Proc.devRef .tc main_arg3) := W6_of_ne m c main_arg3 (by decide)
    _ = W4 m c (Proc.devRef .tc main_arg3) := W5_of m c main_arg3 (by decide)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl
theorem W7_main_arg4 (c : Dev nD) : W7 m c (Proc.devRef .tc main_arg4) = m ((c : Thread nD τ).loc main_arg4) :=
  calc W7 m c (Proc.devRef .tc main_arg4)
    _ = W6 m c (Proc.devRef .tc main_arg4) := W7_of m c main_arg4 (by decide)
    _ = W5 m c (Proc.devRef .tc main_arg4) := W6_of_ne m c main_arg4 (by decide)
    _ = W4 m c (Proc.devRef .tc main_arg4) := W5_of m c main_arg4 (by decide)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl
theorem W7_main_arg5 (c : Dev nD) : W7 m c (Proc.devRef .tc main_arg5) = m ((c : Thread nD τ).loc main_arg5) :=
  calc W7 m c (Proc.devRef .tc main_arg5)
    _ = W6 m c (Proc.devRef .tc main_arg5) := W7_of m c main_arg5 (by decide)
    _ = W5 m c (Proc.devRef .tc main_arg5) := (W6_arr m c 1).trans (((dat2 (V5 m) c).arrAt_in 1 rfl _).trans (A_eq2 (V5 m) c 1))
    _ = W4 m c (Proc.devRef .tc main_arg5) := W5_of m c main_arg5 (by decide)
    _ = W3 m c (Proc.devRef .tc main_arg5) := W4_of_ne m c main_arg5 (by decide)
    _ = W2 m c (Proc.devRef .tc main_arg5) := W3_of m c main_arg5 (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl
theorem W7_main_arg6 (c : Dev nD) : W7 m c (Proc.devRef .tc main_arg6) = m ((c : Thread nD τ).loc main_arg6) :=
  calc W7 m c (Proc.devRef .tc main_arg6)
    _ = W6 m c (Proc.devRef .tc main_arg6) := W7_of m c main_arg6 (by decide)
    _ = W5 m c (Proc.devRef .tc main_arg6) := W6_of_ne m c main_arg6 (by decide)
    _ = W4 m c (Proc.devRef .tc main_arg6) := W5_of m c main_arg6 (by decide)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl

/-- An unscoped reference of the TensorCore is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the program runs and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  OrdCont.mono (θ_run defs (onTc (τ := τ) (main (F := F))) ⟨m, fun _ => 0, ρ⟩)
    (fun r h c =>
      ⟨(h c _ (mem_uc main_arg0 (by decide))).trans (W7_main_arg0 m c),
       (h c _ (mem_uc main_arg1 (by decide))).trans (W7_main_arg1 m c),
       (h c _ (mem_uc main_arg2 (by decide))).trans (W7_main_arg2 m c),
       (h c _ (mem_uc main_arg3 (by decide))).trans (W7_main_arg3 m c),
       (h c _ (mem_uc main_arg4 (by decide))).trans (W7_main_arg4 m c),
       (h c _ (mem_uc main_arg5 (by decide))).trans (W7_main_arg5 m c),
       (h c _ (mem_uc main_arg6 (by decide))).trans (W7_main_arg6 m c)⟩)
    (run_named m ρ)

end Cert.Kernel.Hand

end
-- ==== Proof.KernelIdeal.Linear.lean ====
/-
  The first call: on each block of 4096 rows of x it forms the two products x·W_lᵀ and x·W_rᵀ (the rows and both
  weight matrices rounded to bf16 first, which over the reals changes nothing), one 4096×16 block of each result per
  grid point. Stated at any contents V of the buffers when the call is entered: what each window's staging buffer
  holds after the body at a point, the body's triple, and the obligation the pipeline asks of the body.
-/
import proofs.«123501_j84713934946331_1_alg».proof.Proof.Gen.KernelIdeal.Launch
import proofs.«123501_j84713934946331_1_alg».proof.Proof.Gen.KernelIdeal.Skeleton
import proofs.«123501_j84713934946331_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window w's block at point t, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S4096x128 := Rect.unit (s := S4096x128) ![0, 0] S4096x128.size inb_S4096x128_S4096x128_0_0
abbrev rW0 : Rect S128x16 := Rect.unit (s := S128x16) ![0, 0] S128x16.size inb_S128x16_S128x16_0_0
abbrev rO0 : Rect S4096x16 := Rect.unit (s := S4096x16) ![0, 0] S4096x16.size inb_S4096x16_S4096x16_0_0

/-- The block of x·W_lᵀ the body leaves: the product of the row block with the whole (transposed) weight matrix. -/
def xlBlk (x : Vec F S4096x128 .f32) (wl : Vec F S128x16 .f32) : Vec F S4096x16 .f32 :=
  View.canon [⟨rO0, k0_pay2 (View.ld x rX0) (View.ld wl rW0)⟩]

/-- The block of x·W_rᵀ the body leaves. -/
def xrBlk (x : Vec F S4096x128 .f32) (wr : Vec F S128x16 .f32) : Vec F S4096x16 .f32 :=
  View.canon [⟨rO0, k0_pay3 (View.ld x rX0) (View.ld wr rW0)⟩]

/-- One whole-block store covers the block. -/
theorem cover0 (p0 : Vec F S4096x16 .f32) (y : S4096x16.Idx) :
    ∃ pc ∈ ([⟨rO0, p0⟩] : List (View.Piece (Elt F) S4096x16 .f32)), y ∈ pc.1.set :=
  View.cover_of_tiled [⟨rO0, p0⟩] S4096x16.size (by rfl) y

/-! ## The body's triple -/

set_option maxHeartbeats 1000000 in
/-- On whole staging memrefs, the three inputs' at read contents and the two outputs' at anything, the body runs to the
    continuation holding the inputs as they were and the outputs at the two products' blocks. -/
theorem linear_kernel_runs (c : Dev nD) (E : Set ℕ) (i : grid0.Coords)
    (arg1 : Memref sig .tc .vmem S4096x128 .f32) (harg1 : arg1.IsWhole) (arg2 : Memref sig .tc .vmem S128x16 .f32) (harg2 : arg2.IsWhole)
    (arg3 : Memref sig .tc .vmem S128x16 .f32) (harg3 : arg3.IsWhole) (arg4 : Memref sig .tc .vmem S4096x16 .f32) (harg4 : arg4.IsWhole)
    (arg5 : Memref sig .tc .vmem S4096x16 .f32) (harg5 : arg5.IsWhole)
    (x0 : Vec F S4096x128 .f32) (x1 : Vec F S128x16 .f32) (x2 : Vec F S128x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (xlBlk x0 x1) ∗ owns (c : Thread nD τ) arg5 fullShare (xrBlk x0 x2)) -∗ K ⟨⟩))
      ⊢ wp frame (wpE (defs₀ (F := F)) Variants.none c none) E (cc0__linear_both_kernel i arg1 harg1 arg2 harg2 arg3 harg3 arg4 harg4 arg5 harg5) K := by
  simp only [cc0__linear_both_kernel_eq_skeleton]; unfold cc0__linear_both_kernel_skel
  unfold xlBlk xrBlk
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! ## The proof data -/

/-- The call's proof data on core c: the arrays as it finds them; after the body at point t each input's buffer at
    its block, the two outputs' at the products of the point's blocks; the invariant the scoped buffers the pipeline
    does not stage and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => xlBlk (blk0 V c 0 t) (blk0 V c 1 t)
    | ⟨4, _⟩ => xrBlk (blk0 V c 0 t) (blk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = xlBlk (blk0 V c 0 t) (blk0 V c 1 t) := by dsimp only [dat0]
theorem after0_4 (c : Dev nD) (t : Fin cfg0.N) : (dat0 V c).after 4 t = xrBlk (blk0 V c 0 t) (blk0 V c 2 t) := by dsimp only [dat0]

/-- Each input's current staging buffer holds its block at every point, fetched there or not (an input not fetched at a
    point has the block index of the point before). -/
theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [A_eq0]; try rfl) t d).trans
    (by unfold Dat.fetched Dat.blockOf blk0; rw [A_eq0]; try rfl)
theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [A_eq0]; try rfl) t d).trans
    (by unfold Dat.fetched Dat.blockOf blk0; rw [A_eq0]; try rfl)
theorem before0_2 (c : Dev nD) (t : Fin cfg0.N) (d) : (dat0 V c).before 2 t d = blk0 V c 2 t :=
  ((dat0 V c).before_in_eq_fetched 2 rfl (fun _ => rfl) (fun _ _ _ => rfl)
    (fun t => by rw [after0_2]; unfold Dat.blockOf blk0; rw [A_eq0]; try rfl) t d).trans
    (by unfold Dat.fetched Dat.blockOf blk0; rw [A_eq0]; try rfl)

/-! ## The body obligation -/

/-- What the body is handed at point t: the invariant, what the core owes, and each window's current staging
    buffer at what it then holds. -/
private def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it hands back: the same invariant and debt, and each buffer at what the body leaves in it. -/
private def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the three inputs' buffers hold their blocks, so the body's triple applies at those blocks;
    the invariant and the core's debt are not read and pass through. -/
private theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (linear_kernel_runs c Set.univ (grid0.coords t) _ _ _ _ _ _ _ _ _ _
    (blk0 V c 0 t) (blk0 V c 1 t) (blk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- What the pipeline asks of the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Combine.lean ====
/-
  The second call: on each block of 4096 rows it adds the bias row to the neighbourhood mean, adds the x·W_rᵀ block, and
  takes the maximum with zero. Stated at any contents V of the buffers when the call is entered.
-/
import proofs.«123501_j84713934946331_1_alg».proof.Proof.Gen.KernelIdeal.Launch
import proofs.«123501_j84713934946331_1_alg».proof.Proof.Gen.KernelIdeal.Skeleton
import proofs.«123501_j84713934946331_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window w's block at point t, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rB1 : Rect S1x16 := Rect.unit (s := S1x16) ![0, 0] S1x16.size inb_S1x16_S1x16_0_0
abbrev rO1 : Rect S4096x16 := Rect.unit (s := S4096x16) ![0, 0] S4096x16.size inb_S4096x16_S4096x16_0_0

/-- The block the body leaves: max(mean + bias + x·W_rᵀ, 0), entry by entry. -/
def hBlk (mean : Vec F S4096x16 .f32) (xr : Vec F S4096x16 .f32) (bl : Vec F S1x16 .f32) : Vec F S4096x16 .f32 :=
  View.canon [⟨rO1, k1_pay1 (View.ld bl rB1) (View.ld mean rO1) (View.ld xr rO1)⟩]

/-- One whole-block store covers the block. -/
theorem cover1 (p0 : Vec F S4096x16 .f32) (y : S4096x16.Idx) :
    ∃ pc ∈ ([⟨rO1, p0⟩] : List (View.Piece (Elt F) S4096x16 .f32)), y ∈ pc.1.set :=
  View.cover_of_tiled [⟨rO1, p0⟩] S4096x16.size (by rfl) y

/-! ## The body's triple -/

set_option maxHeartbeats 1000000 in
/-- On whole staging memrefs, the three inputs' at read contents and the output's at anything, the body runs to the
    continuation holding the inputs as they were and the output at the combined block. -/
theorem combine_kernel_runs (c : Dev nD) (E : Set ℕ) (i : grid1.Coords)
    (arg1 : Memref sig .tc .vmem S4096x16 .f32) (harg1 : arg1.IsWhole) (arg2 : Memref sig .tc .vmem S4096x16 .f32) (harg2 : arg2.IsWhole)
    (arg3 : Memref sig .tc .vmem S1x16 .f32) (harg3 : arg3.IsWhole) (arg4 : Memref sig .tc .vmem S4096x16 .f32) (harg4 : arg4.IsWhole)
    (x0 : Vec F S4096x16 .f32) (x1 : Vec F S4096x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (hBlk x0 x1 x2)) -∗ K ⟨⟩))
      ⊢ wp frame (wpE (defs₀ (F := F)) Variants.none c none) E (cc1__combine_kernel i arg1 harg1 arg2 harg2 arg3 harg3 arg4 harg4) K := by
  -- the body is three whole-block loads of the inputs, one load of the output's buffer whose value is dropped, and one
  -- whole-block store of the payload
  simp only [cc1__combine_kernel_eq_skeleton]; unfold cc1__combine_kernel_skel
  unfold owns
  iintro ⟨⟨%fm, %hm, Hm⟩, ⟨%fx, %hx, Hx⟩, ⟨%fb, %hb, Hb⟩, ⟨%d, %fo, -, Ho⟩, Hk⟩
  -- each input's contents is what its buffer reads
  subst hm; subst hx; subst hb
  sl_exec
  sl_step
  iapply Hk
  -- the inputs' buffers were only read
  isplitl [Hm]
  · iexists fm; isplitr; · ipureintro; rfl
    iexact Hm
  isplitl [Hx]
  · iexists fx; isplitr; · ipureintro; rfl
    iexact Hx
  isplitl [Hb]
  · iexists fb; isplitr; · ipureintro; rfl
    iexact Hb
  -- the output's buffer after the one store that covers it reads the payload everywhere, whatever it held
  iexists _; isplitr
  swap; · iexact Ho
  ipureintro
  exact View.read_writes_eq_canon _ _ _ (cover1 _)

/-! ## The proof data -/

/-- The call's proof data on core c: the arrays as it finds them; after the body at point t each input's buffer at
    its block and the output's at the combined block; the invariant the scoped buffers the pipeline does not stage and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => hBlk (blk1 V c 0 t) (blk1 V c 1 t) (blk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = hBlk (blk1 V c 0 t) (blk1 V c 1 t) (blk1 V c 2 t) := by dsimp only [dat1]

/-- Each input's current staging buffer holds its block at every point, fetched there or not. -/
theorem before1_0 (c : Dev nD) (t : Fin cfg1.N) (d) : (dat1 V c).before 0 t d = blk1 V c 0 t := by
  -- fetched at every point: what the fetch puts in the buffer is the block of the array as the call found it
  refine ((dat1 V c).before_in_eq_fetched 0 rfl (fun _ => rfl) (fun _ _ _ => rfl) (fun s => ?_) t d).trans ?_
  · rw [after1_0]; unfold Dat.blockOf blk1; rw [A_eq1]; try rfl
  · unfold Dat.fetched Dat.blockOf blk1; rw [A_eq1]; try rfl
theorem before1_1 (c : Dev nD) (t : Fin cfg1.N) (d) : (dat1 V c).before 1 t d = blk1 V c 1 t := by
  -- fetched at every point: what the fetch puts in the buffer is the block of the array as the call found it
  refine ((dat1 V c).before_in_eq_fetched 1 rfl (fun _ => rfl) (fun _ _ _ => rfl) (fun s => ?_) t d).trans ?_
  · rw [after1_1]; unfold Dat.blockOf blk1; rw [A_eq1]; try rfl
  · unfold Dat.fetched Dat.blockOf blk1; rw [A_eq1]; try rfl
theorem before1_2 (c : Dev nD) (t : Fin cfg1.N) (d) : (dat1 V c).before 2 t d = blk1 V c 2 t := by
  -- the bias row is fetched at the first point only; its block index never moves, so the block kept is the block there
  refine ((dat1 V c).before_in_eq_fetched 2 rfl (fun _ => rfl) (fun _ _ _ => rfl) (fun s => ?_) t d).trans ?_
  · rw [after1_2]; unfold Dat.blockOf blk1; rw [A_eq1]; try rfl
  · unfold Dat.fetched Dat.blockOf blk1; rw [A_eq1]; try rfl

/-! ## The body obligation -/

/-- What the body is handed at point t: the invariant, what the core owes, and each window's current staging buffer at
    what it then holds. -/
private def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it hands back: the same invariant and debt, each buffer at what the body leaves. -/
private def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at a point: the three inputs' buffers hold their blocks, the output's holds anything, so the triple applies at
    the blocks; the invariant and the debt are not touched and do not depend on the point. -/
private theorem combine_at_point (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Hw, ⟨%d0, Hm⟩, ⟨%d1, Hx⟩, ⟨%d2, Hb⟩, ⟨%d3, Ho⟩⟩
  iapply (combine_kernel_runs c Set.univ (grid1.coords t) _ _ _ _ _ _ _ _ (blk1 V c 0 t) (blk1 V c 1 t) (blk1 V c 2 t) _)
  isplitl [Hm]; · iexact Hm
  isplitl [Hx]; · iexact Hx
  isplitl [Hb]; · iexact Hb
  isplitl [Ho]; · iexists _; iexact Ho
  iintro ⟨Hm, Hx, Hb, Ho⟩
  isplitl [HΦ]; · iexact HΦ
  isplitl [Hw]; · iexact Hw
  isplitl [Hm]; · iexact Hm
  isplitl [Hx]; · iexact Hx
  isplitl [Hb]; · iexact Hb
  iexact Ho

/-- What the pipeline asks of the body, at every point. -/
theorem body_obligation1 (c : Dev nD) : BodyObligation (dat1 (F := F) V c) (defs₀ (F := F)) Variants.none () Set.univ := by
  intro t
  -- the four windows one by one
  rw [bigSep_W1, bigSep_W1]
  exact combine_at_point V c t

end Cert.KernelIdeal.Hand

end
-- ==== Proof.KernelIdeal.Final.lean ====
/-
  The third call: the product g·W_outᵀ with the contracted axis of 65536 cut into 8 blocks of 8192, one per grid point.
  A scratch accumulator is set to zero at the first point, gains the product of the point's blocks at every point, and at
  the last point the bias row is added to it and the sum stored as the result. The accumulator is carried between
  points: the invariant before a point names what the point before left in it. The result's window is stored at the
  last point only; at the others the body hands its buffer back as found. Stated at any contents V of the buffers when
  the call is entered.
-/
import proofs.«123501_j84713934946331_1_alg».proof.Proof.Gen.KernelIdeal.Launch
import proofs.«123501_j84713934946331_1_alg».proof.Proof.Gen.KernelIdeal.Skeleton
import proofs.«123501_j84713934946331_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window w's block at point t, read off its array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rG2 : Rect S32x8192 := Rect.unit (s := S32x8192) ![0, 0] S32x8192.size inb_S32x8192_S32x8192_0_0
abbrev rW2 : Rect S39x8192 := Rect.unit (s := S39x8192) ![0, 0] S39x8192.size inb_S39x8192_S39x8192_0_0
abbrev rB2 : Rect S1x39 := Rect.unit (s := S1x39) ![0, 0] S1x39.size inb_S1x39_S1x39_0_0
abbrev rA2 : Rect S32x39 := Rect.unit (s := S32x39) ![0, 0] S32x39.size inb_S32x39_S32x39_0_0

/-- The scratch accumulator: a whole scoped buffer of the call's own, passed beside the windows. -/
abbrev scM2 : Memref sig .tc .vmem S32x39 .f32 := Memref.whole cc2_scratch0

/-! ## The body's two conditions, from the grid coordinate -/

/-- "this is the first block of the contracted axis". -/
abbrev isFirst (i : grid2.Coords) : Prop := (Scalar.cmpi .ne (Scalar.extui (Scalar.cmpi .eq (BitVec.ofNat 32 (i 0).val) 0#32)) 0#32) = 1#1
/-- "this is the last block of the contracted axis". -/
abbrev isLast (i : grid2.Coords) : Prop := k2_cond2 i = 1#1

theorem isFirst_iff : ∀ t : Fin cfg2.N, isFirst (grid2.coords t) ↔ t.val = 0 :=
  (by decide +kernel : ∀ t : Fin grid2.N, isFirst (grid2.coords t) ↔ t.val = 0)
theorem isLast_iff : ∀ t : Fin cfg2.N, isLast (grid2.coords t) ↔ t.val = 7 :=
  (by decide +kernel : ∀ t : Fin grid2.N, isLast (grid2.coords t) ↔ t.val = 7)

/-- The result's window is idle exactly off the last point, and written back exactly at it; the inputs are never idle. -/
theorem idle2_3_iff : ∀ t : Fin cfg2.N, cfg2.idle 3 (grid2.coords t) = true ↔ t.val ≠ 7 :=
  (by decide +kernel : ∀ t : Fin grid2.N, idle2 3 (grid2.coords t) = true ↔ t.val ≠ 7)
theorem flush2_3_iff : ∀ t : Fin cfg2.N, (cfg2.win 3).flush t = true ↔ t.val = 7 :=
  (by decide +kernel : ∀ t : Fin grid2.N, win2_3.flush t = true ↔ t.val = 7)
theorem live2_0 : ∀ t : Fin cfg2.N, cfg2.idle 0 (grid2.coords t) = false := fun _ => rfl
theorem live2_1 : ∀ t : Fin cfg2.N, cfg2.idle 1 (grid2.coords t) = false := fun _ => rfl
theorem live2_2 : ∀ t : Fin cfg2.N, cfg2.idle 2 (grid2.coords t) = false := fun _ => rfl

/-! ## What a point leaves in the accumulator and in the result -/

/-- After the first point: zero plus the product of the first blocks. -/
def accFirst (g : Vec F S32x8192 .f32) (w : Vec F S39x8192 .f32) : Vec F S32x39 .f32 := k2_pay2 g w (k2_pay1 (F := F))
/-- After a later point: what the point before left plus the product of this point's blocks. -/
def accNext (g : Vec F S32x8192 .f32) (w : Vec F S39x8192 .f32) (a : Vec F S32x39 .f32) : Vec F S32x39 .f32 := k2_pay2 g w a
/-- The result stored at the last point: the accumulator plus the bias row. -/
def outLast (a : Vec F S32x39 .f32) (b : Vec F S1x39 .f32) : Vec F S32x39 .f32 := k2_pay3 a b

/-! ## The body's triple, case by case -/

/-- The zero offsets of a whole-buffer rectangle, however they are spelt. -/
private theorem hz2 : (![0, 0] : Fin 2 → Nat) = fun _ => 0 := funext fun a => by fin_cases a <;> rfl

set_option maxHeartbeats 1000000 in
/-- At the first point (not the last): the inputs and the result's buffer come back as they were, the accumulator, found
    at anything, is left at accFirst of the two blocks. -/
theorem final_kernel_first (c : Dev nD) (E : Set ℕ) (i : grid2.Coords) (arg1 : Memref sig .tc .vmem S32x8192 .f32) (harg1 : arg1.IsWhole) (arg2 : Memref sig .tc .vmem S39x8192 .f32) (harg2 : arg2.IsWhole)
    (arg3 : Memref sig .tc .vmem S1x39 .f32) (harg3 : arg3.IsWhole) (arg4 : Memref sig .tc .vmem S32x39 .f32) (harg4 : arg4.IsWhole)
    (arg5 : Memref sig .tc .vmem S32x39 .f32) (harg5 : arg5.IsWhole)
    (hc1 : isFirst i) (hc2 : ¬isLast i)
    (x0 : Vec F S32x8192 .f32) (x1 : Vec F S39x8192 .f32) (x2 : Vec F S1x39 .f32) (xi : Vec F S32x39 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xi ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare xi ∗ owns (c : Thread nD τ) arg5 fullShare (accFirst x0 x1)) -∗ K ⟨⟩))
      ⊢ wp frame (wpE (defs₀ (F := F)) Variants.none c none) E (cc2__final_linear_kernel i arg1 harg1 arg2 harg2 arg3 harg3 arg4 harg4 arg5 harg5) K := by
  simp only [cc2__final_linear_kernel_eq_skeleton]; unfold cc2__final_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1; obtain rfl := harg3.eq_unread hf2
  obtain rfl := harg4.eq_unread hf3
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  sl_unfold_words
  refine (View.read_writes_eq_canon _ _ _ ?_).trans ?_
  · intro y; exact ⟨_, List.mem_cons_self, View.mem_set_unit_zero (S := S32x39) hz2 inb_S32x39_S32x39_0_0 y⟩
  rw [View.canon_cons_unit_zero (S := S32x39) hz2]
  simp only [View.readAt_eq_ld, harg1.read_unread, harg2.read_unread, harg3.read_unread, harg4.read_unread, harg5.read_unread,
    View.readCov_unit_zero (S := S32x39) _ hz2, View.ld_unit_zero (S := S32x8192) hz2, View.ld_unit_zero (S := S39x8192) hz2,
    View.ld_unit_zero (S := S32x39) hz2, View.ld_unit_zero (S := S1x39) hz2]
  rfl

set_option maxHeartbeats 1000000 in
/-- At a point neither first nor last: the accumulator, found at a, is left at accNext of the two blocks and a. -/
theorem final_kernel_mid (c : Dev nD) (E : Set ℕ) (i : grid2.Coords) (arg1 : Memref sig .tc .vmem S32x8192 .f32) (harg1 : arg1.IsWhole) (arg2 : Memref sig .tc .vmem S39x8192 .f32) (harg2 : arg2.IsWhole)
    (arg3 : Memref sig .tc .vmem S1x39 .f32) (harg3 : arg3.IsWhole) (arg4 : Memref sig .tc .vmem S32x39 .f32) (harg4 : arg4.IsWhole)
    (arg5 : Memref sig .tc .vmem S32x39 .f32) (harg5 : arg5.IsWhole)
    (hc1 : ¬isFirst i) (hc2 : ¬isLast i)
    (x0 : Vec F S32x8192 .f32) (x1 : Vec F S39x8192 .f32) (x2 : Vec F S1x39 .f32) (xi : Vec F S32x39 .f32) (a : Vec F S32x39 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xi ∗ owns (c : Thread nD τ) arg5 fullShare a
        ∗ (iprop(owns (c : Thread nD τ) arg1 fullShare x0 ∗ owns (c : Thread nD τ) arg2 fullShare x1 ∗ owns (c : Thread nD τ) arg3 fullShare x2 ∗ owns (c : Thread nD τ) arg4 fullShare xi ∗ owns (c : Thread nD τ) arg5 fullShare (accNext x0 x1 a)) -∗ K ⟨⟩))
      ⊢ wp frame (wpE (defs₀ (F := F)) Variants.none c none) E (cc2__final_linear_kernel i arg1 harg1 arg2 harg2 arg3 harg3 arg4 harg4 arg5 harg5) K := by
  simp only [cc2__final_linear_kernel_eq_skeleton]; unfold cc2__final_linear_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  refine (View.read_writes_eq_canon _ _ _ ?_).trans ?_
  · intro y; exact ⟨_, List.mem_singleton_self _, View.mem_set_unit_zero (S := S32x39) hz2 inb_S32x39_S32x39_0_0 y⟩
  rw [View.canon_unit_zero (S := S32x39) hz2]
  simp only [View.readAt_eq_ld, harg1.read_unread, harg2.read_unread, harg3.read_unread, harg4.read_unread, harg5.read_unread,
    View.readCov_unit_zero (S := S32x39) _ hz2, View.ld_unit_zero (S := S32x8192) hz2, View.ld_unit_zero (S := S39x8192) hz2,
    View.ld_unit_zero (S := S32x39) hz2, View.ld_unit_zero (S := S1x39) hz2]
  rfl

set_option maxHeartbeats 1000000 in
/-- At the last point (not the first): the accumulator, found at a, is left at accNext of the two blocks and a, and the
    result's buffer, found at anything, at that plus the bias row. -/
theorem final_kernel_last (c : Dev nD) (E : Set ℕ) (i : grid2.Coords) (arg1 : Memref sig .tc .vmem S32x8192 .f32) (harg1 : arg1.IsWhole) (arg2 : Memref sig .tc .vmem S39x8192 .f32) (harg2 : arg2.IsWhole)
    (arg3 : Memref sig .tc .vmem S1x39 .f32) (harg3 : arg3.IsWhole) (arg4 : Memref sig .tc .vmem S32x39 .f32) (harg4 : arg4.IsWhole)
    (arg5 : Memref sig .tc .vmem S32x39 .f32) (harg5 : arg5.IsWhole)
    (hc1 : ¬isFirst i) (hc2 : isLast i)
    (x0 : Vec F S32x8192 .f32) (x1 : Vec F S39x8192 .f32) (x2 : Vec F S1x39 .f32) (a : Vec F S32x39 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare a
        ∗ (iprop(owns (c : Thread nD τ) arg1 fullShare x0 ∗ owns (c : Thread nD τ) arg2 fullShare x1 ∗ owns (c : Thread nD τ) arg3 fullShare x2 ∗ owns (c : Thread nD τ) arg4 fullShare (outLast (accNext x0 x1 a) x2) ∗ owns (c : Thread nD τ) arg5 fullShare (accNext x0 x1 a)) -∗ K ⟨⟩))
      ⊢ wp frame (wpE (defs₀ (F := F)) Variants.none c none) E (cc2__final_linear_kernel i arg1 harg1 arg2 harg2 arg3 harg3 arg4 harg4 arg5 harg5) K := by
  simp only [cc2__final_linear_kernel_eq_skeleton]; unfold cc2__final_linear_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg1.eq_unread hf0; obtain rfl := harg2.eq_unread hf1; obtain rfl := harg3.eq_unread hf2
  obtain rfl := harg5.eq_unread hf4
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_words
    refine (View.read_writes_eq_canon _ _ _ ?_).trans ?_
    · intro y; exact ⟨_, List.mem_singleton_self _, View.mem_set_unit_zero (S := S32x39) hz2 inb_S32x39_S32x39_0_0 y⟩
    rw [View.canon_unit_zero (S := S32x39) hz2]
    simp only [View.readAt_eq_ld, harg1.read_unread, harg2.read_unread, harg3.read_unread, harg4.read_unread, harg5.read_unread,
    View.readCov_unit_zero (S := S32x39) _ hz2, View.ld_unit_zero (S := S32x8192) hz2, View.ld_unit_zero (S := S39x8192) hz2,
    View.ld_unit_zero (S := S32x39) hz2, View.ld_unit_zero (S := S1x39) hz2]
    rfl
  iexists _; isplitr
  swap; · iexact H4
  ipureintro
  sl_unfold_words
  refine (View.read_writes_eq_canon _ _ _ ?_).trans ?_
  · intro y; exact ⟨_, List.mem_singleton_self _, View.mem_set_unit_zero (S := S32x39) hz2 inb_S32x39_S32x39_0_0 y⟩
  rw [View.canon_unit_zero (S := S32x39) hz2]
  simp only [View.readAt_eq_ld, harg1.read_unread, harg2.read_unread, harg3.read_unread, harg4.read_unread, harg5.read_unread,
    View.readCov_unit_zero (S := S32x39) _ hz2, View.ld_unit_zero (S := S32x8192) hz2, View.ld_unit_zero (S := S39x8192) hz2,
    View.ld_unit_zero (S := S32x39) hz2, View.ld_unit_zero (S := S1x39) hz2]
  rfl

/-! ## The accumulator point by point -/

/-- What the accumulator holds after point n: the first point's product, then one block's product more per point. -/
def accAt (c : Dev nD) : (n : ℕ) → n < cfg2.N → Vec F S32x39 .f32
  | 0, h => accFirst (blk2 V c 0 ⟨0, h⟩) (blk2 V c 1 ⟨0, h⟩)
  | n + 1, h => accNext (blk2 V c 0 ⟨n + 1, h⟩) (blk2 V c 1 ⟨n + 1, h⟩) (accAt c n (Nat.lt_of_succ_lt h))

theorem accAt_zero (c : Dev nD) (h : 0 < cfg2.N) : accAt V c 0 h = accFirst (blk2 V c 0 ⟨0, h⟩) (blk2 V c 1 ⟨0, h⟩) := rfl
theorem accAt_succ (c : Dev nD) (n : ℕ) (h : n + 1 < cfg2.N) :
    accAt V c (n + 1) h = accNext (blk2 V c 0 ⟨n + 1, h⟩) (blk2 V c 1 ⟨n + 1, h⟩) (accAt V c n (Nat.lt_of_succ_lt h)) := rfl

/-! ## The invariant: the accumulator carried between points -/

/-- The scoped buffers of the other two calls, each whole at some contents, beside S (S speaks of the accumulator). -/
def restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ S)

/-- The class invariant, with the accumulator as a memref owned at some contents. -/
theorem PhiA2_eq (c : Dev nD) :
    (Pipeline.ΦA spec2 c : sProp 𝕄) = iprop(restWith (F := F) c (iprop(∃ d, owns (c : Thread nD τ) scM2 fullShare d)) ∗ (∃ r, prngReg c r)) := by
  unfold Pipeline.ΦA restWith; rw [scopedRest2_eq]; simp only [scM2, owns_whole]; try rfl

/-- Before the first point: the class invariant (the accumulator at anything). Before point n + 1: the accumulator at
    what point n left in it. -/
def accInv (c : Dev nD) : (n : ℕ) → n ≤ cfg2.N → sProp 𝕄
  | 0, _ => Pipeline.ΦA spec2 c
  | n + 1, hn => iprop(restWith (F := F) c (owns (c : Thread nD τ) scM2 fullShare (accAt V c n hn)) ∗ (∃ r, prngReg c r))

/-! ## The proof data -/

/-- The call's proof data on core c: the arrays as it finds them; after the body at point t each input's buffer at its
    block, the result's at the accumulator after t plus the bias row (consulted at the last point only: the window is
    idle elsewhere); the invariant accInv; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => outLast (accAt V c t.val t.isLt) (blk2 V c 2 t)
  Φ t := accInv V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = outLast (accAt V c t.val t.isLt) (blk2 V c 2 t) := by dsimp only [dat2]

/-- Each input's current staging buffer holds its block at every point, fetched there or not. -/
theorem before2_0 (c : Dev nD) (t : Fin cfg2.N) (d) : (dat2 V c).before 0 t d = blk2 V c 0 t :=
  ((dat2 V c).before_in_eq_fetched 0 rfl (fun _ => rfl) (fun _ _ _ => rfl) (fun t => by rw [after2_0]; unfold Dat.blockOf blk2; rw [A_eq2]; try rfl) t d).trans
    (by unfold Dat.fetched Dat.blockOf blk2; rw [A_eq2]; try rfl)
theorem before2_1 (c : Dev nD) (t : Fin cfg2.N) (d) : (dat2 V c).before 1 t d = blk2 V c 1 t :=
  ((dat2 V c).before_in_eq_fetched 1 rfl (fun _ => rfl) (fun _ _ _ => rfl) (fun t => by rw [after2_1]; unfold Dat.blockOf blk2; rw [A_eq2]; try rfl) t d).trans
    (by unfold Dat.fetched Dat.blockOf blk2; rw [A_eq2]; try rfl)
theorem before2_2 (c : Dev nD) (t : Fin cfg2.N) (d) : (dat2 V c).before 2 t d = blk2 V c 2 t :=
  ((dat2 V c).before_in_eq_fetched 2 rfl (fun _ => rfl) (fun _ _ _ => rfl) (fun t => by rw [after2_2]; unfold Dat.blockOf blk2; rw [A_eq2]; try rfl) t d).trans
    (by unfold Dat.fetched Dat.blockOf blk2; rw [A_eq2]; try rfl)

/-! ## The body obligation, and the invariant's two ends -/

/-! ### The invariant and the accumulator at a point given by its position -/

private theorem accInv_castSucc (c : Dev nD) (t : Fin cfg2.N) :
    (dat2 V c).Φ t.castSucc = accInv V c t.val (Nat.le_of_lt t.isLt) := by
  dsimp only [dat2]; simp only [Fin.coe_castSucc]

private theorem accInv_zero (c : Dev nD) (n : ℕ) (h : n ≤ cfg2.N) (hz : n = 0) : accInv V c n h = Pipeline.ΦA spec2 c := by
  subst hz; rfl

private theorem accInv_succ (c : Dev nD) (n : ℕ) (hn : n < cfg2.N) :
    accInv V c (n + 1) hn = iprop(restWith (F := F) c (owns (c : Thread nD τ) scM2 fullShare (accAt V c n hn)) ∗ (∃ r, prngReg c r)) := rfl

private theorem accInv_pos (c : Dev nD) (n : ℕ) (h : n ≤ cfg2.N) (hz : n ≠ 0) :
    accInv V c n h = iprop(restWith (F := F) c (owns (c : Thread nD τ) scM2 fullShare (accAt V c (n - 1) (by omega))) ∗ (∃ r, prngReg c r)) := by
  cases n with
  | zero => exact absurd rfl hz
  | succ n => rfl

private theorem accAt_first (c : Dev nD) (t : Fin cfg2.N) (hz : t.val = 0) :
    accAt V c t.val t.isLt = accFirst (blk2 V c 0 t) (blk2 V c 1 t) := by
  obtain ⟨n, hn⟩ := t
  cases n with
  | zero => rfl
  | succ n => exact absurd hz (Nat.succ_ne_zero n)

private theorem accAt_pos (c : Dev nD) (t : Fin cfg2.N) (hz : t.val ≠ 0) :
    accAt V c t.val t.isLt = accNext (blk2 V c 0 t) (blk2 V c 1 t) (accAt V c (t.val - 1) (Nat.lt_of_le_of_lt (Nat.sub_le _ _) t.isLt)) := by
  obtain ⟨n, hn⟩ := t
  cases n with
  | zero => exact absurd rfl hz
  | succ n => rfl

/-- Each window's current staging memref at point t, as the pipeline passes it to the body. -/
private abbrev ms2_0 (t : Fin cfg2.N) : Memref sig .tc .vmem S32x8192 .f32 := win2_0.stage (cfg2.slots t 0)
private abbrev ms2_1 (t : Fin cfg2.N) : Memref sig .tc .vmem S39x8192 .f32 := win2_1.stage (cfg2.slots t 1)
private abbrev ms2_2 (t : Fin cfg2.N) : Memref sig .tc .vmem S1x39 .f32 := win2_2.stage (cfg2.slots t 2)
private abbrev ms2_3 (t : Fin cfg2.N) : Memref sig .tc .vmem S32x39 .f32 := win2_3.stage (cfg2.slots t 3)

/-- What the body is called with at point t: the invariant, what the core owes, the four windows one by one, -/
private def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
private def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' buffers hold their blocks; the position says which of the three cases the point
    is in. At the first point the invariant hands the accumulator over at anything and takes it back at accFirst of the
    blocks; at a later point it hands it over at what the point before left and takes it back at accNext of the blocks and
    that. The result's buffer goes back as found at every point but the last (idle, not written back), and at the last
    holds the accumulator plus the bias row. The other calls' scoped buffers and the generator register pass through. -/
private theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = accInv V c (t.val + 1) t.isLt from rfl, accInv_succ]
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  rw [show (dat2 V c).leavesExact 2 t = owns (c : Thread nD τ) (ms2_2 t) fullShare ((dat2 V c).after 2 t) from by
    unfold Dat.leavesExact; rw [live2_2 t], after2_2]
  have hN : t.val < 8 := lt_of_lt_of_eq t.isLt N_2
  rw [accInv_castSucc]
  by_cases h0 : t.val = 0
  · -- the first point
    have hc1 : isFirst (grid2.coords t) := (isFirst_iff t).mpr h0
    have hc2 : ¬isLast (grid2.coords t) := fun h => by have := (isLast_iff t).mp h; omega
    have h7 : t.val ≠ 7 := by omega
    rw [Dat.leavesExact_idle (dat2 V c) 3 t ((idle2_3_iff t).mpr h7) (Bool.eq_false_iff.mpr fun h => h7 ((flush2_3_iff t).mp h))]
    rw [accInv_zero V c _ _ h0, PhiA2_eq, accAt_first V c t h0]
    unfold restWith
    iintro ⟨⟨⟨B0, B1, B2, B3, B4, B5, B6, B7, B8, B9, B10, B11, B12, B13, B14, HS⟩, Hg⟩, Ho, ⟨%d0, H0⟩, ⟨%d1, H1⟩, ⟨%d2, H2⟩, ⟨%d3, H3⟩⟩
    iapply (final_kernel_first c Set.univ (grid2.coords t) _ _ _ _ _ _ _ _ _ _ hc1 hc2 (blk2 V c 0 t) (blk2 V c 1 t) (blk2 V c 2 t) ((dat2 V c).before 3 t d3) _)
    isplitl [H0]; · iexact H0
    isplitl [H1]; · iexact H1
    isplitl [H2]; · iexact H2
    isplitl [H3]; · iexact H3
    isplitl [HS]; · iexact HS
    iintro ⟨H0, H1, H2, H3, HS⟩
    isplitl [B0 B1 B2 B3 B4 B5 B6 B7 B8 B9 B10 B11 B12 B13 B14 HS Hg]
    · isplitr [Hg]
      · isplitl [B0]; · iexact B0
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        isplitl [B9]; · iexact B9
        isplitl [B10]; · iexact B10
        isplitl [B11]; · iexact B11
        isplitl [B12]; · iexact B12
        isplitl [B13]; · iexact B13
        isplitl [B14]; · iexact B14
        iexact HS
      iexact Hg
    isplitl [Ho]; · iexact Ho
    isplitl [H0]; · iexact H0
    isplitl [H1]; · iexact H1
    isplitl [H2]; · iexact H2
    iexists _; iexact H3
  · by_cases h7 : t.val = 7
    · -- the last point
      have hc1 : ¬isFirst (grid2.coords t) := fun h => h0 ((isFirst_iff t).mp h)
      have hc2 : isLast (grid2.coords t) := (isLast_iff t).mpr h7
      have hlive : cfg2.idle 3 (grid2.coords t) = false := Bool.eq_false_iff.mpr fun h => (idle2_3_iff t).mp h h7
      rw [show (dat2 V c).leavesExact 3 t = owns (c : Thread nD τ) (ms2_3 t) fullShare ((dat2 V c).after 3 t) from by
        unfold Dat.leavesExact; rw [hlive], after2_3]
      rw [accInv_pos V c _ _ h0, accAt_pos V c t h0]
      unfold restWith
      iintro ⟨⟨⟨B0, B1, B2, B3, B4, B5, B6, B7, B8, B9, B10, B11, B12, B13, B14, HS⟩, Hg⟩, Ho, ⟨%d0, H0⟩, ⟨%d1, H1⟩, ⟨%d2, H2⟩, ⟨%d3, H3⟩⟩
      iapply (final_kernel_last c Set.univ (grid2.coords t) _ _ _ _ _ _ _ _ _ _ hc1 hc2 (blk2 V c 0 t) (blk2 V c 1 t) (blk2 V c 2 t) (accAt V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [B0 B1 B2 B3 B4 B5 B6 B7 B8 B9 B10 B11 B12 B13 B14 HS Hg]
      · isplitr [Hg]
        · isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [B12]; · iexact B12
          isplitl [B13]; · iexact B13
          isplitl [B14]; · iexact B14
          iexact HS
        iexact Hg
      isplitl [Ho]; · iexact Ho
      isplitl [H0]; · iexact H0
      isplitl [H1]; · iexact H1
      isplitl [H2]; · iexact H2
      iexact H3
    · -- a point between
      have hc1 : ¬isFirst (grid2.coords t) := fun h => h0 ((isFirst_iff t).mp h)
      have hc2 : ¬isLast (grid2.coords t) := fun h => h7 ((isLast_iff t).mp h)
      rw [Dat.leavesExact_idle (dat2 V c) 3 t ((idle2_3_iff t).mpr h7) (Bool.eq_false_iff.mpr fun h => h7 ((flush2_3_iff t).mp h))]
      rw [accInv_pos V c _ _ h0, accAt_pos V c t h0]
      unfold restWith
      iintro ⟨⟨⟨B0, B1, B2, B3, B4, B5, B6, B7, B8, B9, B10, B11, B12, B13, B14, HS⟩, Hg⟩, Ho, ⟨%d0, H0⟩, ⟨%d1, H1⟩, ⟨%d2, H2⟩, ⟨%d3, H3⟩⟩
      iapply (final_kernel_mid c Set.univ (grid2.coords t) _ _ _ _ _ _ _ _ _ _ hc1 hc2 (blk2 V c 0 t) (blk2 V c 1 t) (blk2 V c 2 t) ((dat2 V c).before 3 t d3) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [B0 B1 B2 B3 B4 B5 B6 B7 B8 B9 B10 B11 B12 B13 B14 HS Hg]
      · isplitr [Hg]
        · isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [B10]; · iexact B10
          isplitl [B11]; · iexact B11
          isplitl [B12]; · iexact B12
          isplitl [B13]; · iexact B13
          isplitl [B14]; · iexact B14
          iexact HS
        iexact Hg
      isplitl [Ho]; · iexact Ho
      isplitl [H0]; · iexact H0
      isplitl [H1]; · iexact H1
      isplitl [H2]; · iexact H2
      iexists _; iexact H3

/-- What the pipeline asks of the body, at every point. -/
theorem body_obligation2 (c : Dev nD) : BodyObligation (dat2 (F := F) V c) (defs₀ (F := F)) Variants.none () Set.univ := fun t => by
  rw [bigSep_W2, bigSep_W2]
  exact sound_body2 V c t

/-- What the launch hands the call is the invariant before the first point. -/
theorem hin2 (c : Dev nD) : (Pipeline.ΦA spec2 c : sProp 𝕄) ⊢ (dat2 V c).Φ 0 := by
  rw [show (dat2 V c).Φ 0 = accInv V c 0 (Nat.zero_le _) from rfl]
  exact Idealize.SL.BI.Entails.refl _

/-- After the last point the invariant gives the class invariant back: the accumulator's named contents forgotten. -/
theorem hout2 (c : Dev nD) : (dat2 V c).Φ (Fin.last cfg2.N) ⊢ (Pipeline.ΦA spec2 c : sProp 𝕄) := by
  rw [show (dat2 V c).Φ (Fin.last cfg2.N) = accInv V c 8 (Nat.le_of_eq N_2.symm) from rfl, PhiA2_eq]
  rw [show accInv V c 8 (Nat.le_of_eq N_2.symm) = iprop(restWith (F := F) c (owns (c : Thread nD τ) scM2 fullShare (accAt V c 7 (Nat.lt_of_lt_of_eq (by decide) N_2.symm))) ∗ (∃ r, prngReg c r)) from rfl]
  unfold restWith
  iintro ⟨⟨B0, B1, B2, B3, B4, B5, B6, B7, B8, B9, B10, B11, B12, B13, B14, HS⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    iexists _; iexact HS
  iexact Hg

end Cert.KernelIdeal.Hand

end
-- ==== Proof.KernelIdeal.MainRun.lean ====
/-
  The whole program as a run: four stretches of host operations around the three calls. The buffer contents at each
  boundary are a fold from the launch memory: a host stretch applies its operations; a call leaves its windows'
  arrays at what its write-backs leave (the inputs as entered) and every other buffer as entered. The three calls'
  proof data, each at its entry contents, the calls and the stretches as segments of one run, and the run itself:
  every weakly fair execution terminates, nothing faulting, with every unscoped buffer at the last boundary's contents.
-/
import proofs.«123501_j84713934946331_1_alg».proof.Proof.Gen.KernelIdeal.Launch
import proofs.«123501_j84713934946331_1_alg».proof.Proof.Gen.KernelIdeal.Skeleton
import proofs.«123501_j84713934946331_1_alg».proof.Proof.Gen.KernelIdeal.Points
import proofs.«123501_j84713934946331_1_alg».proof.Proof.Gen.KernelIdeal.Regions
import proofs.«123501_j84713934946331_1_alg».proof.Proof.KernelIdeal.Linear
import proofs.«123501_j84713934946331_1_alg».proof.Proof.KernelIdeal.Combine
import proofs.«123501_j84713934946331_1_alg».proof.Proof.KernelIdeal.Final
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core c's buffers at launch. -/
abbrev W0 : Dev nD → Valuation τ sig (Elt F) := fun c b => m ((c : Dev nD), b)
/-- After the first host stretch (the two slices of the edge list, the two transposed weight matrices): the first call's entry. -/
def W1 (c : Dev nD) : Valuation τ sig (Elt F) := StableHlo.after hostOps0 (W0 m c)
abbrev V1 : (c : Dev nD) → (b : Ref sig .tc) → Buf (Elt F) ((c : Thread nD τ).loc b) := fun c b => W1 m c b
/-- After the first call: its arrays at what its write-backs leave, every other buffer as entered. -/
def W2 (c : Dev nD) : Valuation τ sig (Elt F) :=
  Pipeline.withArrays spec0 c (W1 m c) fun w => (dat0 (V1 m) c).arrAt w cfg0.N
/-- After the second host stretch (the gather, the two scatter-adds, the quotient, the bias as a row): the second call's entry. -/
def W3 (c : Dev nD) : Valuation τ sig (Elt F) := StableHlo.after hostOps1 (W2 m c)
abbrev V3 : (c : Dev nD) → (b : Ref sig .tc) → Buf (Elt F) ((c : Thread nD τ).loc b) := fun c b => W3 m c b
/-- After the second call. -/
def W4 (c : Dev nD) : Valuation τ sig (Elt F) :=
  Pipeline.withArrays spec1 c (W3 m c) fun w => (dat1 (V3 m) c).arrAt w cfg1.N
/-- After the third host stretch (the per-graph reshape, the output bias as a row): the third call's entry. -/
def W5 (c : Dev nD) : Valuation τ sig (Elt F) := StableHlo.after hostOps2 (W4 m c)
abbrev V5 : (c : Dev nD) → (b : Ref sig .tc) → Buf (Elt F) ((c : Thread nD τ).loc b) := fun c b => W5 m c b
/-- After the third call. -/
def W6 (c : Dev nD) : Valuation τ sig (Elt F) :=
  Pipeline.withArrays spec2 c (W5 m c) fun w => (dat2 (V5 m) c).arrAt w cfg2.N
/-- After the last host stretch (the trailing unit axis): the program's end. -/
def W7 (c : Dev nD) : Valuation τ sig (Elt F) := StableHlo.after hostOps3 (W6 m c)

/-! ## Reading the fold: what each step leaves where

A host stretch leaves every buffer none of its operations writes as it was. A call leaves each of its arrays at what
its write-backs leave (an input's array as entered) and every other buffer as entered. -/

/-- A buffer no operation of host stretch 1 writes is after it what it was before. -/
private theorem W1_of (c : Dev nD) (r : Ref sig .tc) (h : r ∉ hostOps0_W) :
    W1 m c (Proc.devRef .tc r) = W0 m c (Proc.devRef .tc r) :=
  StableHlo.after_of_writes_sub hostOps0 _ hostOps0_writes h

/-- After call 1, each of its arrays holds what the write-backs leave; -/
private theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
/-- every other buffer what it held at entry. -/
private theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The exit contents read at the TensorCore's references. -/
private abbrev V2 : (c : Dev nD) → (b : Ref sig .tc) → Buf (Elt F) ((c : Thread nD τ).loc b) := fun c b => W2 m c b
private theorem hF0 (c : Dev nD) (w : Fin cfg0.W) : (dat0 (V1 m) c).arrAt w cfg0.N = V2 m c (Pipeline.arrRef spec0 w) :=
  (W2_arr m c w).symm
private theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- A buffer no operation of host stretch 2 writes is after it what it was before. -/
private theorem W3_of (c : Dev nD) (r : Ref sig .tc) (h : r ∉ hostOps1_W) :
    W3 m c (Proc.devRef .tc r) = W2 m c (Proc.devRef .tc r) :=
  StableHlo.after_of_writes_sub hostOps1 _ hostOps1_writes h

/-- After call 2, each of its arrays holds what the write-backs leave; -/
private theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
/-- every other buffer what it held at entry. -/
private theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The exit contents read at the TensorCore's references. -/
private abbrev V4 : (c : Dev nD) → (b : Ref sig .tc) → Buf (Elt F) ((c : Thread nD τ).loc b) := fun c b => W4 m c b
private theorem hF1 (c : Dev nD) (w : Fin cfg1.W) : (dat1 (V3 m) c).arrAt w cfg1.N = V4 m c (Pipeline.arrRef spec1 w) :=
  (W4_arr m c w).symm
private theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- A buffer no operation of host stretch 3 writes is after it what it was before. -/
private theorem W5_of (c : Dev nD) (r : Ref sig .tc) (h : r ∉ hostOps2_W) :
    W5 m c (Proc.devRef .tc r) = W4 m c (Proc.devRef .tc r) :=
  StableHlo.after_of_writes_sub hostOps2 _ hostOps2_writes h

/-- After call 3, each of its arrays holds what the write-backs leave; -/
private theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
/-- every other buffer what it held at entry. -/
private theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The exit contents read at the TensorCore's references. -/
private abbrev V6 : (c : Dev nD) → (b : Ref sig .tc) → Buf (Elt F) ((c : Thread nD τ).loc b) := fun c b => W6 m c b
private theorem hF2 (c : Dev nD) (w : Fin cfg2.W) : (dat2 (V5 m) c).arrAt w cfg2.N = V6 m c (Pipeline.arrRef spec2 w) :=
  (W6_arr m c w).symm
private theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- A buffer no operation of host stretch 4 writes is after it what it was before. -/
private theorem W7_of (c : Dev nD) (r : Ref sig .tc) (h : r ∉ hostOps3_W) :
    W7 m c (Proc.devRef .tc r) = W6 m c (Proc.devRef .tc r) :=
  StableHlo.after_of_writes_sub hostOps3 _ hostOps3_writes h

/-! ## The proof data family and the thread state -/

/-- Every call's proof data, each at its own entry contents. -/
private def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
private abbrev 𝒱₀ : Variants := Variants.none
/-- No core owes another anything: no level is assigned. -/
private abbrev L : GSem nD τ sig → Finset Unit := fun _ => ∅
private abbrev lv : GSem nD τ sig → Unit → ℕ := fun _ _ => 0
/-- What rides beside the buffers through every segment: the core's generator register at some state (a call's
    invariant takes it in and gives it back) and what the core owes, which is nothing. -/
private abbrev R (c : Dev nD) : sProp 𝕄 := iprop((∃ r, prngReg c r) ∗ ∃ W, owes (c : Thread nD τ) (0 : CellTallies nD τ sig Unit) W)
/-- A host stretch as a segment over the unscoped references from the contents W, R riding along: it ends with those
    references at the contents its operations leave. -/
private abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without what the core owes: every unscoped buffer at the last boundary's contents, the
    generator register at some state. -/
private abbrev Tₙ (c : Dev nD) : sProp 𝕄 := iprop(StableHlo.held (c : Thread nD τ) (Pipeline.ucRefs τ sig) (W7 m c) ∗ ∃ r, prngReg c r)

/-! ## The calls as segments -/

set_option backward.isDefEq.respectTransparency.types false in
/-- The first call over the thread state: entered from every unscoped buffer at its entry contents, left with its
    arrays at what the write-backs leave and every other buffer as entered. Its arrays are split out of the unscoped
    buffers at entry and put back at exit; the generator register goes into the invariant and comes back; nothing is
    owed; the kernel has no semaphore of its own. -/
private def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call over the thread state: entered from every unscoped buffer at its entry contents, left with its
    arrays at what the write-backs leave and every other buffer as entered. Its arrays are split out of the unscoped
    buffers at entry and put back at exit; the generator register goes into the invariant and comes back; nothing is
    owed; the kernel has no semaphore of its own. -/
private def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third call over the thread state: entered from every unscoped buffer at its entry contents, left with its
    arrays at what the write-backs leave and every other buffer as entered. Its arrays are split out of the unscoped
    buffers at entry and put back at exit; the generator register goes into the invariant and comes back; nothing is
    owed; the kernel has no semaphore of its own. The invariant is not constant here (it carries the scratch accumulator): its
    first instance is made from the class invariant and its last gives the class invariant back. -/
private def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m) c)
    unfold Pipeline.ΦA
    iintro ⟨Hp, -, Hr⟩
    isplitl [Hr]; · iexact Hr
    iexact Hp
  hout c := by
    rw [Pipeline.ownSems0_none]
    refine BIBase.Entails.trans (hout2 (V5 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments -/

/-- The program's seven segments in order: a host segment per stretch from its boundary's contents, a region per call. -/
private abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
/-- The program is the run of its segments: it is the chain of its items, and the segments' run is that chain. -/
private theorem main_run (c : Dev nD) : main (F := F) c = Pipeline.Seg.run (segs m) := (main_chain c).trans (by chain_rfl)

/-! ## The run -/

set_option backward.isDefEq.respectTransparency.types false in
/-- From any memory with zero counters every weakly fair execution of the program terminates, nothing faulting, and
    every final state has every unscoped buffer of every core at the last boundary's contents. -/
theorem run_named : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-! ## The arguments end as launched

No host operation writes an argument, and a call either reads it through an input window, whose array it leaves as
entered, or does not touch it: the fold at an argument's buffer walks back to the launch memory. -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := W7_of m c main_arg0 (by decide)
    _ = W5 m c (Proc.devRef .tc main_arg0) := W6_of_ne m c main_arg0 (by decide)
    _ = W4 m c (Proc.devRef .tc main_arg0) := W5_of m c main_arg0 (by decide)
    _ = W3 m c (Proc.devRef .tc main_arg0) := W4_of_ne m c main_arg0 (by decide)
    _ = W2 m c (Proc.devRef .tc main_arg0) := W3_of m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of m c main_arg0 (by decide)
    _ = m ((c : Thread nD τ).loc main_arg0) := rfl
theorem W7_main_arg1 (c : Dev nD) : W7 m c (Proc.devRef .tc main_arg1) = m ((c : Thread nD τ).loc main_arg1) :=
  calc W7 m c (Proc.devRef .tc main_arg1)
    _ = W6 m c (Proc.devRef .tc main_arg1) := W7_of m c main_arg1 (by decide)
    _ = W5 m c (Proc.devRef .tc main_arg1) := W6_of_ne m c main_arg1 (by decide)
    _ = W4 m c (Proc.devRef .tc main_arg1) := W5_of m c main_arg1 (by decide)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
theorem W7_main_arg2 (c : Dev nD) : W7 m c (Proc.devRef .tc main_arg2) = m ((c : Thread nD τ).loc main_arg2) :=
  calc W7 m c (Proc.devRef .tc main_arg2)
    _ = W6 m c (Proc.devRef .tc main_arg2) := W7_of m c main_arg2 (by decide)
    _ = W5 m c (Proc.devRef .tc main_arg2) := W6_of_ne m c main_arg2 (by decide)
    _ = W4 m c (Proc.devRef .tc main_arg2) := W5_of m c main_arg2 (by decide)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
theorem W7_main_arg3 (c : Dev nD) : W7 m c (Proc.devRef .tc main_arg3) = m ((c : Thread nD τ).loc main_arg3) :=
  calc W7 m c (Proc.devRef .tc main_arg3)
    _ = W6 m c (Proc.devRef .tc main_arg3) := W7_of m c main_arg3 (by decide)
    _ = W5 m c (Proc.devRef .tc main_arg3) := W6_of_ne m c main_arg3 (by decide)
    _ = W4 m c (Proc.devRef .tc main_arg3) := W5_of m c main_arg3 (by decide)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl
theorem W7_main_arg4 (c : Dev nD) : W7 m c (Proc.devRef .tc main_arg4) = m ((c : Thread nD τ).loc main_arg4) :=
  calc W7 m c (Proc.devRef .tc main_arg4)
    _ = W6 m c (Proc.devRef .tc main_arg4) := W7_of m c main_arg4 (by decide)
    _ = W5 m c (Proc.devRef .tc main_arg4) := W6_of_ne m c main_arg4 (by decide)
    _ = W4 m c (Proc.devRef .tc main_arg4) := W5_of m c main_arg4 (by decide)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl
theorem W7_main_arg5 (c : Dev nD) : W7 m c (Proc.devRef .tc main_arg5) = m ((c : Thread nD τ).loc main_arg5) :=
  calc W7 m c (Proc.devRef .tc main_arg5)
    _ = W6 m c (Proc.devRef .tc main_arg5) := W7_of m c main_arg5 (by decide)
    _ = W5 m c (Proc.devRef .tc main_arg5) := (W6_arr m c 1).trans (((dat2 (V5 m) c).arrAt_in 1 rfl _).trans (A_eq2 (V5 m) c 1))
    _ = W4 m c (Proc.devRef .tc main_arg5) := W5_of m c main_arg5 (by decide)
    _ = W3 m c (Proc.devRef .tc main_arg5) := W4_of_ne m c main_arg5 (by decide)
    _ = W2 m c (Proc.devRef .tc main_arg5) := W3_of m c main_arg5 (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl
theorem W7_main_arg6 (c : Dev nD) : W7 m c (Proc.devRef .tc main_arg6) = m ((c : Thread nD τ).loc main_arg6) :=
  calc W7 m c (Proc.devRef .tc main_arg6)
    _ = W6 m c (Proc.devRef .tc main_arg6) := W7_of m c main_arg6 (by decide)
    _ = W5 m c (Proc.devRef .tc main_arg6) := W6_of_ne m c main_arg6 (by decide)
    _ = W4 m c (Proc.devRef .tc main_arg6) := W5_of m c main_arg6 (by decide)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl

/-- An unscoped reference of the TensorCore is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the program runs and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  OrdCont.mono (θ_run defs (onTc (τ := τ) (main (F := F))) ⟨m, fun _ => 0, ρ⟩)
    (fun r h c =>
      ⟨(h c _ (mem_uc main_arg0 (by decide))).trans (W7_main_arg0 m c),
       (h c _ (mem_uc main_arg1 (by decide))).trans (W7_main_arg1 m c),
       (h c _ (mem_uc main_arg2 (by decide))).trans (W7_main_arg2 m c),
       (h c _ (mem_uc main_arg3 (by decide))).trans (W7_main_arg3 m c),
       (h c _ (mem_uc main_arg4 (by decide))).trans (W7_main_arg4 m c),
       (h c _ (mem_uc main_arg5 (by decide))).trans (W7_main_arg5 m c),
       (h c _ (mem_uc main_arg6 (by decide))).trans (W7_main_arg6 m c)⟩)
    (run_named m ρ)

end Cert.KernelIdeal.Hand

end
-- ==== Proof.Value.Spec.lean ====
/-
  What both programs compute, as one function of the argument arrays over the extended reals.
  A node's row of x·W_lᵀ is gathered along each edge from its source and summed into the edge's destination; that sum is
  divided by the destination's edge count (at least one); the bias b_l and the node's own row of x·W_rᵀ are added and
  the maximum with zero taken: H[r, s]. The 131072 × 16 array H is read per graph as one row of 65536 numbers (node
  4096·p + k / 16, feature k mod 16) and multiplied with W_outᵀ, and b_out added: entry (p, q) of the result.
  The gather, the two scatter-adds and the quotient are kept as ONE function (meanOf) of the first product and the edge
  list: both programs apply the same host operations there, so nothing of them is ever opened.
-/
import proofs.«123501_j84713934946331_1_alg».proof.Proof.Gen.KernelIdeal
import Idealize.ShloMosaic.PureOps.Ideal
import Idealize.ShloMosaic.Lib.ValueIdx

noncomputable section

namespace Cert.KernelIdeal.Hand

open Cert.KernelIdeal Cert.KernelIdeal.Facts₀ Cert.KernelIdeal.Facts
open Idealize.ShloMosaic Idealize.SL.Sem
open Idealize.ShloMosaic.ValueIdx

/-- The edges' destination nodes: row 1 of the edge list. -/
def dstOf (edge : Vec Ideal S2x4194304 .i32) : Vec Ideal S4194304 .i32 :=
  shapeCast _ (extractStridedSlice S1x4194304 ![1, 0] edge slices_S2x4194304_S1x4194304_1_0) shapeCasts_S1x4194304_S4194304

/-- The edges' source nodes as listed: row 0 of the edge list. -/
def srcRaw (edge : Vec Ideal S2x4194304 .i32) : Vec Ideal S4194304 .i32 :=
  shapeCast _ (extractStridedSlice S1x4194304 ![0, 0] edge slices_S2x4194304_S1x4194304_0_0) shapeCasts_S1x4194304_S4194304

/-- The edges' source nodes as indexed: a negative index counts from the end. -/
def srcOf (edge : Vec Ideal S2x4194304 .i32) : Vec Ideal S4194304 .i32 :=
  select (cmpi .slt (srcRaw edge) (broadcastInDim S4194304 ![] bcast_S_S4194304 (constantI S_ 32 0#32)))
    (addi (srcRaw edge) (broadcastInDim S4194304 ![] bcast_S_S4194304 (constantI S_ 32 131072#32))) (srcRaw edge)

/-- The neighbourhood mean: the rows of xl gathered at the edges' sources, summed at their destinations, over the
    destinations' edge counts (at least one). -/
def meanOf (xl : Vec Ideal S131072x16 .f32) (edge : Vec Ideal S2x4194304 .i32) : Vec Ideal S131072x16 .f32 :=
  Host.divf
    (Host.scatterAdd scatter_S131072x16_S4194304x1_S4194304x16_1_0_0_1
      (broadcastInDim S131072x16 ![] bcast_S_S131072x16 (constant (F := Ideal) S_ .f32 0x00000000#32))
      (broadcastInDim S4194304x1 ![0] bcast_S4194304_S4194304x1_0 (dstOf edge))
      (Host.gather gather_S131072x16_S4194304x1_S4194304x16_1_0_n_n_0_1_116 xl
        (broadcastInDim S4194304x1 ![0] bcast_S4194304_S4194304x1_0 (srcOf edge))))
    (broadcastInDim S131072x16 ![0, 1] bcast_S131072x1_S131072x16_0_1
      (broadcastInDim S131072x1 ![0] bcast_S131072_S131072x1_0
        (maximumf
          (Host.scatterAdd scatter_S131072_S4194304x1_S4194304_n_0_0_1
            (broadcastInDim S131072 ![] bcast_S_S131072 (constant (F := Ideal) S_ .f32 0x00000000#32))
            (broadcastInDim S4194304x1 ![0] bcast_S4194304_S4194304x1_0 (dstOf edge))
            (broadcastInDim S4194304 ![] bcast_S_S4194304 (constant (F := Ideal) S_ .f32 0x3F800000#32)))
          (broadcastInDim S131072 ![] bcast_S_S131072 (constant (F := Ideal) S_ .f32 0x3F800000#32)))))

/-- x·Wᵀ with W given as stored (16 × 128): entry (r, s) is the sum over k < 128 of x[r, k] · W[s, k]. -/
def prodAt (x : Vec Ideal S131072x128 .f32) (W : Vec Ideal S16x128 .f32) (r : Fin 131072) (s : Fin 16) : EReal :=
  ∑ k : Fin 128, x (ix2 r k) * W (ix2 s k)

/-- x·Wᵀ as an array. -/
def prodArr (x : Vec Ideal S131072x128 .f32) (W : Vec Ideal S16x128 .f32) : Vec Ideal S131072x16 .f32 :=
  fun j => prodAt x W (j 0) (j 1)

/-- The hidden features H[r, s] = max(mean[r, s] + b_l[s] + (x·W_rᵀ)[r, s], 0). -/
def hiddenAt (x : Vec Ideal S131072x128 .f32) (edge : Vec Ideal S2x4194304 .i32) (Wl : Vec Ideal S16x128 .f32)
    (bl : Vec Ideal S16 .f32) (Wr : Vec Ideal S16x128 .f32) (r : Fin 131072) (s : Fin 16) : EReal :=
  max ((meanOf (prodArr x Wl) edge (ix2 r s) + bl (ix1 s)) + prodAt x Wr r s) 0

/-- The node of graph p that entry k of its flattened feature row belongs to. -/
def nodeOf (p : Fin 32) (k : Fin 65536) : Fin 131072 := ⟨p.val * 4096 + k.val / 16, by omega⟩
/-- and the feature. -/
def featOf (k : Fin 65536) : Fin 16 := ⟨k.val % 16, Nat.mod_lt _ (by decide)⟩

/-- Entry (p, q) of the result. -/
def wholeAt (x : Vec Ideal S131072x128 .f32) (edge : Vec Ideal S2x4194304 .i32) (Wl : Vec Ideal S16x128 .f32)
    (bl : Vec Ideal S16 .f32) (Wr : Vec Ideal S16x128 .f32) (Wout : Vec Ideal S39x65536 .f32) (bout : Vec Ideal S39 .f32)
    (p : Fin 32) (q : Fin 39) : EReal :=
  (∑ k : Fin 65536, hiddenAt x edge Wl bl Wr (nodeOf p k) (featOf k) * Wout (ix2 q k)) + bout (ix1 q)

/-- The result array, with its trailing unit axis. -/
def wholeArr (x : Vec Ideal S131072x128 .f32) (edge : Vec Ideal S2x4194304 .i32) (Wl : Vec Ideal S16x128 .f32)
    (bl : Vec Ideal S16 .f32) (Wr : Vec Ideal S16x128 .f32) (Wout : Vec Ideal S39x65536 .f32) (bout : Vec Ideal S39 .f32) :
    Vec Ideal S32x39x1 .f32 :=
  fun j => wholeAt x edge Wl bl Wr Wout bout (j 0) (j 1)

end Cert.KernelIdeal.Hand

end
-- ==== Proof.Value.LinearValue.lean ====
/-
  What the first call computes, over the extended reals: both result arrays are plain matrix products. Entry (p, q) of
  the first is the sum over k < 128 of x[p, k] · W_lᵀ[k, q], of the second the same with W_rᵀ: the rounding to bf16 is
  the identity there, a product into a zero accumulator is the bare sum, and the 32 row blocks of 4096 tile the rows.
-/
import proofs.«123501_j84713934946331_1_alg».proof.Proof.KernelIdeal.Linear
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)
open Idealize.ShloMosaic.ValueIdx

-- the TensorCore's buffer contents when the call is entered, over the extended reals
variable (V : (c : Dev nD) → (b : Ref sig .tc) → Buf (Elt Ideal) ((c : Thread nD τ).loc b))

/-- Entry (p, q) of x·Wᵀ, with the weight matrix given transposed (128 × 16). -/
def linAt (x : Vec Ideal S131072x128 .f32) (wt : Vec Ideal S128x16 .f32) (p : Fin 131072) (q : Fin 16) : EReal :=
  ∑ k : Fin 128, x (ix2 p k) * wt (ix2 k q)

/-! ## The product's operand indices

At output index (r, q) and contraction index k the left operand is read at (r, k), the right at (k, q). -/

private theorem lhs_axis0 (i : S4096x16.Idx) (s : dot_S4096x128_S128x16_S4096x16_1_0_0_1_n_n.contr.Idx) :
    (dot_S4096x128_S128x16_S4096x16_1_0_0_1_n_n.lhsIdx i s 0).val = (i 0).val := by
  unfold DotDims.lhsIdx
  rw [dif_neg (show ¬(0 : Fin S4096x128.rank) ∈ dot_S4096x128_S128x16_S4096x16_1_0_0_1_n_n.lhsBatch by decide), dif_pos (show (0 : Fin S4096x128.rank) ∈ dot_S4096x128_S128x16_S4096x16_1_0_0_1_n_n.lhsNonContracting by decide)]
  rfl
private theorem lhs_axis1 (i : S4096x16.Idx) (s : dot_S4096x128_S128x16_S4096x16_1_0_0_1_n_n.contr.Idx) :
    (dot_S4096x128_S128x16_S4096x16_1_0_0_1_n_n.lhsIdx i s 1).val = (s ⟨0, by decide⟩).val :=
  dot_S4096x128_S128x16_S4096x16_1_0_0_1_n_n.lhsIdx_val_of_single rfl i s
private theorem rhs_axis0 (i : S4096x16.Idx) (s : dot_S4096x128_S128x16_S4096x16_1_0_0_1_n_n.contr.Idx) :
    (dot_S4096x128_S128x16_S4096x16_1_0_0_1_n_n.rhsIdx i s 0).val = (s ⟨0, by decide⟩).val :=
  dot_S4096x128_S128x16_S4096x16_1_0_0_1_n_n.rhsIdx_val_of_single rfl i s
private theorem rhs_axis1 (i : S4096x16.Idx) (s : dot_S4096x128_S128x16_S4096x16_1_0_0_1_n_n.contr.Idx) :
    (dot_S4096x128_S128x16_S4096x16_1_0_0_1_n_n.rhsIdx i s 1).val = (i 1).val := by
  unfold DotDims.rhsIdx
  rw [dif_neg (show ¬(1 : Fin S128x16.rank) ∈ dot_S4096x128_S128x16_S4096x16_1_0_0_1_n_n.rhsBatch by decide), dif_pos (show (1 : Fin S128x16.rank) ∈ dot_S4096x128_S128x16_S4096x16_1_0_0_1_n_n.rhsNonContracting by decide)]
  rfl

/-- The product of a row block with a weight matrix into a zero accumulator, entry by entry: the bare sum (rounding
    to bf16 is the identity over the extended reals, and the zero word is 0). -/
private theorem prod_apply (x : Vec Ideal S4096x128 .f32) (w : FVec Ideal S128x16 .bf16) (r : Fin 4096) (q : Fin 16) :
    FloatOps.matmul dot_S4096x128_S128x16_S4096x16_1_0_0_1_n_n none (k0_pay1 (F := Ideal) x) w (constant S4096x16 .f32 0x00000000#32) (ix2 r q)
      = ∑ k : Fin 128, x (ix2 r k) * w (ix2 k q) := by
  rw [Ideal.matmul_constant_zero_apply, ← Equiv.sum_comp (contrEquiv1 dot_S4096x128_S128x16_S4096x16_1_0_0_1_n_n 128 rfl rfl).symm]
  refine Finset.sum_congr rfl fun k _ => ?_
  have hk := contrEquiv1_symm_val dot_S4096x128_S128x16_S4096x16_1_0_0_1_n_n 128 rfl rfl k
  have el : dot_S4096x128_S128x16_S4096x16_1_0_0_1_n_n.lhsIdx (ix2 r q) ((contrEquiv1 dot_S4096x128_S128x16_S4096x16_1_0_0_1_n_n 128 rfl rfl).symm k) = ix2 r k := funext fun a => Fin.ext (by
    match a with
    | ⟨0, _⟩ => exact lhs_axis0 _ _
    | ⟨1, _⟩ => exact (lhs_axis1 _ _).trans hk)
  have er : dot_S4096x128_S128x16_S4096x16_1_0_0_1_n_n.rhsIdx (ix2 r q) ((contrEquiv1 dot_S4096x128_S128x16_S4096x16_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]
  rfl

/-- The first payload at an entry. -/
private theorem pay2_apply (x : Vec Ideal S4096x128 .f32) (w : Vec Ideal S128x16 .f32) (r : Fin 4096) (q : Fin 16) :
    k0_pay2 (F := Ideal) x w (ix2 r q) = ∑ k : Fin 128, x (ix2 r k) * w (ix2 k q) := by
  unfold k0_pay2
  simp only [shapeCast_self]
  exact prod_apply x _ r q

/-- The second payload at an entry. -/
private theorem pay3_apply (x : Vec Ideal S4096x128 .f32) (w : Vec Ideal S128x16 .f32) (r : Fin 4096) (q : Fin 16) :
    k0_pay3 (F := Ideal) x w (ix2 r q) = ∑ k : Fin 128, x (ix2 r k) * w (ix2 k q) := by
  unfold k0_pay3
  simp only [shapeCast_self]
  exact prod_apply x _ r q

/-! ## One block of a result, from the whole arrays -/

/-- The whole product array. -/
private def linArr (x : Vec Ideal S131072x128 .f32) (wt : Vec Ideal S128x16 .f32) : S131072x16.Idx → EReal :=
  fun i => linAt x wt (i 0) (i 1)

/-- If a row block's row r is the array's row p and the weight block is the weight array, the payload's entry (r, q)
    is the product array's entry (p, q). -/
private theorem pay2_block (X : Vec Ideal S131072x128 .f32) (Wt : Vec Ideal S128x16 .f32)
    (xb : Vec Ideal S4096x128 .f32) (wb : Vec Ideal S128x16 .f32) (p : Fin 131072) (r : Fin 4096) (q : Fin 16)
    (hx : ∀ k : Fin 128, xb (ix2 r k) = X (ix2 p k)) (hw : ∀ k : Fin 128, wb (ix2 k q) = Wt (ix2 k q)) :
    k0_pay2 (F := Ideal) xb wb (ix2 r q) = linAt X Wt p q := by
  rw [pay2_apply]
  unfold linAt
  exact Finset.sum_congr rfl fun k _ => by rw [hx k, hw k]

private theorem pay3_block (X : Vec Ideal S131072x128 .f32) (Wt : Vec Ideal S128x16 .f32)
    (xb : Vec Ideal S4096x128 .f32) (wb : Vec Ideal S128x16 .f32) (p : Fin 131072) (r : Fin 4096) (q : Fin 16)
    (hx : ∀ k : Fin 128, xb (ix2 r k) = X (ix2 p k)) (hw : ∀ k : Fin 128, wb (ix2 k q) = Wt (ix2 k q)) :
    k0_pay3 (F := Ideal) xb wb (ix2 r q) = linAt X Wt p q := by
  rw [pay3_apply]
  unfold linAt
  exact Finset.sum_congr rfl fun k _ => by rw [hx k, hw k]

/-! ## The windows' block indices, decided over the 32 points -/

private theorem zero_off : (![0, 0] : Fin 2 → Nat) = fun _ => 0 :=
  funext fun a => match a with | ⟨0, _⟩ => rfl | ⟨1, _⟩ => rfl

/-- The rows' window and both results' move down one row block per point; both weight windows stay on their one
    block. -/
private theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## What each point writes back -/

/-- Point t writes block t of the first product array. -/
private theorem xl_flushed (c : Dev nD) (t : Fin cfg0.N) :
    (dat0 V c).flushed 3 t = ((cfg0.win 3).blk t).view.read (Elt Ideal) (linArr (V c main_arg0) (V c main_v4)) := by
  show (cfg0.win 3).cut (cfg0.grid.coords t) ((dat0 V c).after 3 t) = _
  rw [after0_3]
  unfold xlBlk rX0 rW0 rO0
  rw [View.canon_unit_zero zero_off]
  simp only [View.ld_unit_zero (S := S4096x128) zero_off, View.ld_unit_zero (S := S128x16) zero_off]
  obtain ⟨e00, e01, e10, e11, e20, e21, e30, e31, e40, e41⟩ := idx_facts t
  funext j
  obtain ⟨r, q, rfl⟩ : ∃ (r : Fin 4096) (q : Fin 16), j = ix2 r q := ⟨j 0, j 1, eq_ix2 j⟩
  show k0_pay2 (blk0 V c 0 t) (blk0 V c 1 t) (ix2 r q)
    = linAt (V c main_arg0) (V c main_v4) ((((cfg0.win 3).blk t).view.emb (ix2 r q)) 0) ((((cfg0.win 3).blk t).view.emb (ix2 r q)) 1)
  have hq : (((cfg0.win 3).blk t).view.emb (ix2 r q)) 1 = q := Fin.ext (by
    show win0_3.index t (1 : Fin 2) * 16 + 1 * q.val = q.val; omega)
  rw [hq]
  refine pay2_block _ _ _ _ _ r q (fun k => ?_) (fun k => ?_)
  · show V c main_arg0 (((cfg0.win 0).blk t).view.emb (ix2 r k)) = V c main_arg0 (ix2 ((((cfg0.win 3).blk t).view.emb (ix2 r q)) 0) k)
    refine congrArg (V c main_arg0) (funext fun a => Fin.ext ?_)
    match a with
    | ⟨0, _⟩ => show win0_0.index t (0 : Fin 2) * 4096 + 1 * r.val = win0_3.index t (0 : Fin 2) * 4096 + 1 * r.val; omega
    | ⟨1, _⟩ => show win0_0.index t (1 : Fin 2) * 128 + 1 * k.val = k.val; omega
  · show V c main_v4 (((cfg0.win 1).blk t).view.emb (ix2 k q)) = V c main_v4 (ix2 k q)
    refine congrArg (V c main_v4) (funext fun a => Fin.ext ?_)
    match a with
    | ⟨0, _⟩ => show win0_1.index t (0 : Fin 2) * 128 + 1 * k.val = k.val; omega
    | ⟨1, _⟩ => show win0_1.index t (1 : Fin 2) * 16 + 1 * q.val = q.val; omega

/-- Point t writes block t of the second product array. -/
private theorem xr_flushed (c : Dev nD) (t : Fin cfg0.N) :
    (dat0 V c).flushed 4 t = ((cfg0.win 4).blk t).view.read (Elt Ideal) (linArr (V c main_arg0) (V c main_v5)) := by
  show (cfg0.win 4).cut (cfg0.grid.coords t) ((dat0 V c).after 4 t) = _
  rw [after0_4]
  unfold xrBlk rX0 rW0 rO0
  rw [View.canon_unit_zero zero_off]
  simp only [View.ld_unit_zero (S := S4096x128) zero_off, View.ld_unit_zero (S := S128x16) zero_off]
  obtain ⟨e00, e01, e10, e11, e20, e21, e30, e31, e40, e41⟩ := idx_facts t
  funext j
  obtain ⟨r, q, rfl⟩ : ∃ (r : Fin 4096) (q : Fin 16), j = ix2 r q := ⟨j 0, j 1, eq_ix2 j⟩
  show k0_pay3 (blk0 V c 0 t) (blk0 V c 2 t) (ix2 r q)
    = linAt (V c main_arg0) (V c main_v5) ((((cfg0.win 4).blk t).view.emb (ix2 r q)) 0) ((((cfg0.win 4).blk t).view.emb (ix2 r q)) 1)
  have hq : (((cfg0.win 4).blk t).view.emb (ix2 r q)) 1 = q := Fin.ext (by
    show win0_4.index t (1 : Fin 2) * 16 + 1 * q.val = q.val; omega)
  rw [hq]
  refine pay3_block _ _ _ _ _ r q (fun k => ?_) (fun k => ?_)
  · show V c main_arg0 (((cfg0.win 0).blk t).view.emb (ix2 r k)) = V c main_arg0 (ix2 ((((cfg0.win 4).blk t).view.emb (ix2 r q)) 0) k)
    refine congrArg (V c main_arg0) (funext fun a => Fin.ext ?_)
    match a with
    | ⟨0, _⟩ => show win0_0.index t (0 : Fin 2) * 4096 + 1 * r.val = win0_4.index t (0 : Fin 2) * 4096 + 1 * r.val; omega
    | ⟨1, _⟩ => show win0_0.index t (1 : Fin 2) * 128 + 1 * k.val = k.val; omega
  · show V c main_v5 (((cfg0.win 2).blk t).view.emb (ix2 k q)) = V c main_v5 (ix2 k q)
    refine congrArg (V c main_v5) (funext fun a => Fin.ext ?_)
    match a with
    | ⟨0, _⟩ => show win0_2.index t (0 : Fin 2) * 128 + 1 * k.val = k.val; omega
    | ⟨1, _⟩ => show win0_2.index t (1 : Fin 2) * 16 + 1 * q.val = q.val; omega

/-! ## The 32 row blocks tile the rows -/

private theorem mem_blk3 (t : Fin cfg0.N) (i : S131072x16.Idx) :
    i ∈ ((cfg0.win 3).blk t).view.set ↔ ∀ a : Fin 2, win0_3.index t a * S4096x16.size a ≤ (i a).val ∧ (i a).val < win0_3.index t a * S4096x16.size a + S4096x16.size a := by
  show i ∈ ((View.whole main_v6_0).slice (win0_3.rect t)).set ↔ _
  rw [View.set_slice_whole, Rect.mem_set_unit]
  exact Iff.rfl

private theorem mem_blk4 (t : Fin cfg0.N) (i : S131072x16.Idx) :
    i ∈ ((cfg0.win 4).blk t).view.set ↔ ∀ a : Fin 2, win0_4.index t a * S4096x16.size a ≤ (i a).val ∧ (i a).val < win0_4.index t a * S4096x16.size a + S4096x16.size a := by
  show i ∈ ((View.whole main_v6_1).slice (win0_4.rect t)).set ↔ _
  rw [View.set_slice_whole, Rect.mem_set_unit]
  exact Iff.rfl

/-- Row p lies in the block of point p / 4096. -/
private theorem cover3 (i : S131072x16.Idx) : ∃ t : Fin cfg0.N, (cfg0.win 3).flush t = true ∧ i ∈ ((cfg0.win 3).blk t).view.set := by
  have hi0 : (i 0).val < 131072 := (i 0).isLt
  have hi1 : (i 1).val < 16 := (i 1).isLt
  obtain ⟨t, ht⟩ : ∃ t : Fin cfg0.N, t.val = (i 0).val / 4096 :=
    ⟨⟨(i 0).val / 4096, by rw [show cfg0.N = 32 from N_0]; omega⟩, rfl⟩
  obtain ⟨e00, e01, e10, e11, e20, e21, e30, e31, e40, e41⟩ := idx_facts t
  refine ⟨t, flush0_3 t, ?_⟩
  rw [mem_blk3]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 16 ≤ (i 1).val ∧ (i 1).val < win0_3.index t (1 : Fin 2) * 16 + 16; omega

private theorem cover4 (i : S131072x16.Idx) : ∃ t : Fin cfg0.N, (cfg0.win 4).flush t = true ∧ i ∈ ((cfg0.win 4).blk t).view.set := by
  have hi0 : (i 0).val < 131072 := (i 0).isLt
  have hi1 : (i 1).val < 16 := (i 1).isLt
  obtain ⟨t, ht⟩ : ∃ t : Fin cfg0.N, t.val = (i 0).val / 4096 :=
    ⟨⟨(i 0).val / 4096, by rw [show cfg0.N = 32 from N_0]; omega⟩, rfl⟩
  obtain ⟨e00, e01, e10, e11, e20, e21, e30, e31, e40, e41⟩ := idx_facts t
  refine ⟨t, flush0_4 t, ?_⟩
  rw [mem_blk4]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 16 ≤ (i 1).val ∧ (i 1).val < win0_4.index t (1 : Fin 2) * 16 + 16; omega

/-! ## The result arrays -/

/-- The first result array after the call, entry by entry. -/
theorem xl_value (c : Dev nD) (p : Fin 131072) (q : Fin 16) :
    ((dat0 V c).arrAt 3 cfg0.N : S131072x16.Idx → EReal) (ix2 p q) = linAt (V c main_arg0) (V c main_v4) p q :=
  congrFun ((dat0 V c).arrAt_eq_of_cover 3 (linArr (V c main_arg0) (V c main_v4)) (fun t _ => xl_flushed V c t) cover3) (ix2 p q)

/-- The second result array after the call, entry by entry. -/
theorem xr_value (c : Dev nD) (p : Fin 131072) (q : Fin 16) :
    ((dat0 V c).arrAt 4 cfg0.N : S131072x16.Idx → EReal) (ix2 p q) = linAt (V c main_arg0) (V c main_v5) p q :=
  congrFun ((dat0 V c).arrAt_eq_of_cover 4 (linArr (V c main_arg0) (V c main_v5)) (fun t _ => xr_flushed V c t) cover4) (ix2 p q)

end Cert.KernelIdeal.Hand

end
-- ==== Proof.Value.CombineValue.lean ====
/-
  What the second call computes, over the extended reals: entry (p, q) of its result is
  max(mean[p, q] + b[0, q] + xr[p, q], 0): the body is entrywise on each block of 4096 rows, the bias row broadcast
  along the rows, and the 32 row blocks tile the rows.
-/
import proofs.«123501_j84713934946331_1_alg».proof.Proof.KernelIdeal.Combine
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)
open Idealize.ShloMosaic.ValueIdx

-- the TensorCore's buffer contents when the call is entered, over the extended reals
variable (V : (c : Dev nD) → (b : Ref sig .tc) → Buf (Elt Ideal) ((c : Thread nD τ).loc b))

/-- Entry (p, q) of max(mean + bias row + xr, 0). -/
def combAt (mean xr : Vec Ideal S131072x16 .f32) (bl : Vec Ideal S1x16 .f32) (p : Fin 131072) (q : Fin 16) : EReal :=
  max ((mean (ix2 p q) + bl (ix2 (0 : Fin 1) q)) + xr (ix2 p q)) 0

/-! ## The body's payload, entry by entry -/

/-- A whole-block rectangle starts at zero on both axes. -/
private theorem off_zero : (![0, 0] : Fin 2 → Nat) = fun _ => 0 := funext fun a => by fin_cases a <;> rfl

/-- At row r and column q the payload is the mean's entry plus the bias row's entry in column q, plus xr's entry, and then
    the maximum with zero: a shape cast to the same shape does nothing, the broadcast repeats the one row down the rows,
    and the zero word is the real 0. -/
private theorem pay_at (b : Vec Ideal S1x16 .f32) (u v : Vec Ideal S4096x16 .f32) (r : Fin 4096) (q : Fin 16) :
    (k1_pay1 b u v : S4096x16.Idx → EReal) (ix2 r q) = max ((u (ix2 r q) + b (ix2 (0 : Fin 1) q)) + v (ix2 r q)) 0 := by
  unfold k1_pay1
  simp only [shapeCast_self]
  rw [maximumf_apply, addf_apply, addf_apply, broadcast_apply, broadcastTo_1b_ab_apply]
  show max _ (Ideal.ofBits .f32 0x00000000#32) = _
  rw [Ideal.ofBits_zero_f32]

/-- The same at any index of the block, the column read off the index. -/
private theorem pay_entry (b : Vec Ideal S1x16 .f32) (u v : Vec Ideal S4096x16 .f32) (j : S4096x16.Idx) :
    (k1_pay1 b u v : S4096x16.Idx → EReal) j = max ((u j + b (ix2 (0 : Fin 1) (j 1 : Fin 16))) + v j) 0 := by
  obtain ⟨r, q, rfl⟩ : ∃ (r : Fin 4096) (q : Fin 16), j = ix2 r q := ⟨j 0, j 1, eq_ix2 j⟩
  exact pay_at b u v r q

/-! ## From the blocks to the array -/

/-- The result as ONE function of the three arrays the call reads: entrywise, the bias taken in the entry's column. -/
private def combArr (mean xr : Vec Ideal S131072x16 .f32) (bl : Vec Ideal S1x16 .f32) : S131072x16.Idx → EReal :=
  fun i => max ((mean i + bl (ix2 (0 : Fin 1) (i 1 : Fin 16))) + xr i) 0

/-- One entry of one block: if the mean's and xr's blocks read at j what the arrays hold at i, and the bias block reads in
    j's column what the bias row holds in i's, then the payload at j is the one function at i. -/
private theorem block_entry (mean xr : Vec Ideal S131072x16 .f32) (bl : Vec Ideal S1x16 .f32)
    (b : Vec Ideal S1x16 .f32) (u v : Vec Ideal S4096x16 .f32) (j : S4096x16.Idx) (i : S131072x16.Idx)
    (hu : u j = mean i) (hv : v j = xr i)
    (hb : b (ix2 (0 : Fin 1) (j 1 : Fin 16)) = bl (ix2 (0 : Fin 1) (i 1 : Fin 16))) :
    (k1_pay1 b u v : S4096x16.Idx → EReal) j = combArr mean xr bl i := by
  rw [pay_entry, hu, hv, hb]
  rfl

/-- The index maps over the 32 points: the mean's and xr's blocks move with the result's, whose row-block index is the
    point itself; every column index is 0; the bias row stays at its one block. -/
private theorem index_facts : ∀ t : Fin cfg1.N,
    win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of that one function: the mean's and xr's blocks sit over the same rows as the
    result's block, and the bias block is the whole bias row. -/
private theorem flushed_block (c : Dev nD) (t : Fin cfg1.N) :
    (dat1 V c).flushed 3 t
      = ((cfg1.win 3).blk t).view.read (Elt Ideal) (combArr (V c main_v25) (V c main_v6_1) (V c main_v26)) := by
  show (cfg1.win 3).cut (grid1.coords t) ((dat1 V c).after 3 t) = _
  rw [after1_3]
  unfold hBlk
  rw [View.canon_unit_zero off_zero]
  simp only [View.ld_unit_zero (S := S4096x16) off_zero, View.ld_unit_zero (S := S1x16) off_zero]
  obtain ⟨m0, m1, x0, x1, b0, b1, o0, o1⟩ := index_facts t
  funext j
  show (k1_pay1 (blk1 V c 2 t) (blk1 V c 0 t) (blk1 V c 1 t) : S4096x16.Idx → EReal) j
    = combArr (V c main_v25) (V c main_v6_1) (V c main_v26) (((cfg1.win 3).blk t).view.emb j)
  -- a block's coordinate in its array is the block index times the block's size plus the coordinate inside the block
  have hm : ((cfg1.win 0).blk t).view.emb j = ((cfg1.win 3).blk t).view.emb j := by
    funext a; apply Fin.ext
    match a with
    | ⟨0, _⟩ => show win1_0.index t (0 : Fin 2) * 4096 + 1 * (j 0).val = win1_3.index t (0 : Fin 2) * 4096 + 1 * (j 0).val; omega
    | ⟨1, _⟩ => show win1_0.index t (1 : Fin 2) * 16 + 1 * (j 1).val = win1_3.index t (1 : Fin 2) * 16 + 1 * (j 1).val; omega
  have hx : ((cfg1.win 1).blk t).view.emb j = ((cfg1.win 3).blk t).view.emb j := by
    funext a; apply Fin.ext
    match a with
    | ⟨0, _⟩ => show win1_1.index t (0 : Fin 2) * 4096 + 1 * (j 0).val = win1_3.index t (0 : Fin 2) * 4096 + 1 * (j 0).val; omega
    | ⟨1, _⟩ => show win1_1.index t (1 : Fin 2) * 16 + 1 * (j 1).val = win1_3.index t (1 : Fin 2) * 16 + 1 * (j 1).val; omega
  have hb : ∀ y : S1x16.Idx, ((cfg1.win 2).blk t).view.emb y = y := by
    intro y; funext a; apply Fin.ext
    match a with
    | ⟨0, _⟩ => show win1_2.index t (0 : Fin 2) * 1 + 1 * (y 0).val = (y 0).val; omega
    | ⟨1, _⟩ => show win1_2.index t (1 : Fin 2) * 16 + 1 * (y 1).val = (y 1).val; omega
  have hq : ((((cfg1.win 3).blk t).view.emb j) 1 : Fin 16) = (j 1 : Fin 16) :=
    Fin.ext (by show win1_3.index t (1 : Fin 2) * 16 + 1 * (j 1).val = (j 1).val; omega)
  refine block_entry (V c main_v25) (V c main_v6_1) (V c main_v26) _ _ _ j (((cfg1.win 3).blk t).view.emb j) ?_ ?_ ?_
  · show V c main_v25 (((cfg1.win 0).blk t).view.emb j) = V c main_v25 (((cfg1.win 3).blk t).view.emb j)
    rw [hm]
  · show V c main_v6_1 (((cfg1.win 1).blk t).view.emb j) = V c main_v6_1 (((cfg1.win 3).blk t).view.emb j)
    rw [hx]
  · show V c main_v26 (((cfg1.win 2).blk t).view.emb (ix2 (0 : Fin 1) (j 1 : Fin 16)))
      = V c main_v26 (ix2 (0 : Fin 1) ((((cfg1.win 3).blk t).view.emb j) 1 : Fin 16))
    rw [hb, hq]

/-- An index is in point t's block of the result iff each coordinate is in the block's range on its axis. -/
private theorem mem_block (t : Fin cfg1.N) (i : S131072x16.Idx) :
    i ∈ ((cfg1.win 3).blk t).view.set
      ↔ ∀ a : Fin 2, win1_3.index t a * S4096x16.size a ≤ (i a).val
          ∧ (i a).val < win1_3.index t a * S4096x16.size a + S4096x16.size a := by
  show i ∈ ((View.whole main_v27).slice (win1_3.rect t)).set ↔ _
  rw [View.set_slice_whole, Rect.mem_set_unit]
  exact Iff.rfl

/-- The 32 row blocks tile the rows: row r lies in the block of point r / 4096, which writes back like every point. -/
private theorem covered (i : S131072x16.Idx) :
    ∃ t : Fin cfg1.N, (cfg1.win 3).flush t = true ∧ i ∈ ((cfg1.win 3).blk t).view.set := by
  have h0 : (i 0).val < 131072 := (i 0).isLt
  have h1 : (i 1).val < 16 := (i 1).isLt
  have hN : cfg1.N = 32 := N_1
  obtain ⟨t, ht⟩ : ∃ t : Fin cfg1.N, t.val = (i 0).val / 4096 := ⟨⟨(i 0).val / 4096, by rw [hN]; omega⟩, rfl⟩
  obtain ⟨-, -, -, -, -, -, o0, o1⟩ := index_facts t
  refine ⟨t, flush1_3 t, ?_⟩
  rw [mem_block]
  intro a
  match a with
  | ⟨0, _⟩ =>
    show win1_3.index t (0 : Fin 2) * 4096 ≤ (i 0).val ∧ (i 0).val < win1_3.index t (0 : Fin 2) * 4096 + 4096
    omega
  | ⟨1, _⟩ =>
    show win1_3.index t (1 : Fin 2) * 16 ≤ (i 1).val ∧ (i 1).val < win1_3.index t (1 : Fin 2) * 16 + 16
    omega

/-- The result array after the call, entry by entry. -/
theorem h_value (c : Dev nD) (p : Fin 131072) (q : Fin 16) :
    ((dat1 V c).arrAt 3 cfg1.N : S131072x16.Idx → EReal) (ix2 p q) = combAt (V c main_v25) (V c main_v6_1) (V c main_v26) p q := by
  -- every point writes back its block of the one function and the blocks cover the array, so the array ends holding it
  have hall := (dat1 V c).arrAt_eq_of_cover 3 (combArr (V c main_v25) (V c main_v6_1) (V c main_v26))
    (fun t _ => flushed_block V c t) covered
  exact (congrFun hall (ix2 p q)).trans rfl

end Cert.KernelIdeal.Hand

end
-- ==== Proof.Value.FinalValue.lean ====
/-
  What the third call computes, over the extended reals: entry (p, q) of its result is the sum over all k < 65536 of
  g[p, k] · W[q, k], plus b[0, q]. The contracted axis is cut into 8 blocks of 8192; the accumulator starts at zero, gains
  one block's partial sum per grid point, and the 8 partial sums over k' < 8192 of the entries at 8192·t + k' add up to
  the whole sum: addition of extended reals is commutative and associative, which is all the regrouping uses. The single
  block of the result is written back at the last point.
-/
import proofs.«123501_j84713934946331_1_alg».proof.Proof.KernelIdeal.Final
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)
open Idealize.ShloMosaic.ValueIdx

-- the TensorCore's buffer contents when the call is entered, over the extended reals
variable (V : (c : Dev nD) → (b : Ref sig .tc) → Buf (Elt Ideal) ((c : Thread nD τ).loc b))

/-- Entry (p, q) of g·Wᵀ + bias row, W given as stored (39 × 65536). -/
def finAt (g : Vec Ideal S32x65536 .f32) (W : Vec Ideal S39x65536 .f32) (b : Vec Ideal S1x39 .f32) (p : Fin 32) (q : Fin 39) : EReal :=
  (∑ k : Fin 65536, g (ix2 p k) * W (ix2 q k)) + b (ix2 (0 : Fin 1) q)

/-! ## Regrouping a sum over a long axis into blocks -/

/-- A sum over the first n·m naturals is the sum, over the n blocks of length m, of the sums inside the blocks: only
    commutativity and associativity of the addition. -/
private theorem sum_range_blocks {M : Type*} [AddCommMonoid M] (f : ℕ → M) (m : ℕ) :
    ∀ n : ℕ, ∑ i ∈ Finset.range (n * m), f i = ∑ t ∈ Finset.range n, ∑ j ∈ Finset.range m, f (m * t + j)
  | 0 => by simp
  | n + 1 => by
    rw [Nat.succ_mul, Finset.sum_range_add, Finset.sum_range_succ, sum_range_blocks f m n, Nat.mul_comm n m]

/-- The same over the finite index types of the contracted axis: 65536 = 8 · 8192. -/
private theorem sum_fin_blocks {M : Type*} [AddCommMonoid M] (f : ℕ → M) :
    ∑ k : Fin 65536, f k.val = ∑ t ∈ Finset.range 8, ∑ k' : Fin 8192, f (8192 * t + k'.val) := by
  rw [Fin.sum_univ_eq_sum_range f 65536, show 65536 = 8 * 8192 from rfl, sum_range_blocks f 8192 8]
  refine Finset.sum_congr rfl fun t _ => ?_
  exact (Fin.sum_univ_eq_sum_range (fun j => f (8192 * t + j)) 8192).symm

/-! ## The three payloads at an index -/

/-- The accumulator's reset value is zero everywhere. -/
private theorem pay1_apply (j : S32x39.Idx) : (k2_pay1 (F := Ideal)) j = 0 := by
  unfold k2_pay1
  simp only [shapeCast_self]
  exact Ideal.ofBits_zero_f32

/-- The product's left operand at output index i and contraction index r: row i₀ … -/
private theorem lhs_mm_0 (i : S32x39.Idx) (r : dot_S32x8192_S8192x39_S32x39_1_0_0_1_n_n.contr.Idx) :
    (dot_S32x8192_S8192x39_S32x39_1_0_0_1_n_n.lhsIdx i r 0).val = (i 0).val := by
  unfold DotDims.lhsIdx
  rw [dif_neg (show ¬(0 : Fin S32x8192.rank) ∈ dot_S32x8192_S8192x39_S32x39_1_0_0_1_n_n.lhsBatch by decide), dif_pos (show (0 : Fin S32x8192.rank) ∈ dot_S32x8192_S8192x39_S32x39_1_0_0_1_n_n.lhsNonContracting by decide)]
  rfl
/-- … column r; -/
private theorem lhs_mm_1 (i : S32x39.Idx) (r : dot_S32x8192_S8192x39_S32x39_1_0_0_1_n_n.contr.Idx) :
    (dot_S32x8192_S8192x39_S32x39_1_0_0_1_n_n.lhsIdx i r 1).val = (r ⟨0, by decide⟩).val :=
  dot_S32x8192_S8192x39_S32x39_1_0_0_1_n_n.lhsIdx_val_of_single rfl i r
/-- the right operand's: row r … -/
private theorem rhs_mm_0 (i : S32x39.Idx) (r : dot_S32x8192_S8192x39_S32x39_1_0_0_1_n_n.contr.Idx) :
    (dot_S32x8192_S8192x39_S32x39_1_0_0_1_n_n.rhsIdx i r 0).val = (r ⟨0, by decide⟩).val :=
  dot_S32x8192_S8192x39_S32x39_1_0_0_1_n_n.rhsIdx_val_of_single rfl i r
/-- … column i₁. -/
private theorem rhs_mm_1 (i : S32x39.Idx) (r : dot_S32x8192_S8192x39_S32x39_1_0_0_1_n_n.contr.Idx) :
    (dot_S32x8192_S8192x39_S32x39_1_0_0_1_n_n.rhsIdx i r 1).val = (i 1).val := by
  unfold DotDims.rhsIdx
  rw [dif_neg (show ¬(1 : Fin S8192x39.rank) ∈ dot_S32x8192_S8192x39_S32x39_1_0_0_1_n_n.rhsBatch by decide), dif_pos (show (1 : Fin S8192x39.rank) ∈ dot_S32x8192_S8192x39_S32x39_1_0_0_1_n_n.rhsNonContracting by decide)]
  rfl

/-- One point's step at (p, q): the accumulator there plus the block's partial sum; the right operand is W's block read
    transposed, so its entry (k, q) is W's (q, k), and the change of format on the way in is the identity on extended reals. -/
private theorem pay2_apply (g : Vec Ideal S32x8192 .f32) (w : Vec Ideal S39x8192 .f32) (a : Vec Ideal S32x39 .f32) (p : Fin 32) (q : Fin 39) :
    k2_pay2 g w a (ix2 p q) = a (ix2 p q) + ∑ k : Fin 8192, g (ix2 p k) * w (ix2 q k) := by
  unfold k2_pay2
  simp only [shapeCast_self, matmul]
  rw [addf_apply, Ideal.matmul_constant_zero_apply, ← Equiv.sum_comp (contrEquiv1 dot_S32x8192_S8192x39_S32x39_1_0_0_1_n_n 8192 rfl rfl).symm]
  refine congrArg (a (ix2 p q) + ·) (Finset.sum_congr rfl fun k _ => ?_)
  have hk := contrEquiv1_symm_val dot_S32x8192_S8192x39_S32x39_1_0_0_1_n_n 8192 rfl rfl k
  have el : dot_S32x8192_S8192x39_S32x39_1_0_0_1_n_n.lhsIdx (ix2 p q) ((contrEquiv1 dot_S32x8192_S8192x39_S32x39_1_0_0_1_n_n 8192 rfl rfl).symm k) = ix2 p k := funext fun a => Fin.ext (by
    match a with
    | ⟨0, _⟩ => exact lhs_mm_0 _ _
    | ⟨1, _⟩ => exact (lhs_mm_1 _ _).trans hk)
  have er : dot_S32x8192_S8192x39_S32x39_1_0_0_1_n_n.rhsIdx (ix2 p q) ((contrEquiv1 dot_S32x8192_S8192x39_S32x39_1_0_0_1_n_n 8192 rfl rfl).symm k) = ix2 k q := funext fun a => Fin.ext (by
    match a with
    | ⟨0, _⟩ => exact (rhs_mm_0 _ _).trans hk
    | ⟨1, _⟩ => exact rhs_mm_1 _ _)
  rw [el, er, transpose_apply [1, 0] (truncf (F := Ideal) .bf16 w bitsLt_bf16_f32) transposes_S39x8192_p1_0_S8192x39 (ix2 k q) (ix2 q k) (fun b => match b with
    | ⟨0, _⟩ => rfl
    | ⟨1, _⟩ => rfl)]
  rfl

/-- The last point's result at (p, q): the accumulator there plus the bias row's entry q, the one row on every row. -/
private theorem pay3_apply (a : Vec Ideal S32x39 .f32) (b : Vec Ideal S1x39 .f32) (p : Fin 32) (q : Fin 39) :
    k2_pay3 a b (ix2 p q) = a (ix2 p q) + b (ix2 (0 : Fin 1) q) := by
  unfold k2_pay3
  simp only [shapeCast_self]
  show a (ix2 p q) + broadcastTo S32x39 b broadcasts_S1x39_S32x39 (ix2 p q) = _
  rw [broadcastTo_apply b broadcasts_S1x39_S32x39 (ix2 p q) (ix2 (0 : Fin 1) q) (fun a => match a with
    | ⟨0, _⟩ => by show (0 : ℕ) = if (1 : Nat) = 1 then 0 else p.val; rw [if_pos rfl]
    | ⟨1, _⟩ => by show q.val = if (39 : Nat) = 1 then 0 else q.val; rw [if_neg (by decide)])]

/-! ## The windows' blocks, read off their arrays -/

/-- The printed index maps, decided over the grid: g's and W's blocks move along the contracted axis with the point,
    the bias row's and the result's one block stay at the origin. -/
private theorem idx_facts : ∀ t : Fin cfg2.N, win2_0.index t (0 : Fin 2) = 0 ∧ win2_0.index t (1 : Fin 2) = t.val
    ∧ win2_1.index t (0 : Fin 2) = 0 ∧ win2_1.index t (1 : Fin 2) = t.val
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- g's block at point t, entry (p, k'), is g at (p, 8192·t + k'). -/
private theorem blk_g (c : Dev nD) (t : Fin cfg2.N) (p : Fin 32) (k' : Fin 8192) (k : Fin 65536) (hk : k.val = 8192 * t.val + k'.val) :
    (blk2 V c 0 t : Vec Ideal S32x8192 .f32) (ix2 p k') = (V c main_v28 : Vec Ideal S32x65536 .f32) (ix2 p k) := by
  obtain ⟨e0, e1, -⟩ := idx_facts t
  unfold blk2
  rw [View.read_apply]
  show V c main_v28 _ = V c main_v28 _
  refine congrArg (V c main_v28) (funext fun a => Fin.ext ?_)
  match a with
  | ⟨0, _⟩ => show win2_0.index t (0 : Fin 2) * 32 + 1 * p.val = p.val; rw [e0]; omega
  | ⟨1, _⟩ => show win2_0.index t (1 : Fin 2) * 8192 + 1 * k'.val = k.val; rw [e1, hk]; omega

/-- W's block at point t, entry (q, k'), is W at (q, 8192·t + k'). -/
private theorem blk_w (c : Dev nD) (t : Fin cfg2.N) (q : Fin 39) (k' : Fin 8192) (k : Fin 65536) (hk : k.val = 8192 * t.val + k'.val) :
    (blk2 V c 1 t : Vec Ideal S39x8192 .f32) (ix2 q k') = (V c main_arg5 : Vec Ideal S39x65536 .f32) (ix2 q k) := by
  obtain ⟨-, -, e2, e3, -⟩ := idx_facts t
  unfold blk2
  rw [View.read_apply]
  show V c main_arg5 _ = V c main_arg5 _
  refine congrArg (V c main_arg5) (funext fun a => Fin.ext ?_)
  match a with
  | ⟨0, _⟩ => show win2_1.index t (0 : Fin 2) * 39 + 1 * q.val = q.val; rw [e2]; omega
  | ⟨1, _⟩ => show win2_1.index t (1 : Fin 2) * 8192 + 1 * k'.val = k.val; rw [e3, hk]; omega

/-- The bias row's block is the bias row at every point. -/
private theorem blk_b (c : Dev nD) (t : Fin cfg2.N) (q : Fin 39) :
    (blk2 V c 2 t : Vec Ideal S1x39 .f32) (ix2 (0 : Fin 1) q) = (V c main_v29 : Vec Ideal S1x39 .f32) (ix2 (0 : Fin 1) q) := by
  obtain ⟨-, -, -, -, e4, e5, -⟩ := idx_facts t
  unfold blk2
  rw [View.read_apply]
  show V c main_v29 _ = V c main_v29 _
  refine congrArg (V c main_v29) (funext fun a => Fin.ext ?_)
  match a with
  | ⟨0, _⟩ => show win2_2.index t (0 : Fin 2) * 1 + 1 * 0 = 0; rw [e4]
  | ⟨1, _⟩ => show win2_2.index t (1 : Fin 2) * 39 + 1 * q.val = q.val; rw [e5]; omega

/-! ## The accumulator after each point -/

/-- The term of entry (p, q)'s sum at position n of the contracted axis (zero past the axis's end, where nothing reads it). -/
private def term (g : Vec Ideal S32x65536 .f32) (W : Vec Ideal S39x65536 .f32) (p : Fin 32) (q : Fin 39) (n : ℕ) : EReal :=
  if h : n < 65536 then g (ix2 p ⟨n, h⟩) * W (ix2 q ⟨n, h⟩) else 0

/-- g's and W's blocks at point t, as vectors of the blocks' literal shapes. -/
private abbrev gBlk (c : Dev nD) (t : Fin cfg2.N) : Vec Ideal S32x8192 .f32 := blk2 V c 0 t
private abbrev wBlk (c : Dev nD) (t : Fin cfg2.N) : Vec Ideal S39x8192 .f32 := blk2 V c 1 t

/-- One point's partial sum: the products of its two blocks' entries are the terms at 8192·t + k'. -/
private theorem block_sum (c : Dev nD) (t : Fin cfg2.N) (p : Fin 32) (q : Fin 39) :
    ∑ k' : Fin 8192, gBlk V c t (ix2 p k') * wBlk V c t (ix2 q k')
      = ∑ k' : Fin 8192, term (V c main_v28) (V c main_arg5) p q (8192 * t.val + k'.val) := by
  refine Finset.sum_congr rfl fun k' _ => ?_
  unfold gBlk wBlk
  have ht : t.val < 8 := Nat.lt_of_lt_of_eq t.isLt N_2
  have hlt : 8192 * t.val + k'.val < 65536 := by have := k'.isLt; omega
  unfold term
  rw [dif_pos hlt, blk_g V c t p k' ⟨_, hlt⟩ rfl, blk_w V c t q k' ⟨_, hlt⟩ rfl]

/-- After point n the accumulator's entry (p, q) is the sum of the terms of the blocks 0 … n: by induction on the point,
    zero plus the first block's partial sum, then one block's more per point. -/
private theorem accAt_apply (c : Dev nD) (p : Fin 32) (q : Fin 39) : ∀ (n : ℕ) (h : n < cfg2.N),
    (accAt V c n h : Vec Ideal S32x39 .f32) (ix2 p q)
      = ∑ t ∈ Finset.range (n + 1), ∑ k' : Fin 8192, term (V c main_v28) (V c main_arg5) p q (8192 * t + k'.val)
  | 0, h => by
    rw [accAt_zero]; unfold accFirst
    rw [pay2_apply, pay1_apply, zero_add, Finset.sum_range_succ, Finset.sum_range_zero, zero_add]
    exact block_sum V c ⟨0, h⟩ p q
  | n + 1, h => by
    rw [accAt_succ]; unfold accNext
    rw [pay2_apply, accAt_apply c p q n (Nat.lt_of_succ_lt h), Finset.sum_range_succ _ (n + 1)]
    exact congrArg (_ + ·) (block_sum V c ⟨n + 1, h⟩ p q)

/-! ## The result array: one block, written back at the last point -/

/-- What the last point stores: the accumulator after it plus the bias row. -/
private def result (c : Dev nD) : Buf (Elt Ideal) ((c : Thread nD τ).loc main_v30) :=
  outLast (accAt V c t2_7.val t2_7.isLt) (blk2 V c 2 t2_7)

/-- An index of the result array is in point t's block iff each coordinate is in the block's range on its axis. -/
private theorem mem_blk_out (t : Fin cfg2.N) (i : S32x39.Idx) :
    i ∈ ((cfg2.win 3).blk t).view.set ↔ ∀ a : Fin 2, win2_3.index t a * S32x39.size a ≤ (i a).val ∧ (i a).val < win2_3.index t a * S32x39.size a + S32x39.size a := by
  show i ∈ ((View.whole main_v30).slice (win2_3.rect t)).set ↔ _
  rw [View.set_slice_whole, Rect.mem_set_unit]
  exact Iff.rfl

/-- The one write-back, at the last point, writes that: the result's block at the origin, of the array's own sizes, read
    through is the array. -/
private theorem flushed_eq (c : Dev nD) (t : Fin cfg2.N) (hf : (cfg2.win 3).flush t = true) :
    (dat2 V c).flushed 3 t = ((cfg2.win 3).blk t).view.read (Elt Ideal) (result V c) := by
  have h7 : t.val = 7 := (flush2_3_iff t).mp hf
  obtain rfl : t = t2_7 := Fin.ext h7
  show (cfg2.win 3).cut (grid2.coords t2_7) ((dat2 V c).after 3 t2_7) = _
  rw [after2_3]
  obtain ⟨-, -, -, -, -, -, e6, e7⟩ := idx_facts t2_7
  have hz' : (fun a => win2_3.index t2_7 a * main_v30.ty.shape.size a) = fun _ => 0 := funext fun a => by
    match a with
    | ⟨0, _⟩ => show win2_3.index t2_7 (0 : Fin 2) * 32 = 0; rw [e6]
    | ⟨1, _⟩ => show win2_3.index t2_7 (1 : Fin 2) * 39 = 0; rw [e7]
  exact (Memref.read_access_unit_zero (Elt Ideal) main_v30 hz' (fun a => by rw [congrFun hz' a]; simp) (result V c)).symm

/-- So the result array ends holding what the last point stores: that point's block covers the array. -/
private theorem final_eq (c : Dev nD) : (dat2 V c).arrAt 3 cfg2.N = result V c :=
  (dat2 V c).arrAt_eq_of_cover 3 (result V c) (flushed_eq V c) fun i =>
    ⟨t2_7, (flush2_3_iff t2_7).mpr rfl, by
      rw [mem_blk_out]
      obtain ⟨-, -, -, -, -, -, e6, e7⟩ := idx_facts t2_7
      intro a
      match a with
      | ⟨0, _⟩ =>
        show win2_3.index t2_7 (0 : Fin 2) * 32 ≤ (i 0).val ∧ (i 0).val < win2_3.index t2_7 (0 : Fin 2) * 32 + 32
        have h0 : (i 0).val < 32 := (i 0).isLt
        rw [e6]; omega
      | ⟨1, _⟩ =>
        show win2_3.index t2_7 (1 : Fin 2) * 39 ≤ (i 1).val ∧ (i 1).val < win2_3.index t2_7 (1 : Fin 2) * 39 + 39
        have h1 : (i 1).val < 39 := (i 1).isLt
        rw [e7]; omega⟩

/-- The result array after the call, entry by entry. -/
theorem out_value (c : Dev nD) (p : Fin 32) (q : Fin 39) :
    ((dat2 V c).arrAt 3 cfg2.N : S32x39.Idx → EReal) (ix2 p q) = finAt (V c main_v28) (V c main_arg5) (V c main_v29) p q := by
  rw [final_eq V c]
  unfold result outLast finAt
  rw [pay3_apply, accAt_apply V c p q, blk_b V c t2_7 q]
  refine congrArg (· + _) ?_
  refine ((sum_fin_blocks (term (V c main_v28) (V c main_arg5) p q)).symm.trans ?_)
  refine Finset.sum_congr rfl fun k _ => ?_
  unfold term
  rw [dif_pos k.isLt]

end Cert.KernelIdeal.Hand

end
-- ==== Proof.Value.KernelValue.lean ====
/-
  What the kernel's program leaves in its result buffer, over the extended reals, is the specification: the buffer
  contents at each boundary of the program are read back through the fold. The last host operation adds the trailing
  unit axis to the third call's result; that result is g·W_outᵀ + b_out with g the per-graph reshape of the second
  call's result; that is max(mean + b_l + x·W_rᵀ, 0) with the mean the host operations' function of the first call's
  first result, and both results of the first call are the plain products with the transposed weight matrices. Every
  buffer a call or a stretch does not write is read one boundary earlier.
-/
import proofs.«123501_j84713934946331_1_alg».proof.Proof.KernelIdeal.MainRun
import proofs.«123501_j84713934946331_1_alg».proof.Proof.Value.Spec
import proofs.«123501_j84713934946331_1_alg».proof.Proof.Value.LinearValue
import proofs.«123501_j84713934946331_1_alg».proof.Proof.Value.CombineValue
import proofs.«123501_j84713934946331_1_alg».proof.Proof.Value.FinalValue
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable (m : (ℓ : Loc nD τ sig) → Buf (Elt Ideal) ℓ)

/-! ## The launch contents of the seven arguments on one core -/

private abbrev inX (c : Dev nD) : Vec Ideal S131072x128 .f32 := m ((c : Thread nD τ).loc main_arg0)
private abbrev inE (c : Dev nD) : Vec Ideal S2x4194304 .i32 := m ((c : Thread nD τ).loc main_arg1)
private abbrev inWl (c : Dev nD) : Vec Ideal S16x128 .f32 := m ((c : Thread nD τ).loc main_arg2)
private abbrev inBl (c : Dev nD) : Vec Ideal S16 .f32 := m ((c : Thread nD τ).loc main_arg3)
private abbrev inWr (c : Dev nD) : Vec Ideal S16x128 .f32 := m ((c : Thread nD τ).loc main_arg4)
private abbrev inWo (c : Dev nD) : Vec Ideal S39x65536 .f32 := m ((c : Thread nD τ).loc main_arg5)
private abbrev inBo (c : Dev nD) : Vec Ideal S39 .f32 := m ((c : Thread nD τ).loc main_arg6)

/-! ## The fold, one buffer at one boundary

A stretch of host operations leaves a buffer none of them writes as it was; a call leaves each of its arrays at what its
write-backs leave and every other buffer as entered. -/

/-- A buffer the first stretch does not write holds its launch contents at the first call's entry. -/
private theorem W1_keep (c : Dev nD) (r : Ref sig .tc) (h : r ∉ hostOps0_W) :
    W1 m c (Proc.devRef .tc r) = m ((c : Thread nD τ).loc r) :=
  StableHlo.after_of_writes_sub hostOps0 _ hostOps0_writes h

/-- After the first call each of its arrays holds what the write-backs leave; -/
private theorem W2_win (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
/-- every other buffer what it held at entry. -/
private theorem W2_keep (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

/-- A buffer the second stretch does not write is after it what it was before. -/
private theorem W3_keep (c : Dev nD) (r : Ref sig .tc) (h : r ∉ hostOps1_W) :
    W3 m c (Proc.devRef .tc r) = W2 m c (Proc.devRef .tc r) :=
  StableHlo.after_of_writes_sub hostOps1 _ hostOps1_writes h

/-- After the second call each of its arrays holds what the write-backs leave; -/
private theorem W4_win (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
/-- every other buffer what it held at entry. -/
private theorem W4_keep (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

/-- A buffer the third stretch does not write is after it what it was before. -/
private theorem W5_keep (c : Dev nD) (r : Ref sig .tc) (h : r ∉ hostOps2_W) :
    W5 m c (Proc.devRef .tc r) = W4 m c (Proc.devRef .tc r) :=
  StableHlo.after_of_writes_sub hostOps2 _ hostOps2_writes h

/-- After the third call each of its arrays holds what the write-backs leave. -/
private theorem W6_win (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w

/-! ## The first call: both results are the products with the stored weight matrices -/

/-- The input features at the first call's entry are the launch contents. -/
private theorem V1_arg0 (c : Dev nD) : V1 m c main_arg0 = inX m c := W1_keep m c main_arg0 (by decide)

/-- The transposed left weight matrix at (k, s) is the stored one at (s, k). -/
private theorem V1_v4_at (c : Dev nD) (k : Fin 128) (s : Fin 16) :
    (V1 m c main_v4 : S128x16.Idx → EReal) (ix2 k s) = inWl m c (ix2 s k) := by
  have e : (V1 m c main_v4 : Vec Ideal S128x16 .f32) = transpose S128x16 [1, 0] (inWl m c) transposes_S16x128_S128x16_1_0 := by
    show StableHlo.after hostOps0 _ (Proc.devRef .tc main_v4) = _
    after_results
  rw [e]; exact transpose_ix2_apply _ _ k s

/-- The transposed right weight matrix at (k, s) is the stored one at (s, k). -/
private theorem V1_v5_at (c : Dev nD) (k : Fin 128) (s : Fin 16) :
    (V1 m c main_v5 : S128x16.Idx → EReal) (ix2 k s) = inWr m c (ix2 s k) := by
  have e : (V1 m c main_v5 : Vec Ideal S128x16 .f32) = transpose S128x16 [1, 0] (inWr m c) transposes_S16x128_S128x16_1_0 := by
    show StableHlo.after hostOps0 _ (Proc.devRef .tc main_v5) = _
    after_results
  rw [e]; exact transpose_ix2_apply _ _ k s

/-- A product with a transposed matrix is the product with the stored one along its rows. -/
private theorem linAt_of_transposed (x : Vec Ideal S131072x128 .f32) (W : Vec Ideal S16x128 .f32) (wt : Vec Ideal S128x16 .f32)
    (h : ∀ k s, wt (ix2 k s) = W (ix2 s k)) (r : Fin 131072) (s : Fin 16) : linAt x wt r s = prodAt x W r s := by
  unfold linAt prodAt
  exact Finset.sum_congr rfl fun k _ => by rw [h k s]

/-- The first result of the first call, entry by entry. -/
private theorem xl_entry (c : Dev nD) (r : Fin 131072) (s : Fin 16) :
    (W2 m c (Proc.devRef .tc main_v6_0) : S131072x16.Idx → EReal) (ix2 r s) = prodAt (inX m c) (inWl m c) r s := by
  have e : (W2 m c (Proc.devRef .tc main_v6_0) : Vec Ideal S131072x16 .f32) = (dat0 (V1 m) c).arrAt 3 cfg0.N := W2_win m c 3
  rw [e, xl_value (V1 m) c r s, V1_arg0 m c]
  exact linAt_of_transposed _ _ _ (V1_v4_at m c) r s

/-- The first result of the first call as an array. -/
private theorem xl_arr (c : Dev nD) :
    (W2 m c (Proc.devRef .tc main_v6_0) : Vec Ideal S131072x16 .f32) = prodArr (inX m c) (inWl m c) := by
  funext j
  obtain ⟨r, s, rfl⟩ : ∃ r s, j = ix2 r s := ⟨j 0, j 1, eq_ix2 j⟩
  exact xl_entry m c r s

/-- The second result of the first call, as the second call finds it, entry by entry. -/
private theorem xr_entry (c : Dev nD) (r : Fin 131072) (s : Fin 16) :
    (V3 m c main_v6_1 : S131072x16.Idx → EReal) (ix2 r s) = prodAt (inX m c) (inWr m c) r s := by
  have e : (V3 m c main_v6_1 : Vec Ideal S131072x16 .f32) = (dat0 (V1 m) c).arrAt 4 cfg0.N :=
    (W3_keep m c main_v6_1 (by decide)).trans (W2_win m c 4)
  rw [e, xr_value (V1 m) c r s, V1_arg0 m c]
  exact linAt_of_transposed _ _ _ (V1_v5_at m c) r s

/-! ## The host operations between the first two calls: the neighbourhood mean and the bias as a row -/

/-- The edges' sources as listed, where the second stretch reads them. -/
private theorem W2_v1 (c : Dev nD) : (W2 m c (Proc.devRef .tc main_v1) : Vec Ideal S4194304 .i32) = srcRaw (inE m c) := by
  refine (W2_keep m c main_v1 (by decide)).trans ?_
  show StableHlo.after hostOps0 _ (Proc.devRef .tc main_v1) = _
  after_results; rfl

/-- The edges' destinations, where the second stretch reads them. -/
private theorem W2_v3 (c : Dev nD) : (W2 m c (Proc.devRef .tc main_v3) : Vec Ideal S4194304 .i32) = dstOf (inE m c) := by
  refine (W2_keep m c main_v3 (by decide)).trans ?_
  show StableHlo.after hostOps0 _ (Proc.devRef .tc main_v3) = _
  after_results; rfl

/-- The mean the second call reads is the specification's function of the first product and the edge list: the stretch's
    operations are that function's, applied to the first call's first result and the two rows of the edge list. -/
private theorem V3_v25 (c : Dev nD) :
    (V3 m c main_v25 : Vec Ideal S131072x16 .f32) = meanOf (prodArr (inX m c) (inWl m c)) (inE m c) := by
  have e : (V3 m c main_v25 : Vec Ideal S131072x16 .f32) = meanOf (W2 m c (Proc.devRef .tc main_v6_0)) (inE m c) := by
    show StableHlo.after hostOps1 _ (Proc.devRef .tc main_v25) = _
    after_results
    rw [W2_v1 m c, W2_v3 m c]
    rfl
  rw [e, xl_arr m c]

/-- The bias row the second call reads, at (0, s), is the bias at s. -/
private theorem V3_v26_at (c : Dev nD) (s : Fin 16) :
    (V3 m c main_v26 : S1x16.Idx → EReal) (ix2 (0 : Fin 1) s) = inBl m c (ix1 s) := by
  have e : (V3 m c main_v26 : Vec Ideal S1x16 .f32)
      = shapeCast S1x16 (W2 m c (Proc.devRef .tc main_arg3) : Vec Ideal S16 .f32) shapeCasts_S16_S1x16 := by
    show StableHlo.after hostOps1 _ (Proc.devRef .tc main_v26) = _
    after_results; rfl
  rw [e, shapeCast_a_1a_apply, W2_keep m c main_arg3 (by decide), W1_keep m c main_arg3 (by decide)]

/-! ## The second call: the hidden features -/

/-- The second call's result, entry by entry. -/
private theorem h_entry (c : Dev nD) (r : Fin 131072) (s : Fin 16) :
    (W4 m c (Proc.devRef .tc main_v27) : S131072x16.Idx → EReal) (ix2 r s)
      = hiddenAt (inX m c) (inE m c) (inWl m c) (inBl m c) (inWr m c) r s := by
  have e : (W4 m c (Proc.devRef .tc main_v27) : Vec Ideal S131072x16 .f32) = (dat1 (V3 m) c).arrAt 3 cfg1.N := W4_win m c 3
  rw [e, h_value (V3 m) c r s]
  unfold combAt hiddenAt
  rw [V3_v25 m c, V3_v26_at m c s, xr_entry m c r s]

/-! ## The host operations before the third call: one row of 65536 numbers per graph, the output bias as a row -/

/-- A 131072 × 16 array read as 32 rows of 65536: entry (p, k) is the node's feature. -/
private theorem reshape_node (x : Vec Ideal S131072x16 .f32) (p : Fin 32) (k : Fin 65536) :
    shapeCast S32x65536 x shapeCasts_S131072x16_S32x65536 (ix2 p k) = x (ix2 (nodeOf p k) (featOf k)) :=
  shapeCast_apply x _ _ _ (by
    rw [Shape.rowMajor_val_two, Shape.rowMajor_val_two]
    show (p.val * 4096 + k.val / 16) * 16 + k.val % 16 = p.val * 65536 + k.val
    omega)

/-- The per-graph rows the third call reads. -/
private theorem V5_v28_at (c : Dev nD) (p : Fin 32) (k : Fin 65536) :
    (V5 m c main_v28 : S32x65536.Idx → EReal) (ix2 p k)
      = hiddenAt (inX m c) (inE m c) (inWl m c) (inBl m c) (inWr m c) (nodeOf p k) (featOf k) := by
  have e : (V5 m c main_v28 : Vec Ideal S32x65536 .f32)
      = shapeCast S32x65536 (W4 m c (Proc.devRef .tc main_v27) : Vec Ideal S131072x16 .f32) shapeCasts_S131072x16_S32x65536 := by
    show StableHlo.after hostOps2 _ (Proc.devRef .tc main_v28) = _
    after_results; rfl
  rw [e, reshape_node, h_entry m c]

/-- The output bias row the third call reads, at (0, q), is the bias at q. -/
private theorem V5_v29_at (c : Dev nD) (q : Fin 39) :
    (V5 m c main_v29 : S1x39.Idx → EReal) (ix2 (0 : Fin 1) q) = inBo m c (ix1 q) := by
  have e : (V5 m c main_v29 : Vec Ideal S1x39 .f32)
      = shapeCast S1x39 (W4 m c (Proc.devRef .tc main_arg6) : Vec Ideal S39 .f32) shapeCasts_S39_S1x39 := by
    show StableHlo.after hostOps2 _ (Proc.devRef .tc main_v29) = _
    after_results; rfl
  rw [e, shapeCast_a_1a_apply, W4_keep m c main_arg6 (by decide), W3_keep m c main_arg6 (by decide),
    W2_keep m c main_arg6 (by decide), W1_keep m c main_arg6 (by decide)]

/-- The output weights the third call reads are the launch contents. -/
private theorem V5_arg5 (c : Dev nD) : V5 m c main_arg5 = inWo m c :=
  (W5_keep m c main_arg5 (by decide)).trans <| (W4_keep m c main_arg5 (by decide)).trans <|
    (W3_keep m c main_arg5 (by decide)).trans <| (W2_keep m c main_arg5 (by decide)).trans (W1_keep m c main_arg5 (by decide))

/-! ## The third call and the trailing unit axis -/

/-- The third call's result, entry by entry. -/
private theorem out_entry (c : Dev nD) (p : Fin 32) (q : Fin 39) :
    (W6 m c (Proc.devRef .tc main_v30) : S32x39.Idx → EReal) (ix2 p q)
      = wholeAt (inX m c) (inE m c) (inWl m c) (inBl m c) (inWr m c) (inWo m c) (inBo m c) p q := by
  have e : (W6 m c (Proc.devRef .tc main_v30) : Vec Ideal S32x39 .f32) = (dat2 (V5 m) c).arrAt 3 cfg2.N := W6_win m c 3
  rw [e, out_value (V5 m) c p q, V5_arg5 m c]
  unfold finAt wholeAt
  rw [V5_v29_at m c q]
  refine congrArg (· + inBo m c (ix1 q)) ?_
  exact Finset.sum_congr rfl fun k _ => by rw [V5_v28_at m c p k]

/-- The result buffer at the program's end is the specification's array of the launch contents of the arguments. -/
theorem kernel_result (c : Dev nD) :
    (W7 m c (Proc.devRef .tc main_v31) : S32x39x1.Idx → EReal)
      = wholeArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  have e : (W7 m c (Proc.devRef .tc main_v31) : Vec Ideal S32x39x1 .f32)
      = broadcastInDim S32x39x1 ![0, 1] bcast_S32x39_S32x39x1_0_1 (W6 m c (Proc.devRef .tc main_v30) : Vec Ideal S32x39 .f32) := by
    show StableHlo.after hostOps3 _ (Proc.devRef .tc main_v31) = _
    after_results
  rw [e]
  funext j
  obtain ⟨p, q, z, rfl⟩ : ∃ p q z, j = ix3 p q z := ⟨j 0, j 1, j 2, eq_ix3 j⟩
  refine (broadcastInDim_apply _ _ _ (ix3 p q z) (ix2 p q) fun a => match a with | ⟨0, _⟩ => rfl | ⟨1, _⟩ => rfl).trans ?_
  exact out_entry m c p q

end Cert.KernelIdeal.Hand

end
-- ==== Proof.RefRead.lean ====
/-
  The reference program's run and its operations read at an index: the generated modules, brought in under one name
  for the modules that state what the reference computes.
-/
import proofs.«123501_j84713934946331_1_alg».proof.Proof.Gen.ReferenceIdeal.Run
import proofs.«123501_j84713934946331_1_alg».proof.Proof.Gen.ReferenceIdeal.Read
-- ==== Proof.Value.RefValue.lean ====
/-
  What the reference computes, over the extended reals, is the specification: its last stage, read at an index, is
  the sum over the flattened feature row of hidden feature times output weight, plus the output bias. Stage by stage:
  the trailing unit axis and the two bias broadcasts are read at an index; the last product is the sum over k < 65536
  of the reshaped hidden features at (p, k) times the transposed output weights at (k, q); the reshape sends (p, k)
  to node 4096·p + k / 16 and feature k mod 16; the maximum with zero, the two sums and the product with W_rᵀ are
  entrywise; and the neighbourhood mean is the same host operations applied to the same first product x·W_lᵀ, which
  both sides keep as one function (the two programs' records of the gather and the scatter-adds are the same data).
-/
import proofs.«123501_j84713934946331_1_alg».proof.Proof.RefRead
import proofs.«123501_j84713934946331_1_alg».proof.Proof.Value.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Read
open Idealize.ShloMosaic Idealize.SL.Sem
open Idealize.ShloMosaic.ValueIdx

section Stages

open Cert.KernelIdeal.Hand

/-- x·Wᵀ by the reference: the transposed weights read at (k, s) are the stored weights at (s, k), so the product with
    them at (r, s) is the sum over k < 128 of x[r, k] · W[s, k]. (The first product, with W_l.) -/
private theorem prod_eq_l (x0 : (⟨S131072x128, .f32⟩ : BufTy).Contents (Elt Ideal)) (x2 : (⟨S16x128, .f32⟩ : BufTy).Contents (Elt Ideal)) :
    val_main_v5 (F := Ideal) x0 x2 = prodArr x0 x2 := by
  funext j
  rw [val_main_v5_apply]
  show _ = ∑ k : Fin 128, x0 (ix2 (j 0) k) * x2 (ix2 (j 1) k)
  refine Finset.sum_congr rfl fun k _ => ?_
  rw [val_main_v4_apply]
  have e1 : lidx_main_v5 j k = ix2 (j 0) k := funext fun a => Fin.ext (by
    match a with
    | ⟨0, _⟩ => rfl
    | ⟨1, _⟩ => rfl)
  have e2 : idx_main_v4 (ridx_main_v5 j k) = ix2 (j 1) k := funext fun a => Fin.ext (by
    match a with
    | ⟨0, _⟩ => rfl
    | ⟨1, _⟩ => rfl)
  rw [e1, e2]
  rfl

/-- The same for the second product, with W_r. -/
private theorem prod_eq_r (x0 : (⟨S131072x128, .f32⟩ : BufTy).Contents (Elt Ideal)) (x4 : (⟨S16x128, .f32⟩ : BufTy).Contents (Elt Ideal)) :
    val_main_v29 (F := Ideal) x0 x4 = prodArr x0 x4 := by
  funext j
  rw [val_main_v29_apply]
  show _ = ∑ k : Fin 128, x0 (ix2 (j 0) k) * x4 (ix2 (j 1) k)
  refine Finset.sum_congr rfl fun k _ => ?_
  rw [val_main_v28_apply]
  have e1 : lidx_main_v29 j k = ix2 (j 0) k := funext fun a => Fin.ext (by
    match a with
    | ⟨0, _⟩ => rfl
    | ⟨1, _⟩ => rfl)
  have e2 : idx_main_v28 (ridx_main_v29 j k) = ix2 (j 1) k := funext fun a => Fin.ext (by
    match a with
    | ⟨0, _⟩ => rfl
    | ⟨1, _⟩ => rfl)
  rw [e1, e2]
  rfl

/-- The edges' destinations are row 1 of the edge list, on both sides the same slice and reshape. -/
private theorem dst_eq (x1 : (⟨S2x4194304, .i32⟩ : BufTy).Contents (Elt Ideal)) :
    val_main_v3 (F := Ideal) x1 = dstOf x1 := rfl

/-- The edges' sources, a negative one counted from the end: on both sides the same select over row 0. -/
private theorem src_eq (x1 : (⟨S2x4194304, .i32⟩ : BufTy).Contents (Elt Ideal)) :
    val_main_v10 (F := Ideal) x1 = srcOf x1 := rfl

/-- The neighbourhood mean. The gather along the edges, the two scatter-adds and the quotient are never opened: the
    reference applies them to its first product and the edge list, the specification to x·W_lᵀ and the edge list, and
    the first product is x·W_lᵀ. -/
private theorem mean_eq (x0 : (⟨S131072x128, .f32⟩ : BufTy).Contents (Elt Ideal)) (x1 : (⟨S2x4194304, .i32⟩ : BufTy).Contents (Elt Ideal))
    (x2 : (⟨S16x128, .f32⟩ : BufTy).Contents (Elt Ideal)) :
    val_main_v24 (F := Ideal) x0 x1 x2 = meanOf (prodArr x0 x2) x1 := by
  unfold val_main_v24 val_main_v15 val_main_v12 val_main_v23 val_main_v22 val_main_v21 val_main_v19 val_main_v14 val_main_v18
    val_main_v11 val_main_v13 val_main_v17 val_main_v16 val_main_v20 val_main_cst val_main_cst_1 val_main_cst_2 val_main_cst_3
  unfold meanOf
  rw [prod_eq_l, dst_eq, src_eq]
  generalize prodArr x0 x2 = xl
  generalize dstOf x1 = dst
  generalize srcOf x1 = src
  rw [show scatter_S131072x16_S4194304x1_S4194304x16_1_0_0_1 = Cert.KernelIdeal.scatter_S131072x16_S4194304x1_S4194304x16_1_0_0_1 from rfl,
    show scatter_S131072_S4194304x1_S4194304_n_0_0_1 = Cert.KernelIdeal.scatter_S131072_S4194304x1_S4194304_n_0_0_1 from rfl,
    show gather_S131072x16_S4194304x1_S4194304x16_1_0_n_n_0_1_116 = Cert.KernelIdeal.gather_S131072x16_S4194304x1_S4194304x16_1_0_n_n_0_1_116 from rfl]

/-- The hidden features: entry (r, s) of the maximum with zero is the maximum of the neighbourhood mean at (r, s)
    plus b_l[s] plus (x·W_rᵀ)[r, s] with zero (the bias is broadcast along the nodes; the zero word is 0). -/
private theorem hidden_at (x0 : (⟨S131072x128, .f32⟩ : BufTy).Contents (Elt Ideal)) (x1 : (⟨S2x4194304, .i32⟩ : BufTy).Contents (Elt Ideal))
    (x2 : (⟨S16x128, .f32⟩ : BufTy).Contents (Elt Ideal)) (x3 : (⟨S16, .f32⟩ : BufTy).Contents (Elt Ideal))
    (x4 : (⟨S16x128, .f32⟩ : BufTy).Contents (Elt Ideal)) (r : Fin 131072) (s : Fin 16) :
    val_main_v31 (F := Ideal) x0 x1 x2 x3 x4 (ix2 r s) = hiddenAt x0 x1 x2 x3 x4 r s := by
  rw [val_main_v31_apply, val_main_v30_apply, val_main_v27_apply, mean_eq, val_main_v26_apply, val_main_v25_apply,
    prod_eq_r, val_main_call0_v0_apply, val_main_call0_cst_apply]
  have e : idx_main_v25 (idx_main_v26 (ix2 r s)) = ix1 s := funext fun a => Fin.ext (by
    match a with
    | ⟨0, _⟩ => rfl)
  rw [e, Ideal.maximumf_def, Ideal.addf_def, Ideal.addf_def, Ideal.ofBits_def, Ideal.ofBits_zero_f32]
  rfl

/-- The reshape 131072 × 16 → 32 × 65536 is row-major: entry (p, k) is the hidden feature of node 4096·p + k / 16,
    feature k mod 16. -/
private theorem reshape_at (x0 : (⟨S131072x128, .f32⟩ : BufTy).Contents (Elt Ideal)) (x1 : (⟨S2x4194304, .i32⟩ : BufTy).Contents (Elt Ideal))
    (x2 : (⟨S16x128, .f32⟩ : BufTy).Contents (Elt Ideal)) (x3 : (⟨S16, .f32⟩ : BufTy).Contents (Elt Ideal))
    (x4 : (⟨S16x128, .f32⟩ : BufTy).Contents (Elt Ideal)) (p : Fin 32) (k : Fin 65536) :
    val_main_v32 (F := Ideal) x0 x1 x2 x3 x4 (ix2 p k) = hiddenAt x0 x1 x2 x3 x4 (nodeOf p k) (featOf k) := by
  rw [val_main_v32_apply]
  have e : idx_main_v32 (ix2 p k) = ix2 (nodeOf p k) (featOf k) := funext fun a => Fin.ext (by
    have hp : p.val < 32 := p.isLt
    have hk : k.val < 65536 := k.isLt
    match a with
    | ⟨0, _⟩ => show (p.val * 65536 + k.val) / 16 = p.val * 4096 + k.val / 16; omega
    | ⟨1, _⟩ => show (p.val * 65536 + k.val) % 16 = k.val % 16; omega)
  rw [e, hidden_at]

end Stages

/-- The reference's result, as a function of its arguments, is the specification's array. -/
theorem reference_result (x0 : (⟨S131072x128, .f32⟩ : BufTy).Contents (Elt Ideal)) (x1 : (⟨S2x4194304, .i32⟩ : BufTy).Contents (Elt Ideal))
    (x2 : (⟨S16x128, .f32⟩ : BufTy).Contents (Elt Ideal)) (x3 : (⟨S16, .f32⟩ : BufTy).Contents (Elt Ideal))
    (x4 : (⟨S16x128, .f32⟩ : BufTy).Contents (Elt Ideal)) (x5 : (⟨S39x65536, .f32⟩ : BufTy).Contents (Elt Ideal))
    (x6 : (⟨S39, .f32⟩ : BufTy).Contents (Elt Ideal)) :
    val_main_v38 (F := Ideal) x0 x1 x2 x3 x4 x5 x6 = Cert.KernelIdeal.Hand.wholeArr x0 x1 x2 x3 x4 x5 x6 := by
  funext j
  obtain ⟨p, q, z, rfl⟩ : ∃ (p : Fin 32) (q : Fin 39) (z : Fin 1), j = ix3 p q z := ⟨j 0, j 1, j 2, eq_ix3 j⟩
  rw [val_main_v38_apply, val_main_v37_apply, val_main_v36_apply, val_main_v35_apply, val_main_v34_apply, Ideal.addf_def]
  show _ = (∑ k : Fin 65536, Cert.KernelIdeal.Hand.hiddenAt x0 x1 x2 x3 x4 (Cert.KernelIdeal.Hand.nodeOf p k)
    (Cert.KernelIdeal.Hand.featOf k) * x5 (ix2 q k)) + x6 (ix1 q)
  have eb : idx_main_v35 (idx_main_v36 (idx_main_v38 (ix3 p q z))) = ix1 q := funext fun a => Fin.ext (by
    match a with
    | ⟨0, _⟩ => rfl)
  rw [eb]
  refine congrArg (· + x6 (ix1 q)) (Finset.sum_congr rfl fun k _ => ?_)
  have el : lidx_main_v34 (idx_main_v38 (ix3 p q z)) k = ix2 p k := funext fun a => Fin.ext (by
    match a with
    | ⟨0, _⟩ => rfl
    | ⟨1, _⟩ => rfl)
  have er : idx_main_v33 (ridx_main_v34 (idx_main_v38 (ix3 p q z)) k) = ix2 q k := funext fun a => Fin.ext (by
    match a with
    | ⟨0, _⟩ => rfl
    | ⟨1, _⟩ => rfl)
  rw [val_main_v33_apply, el, er, reshape_at]

end Cert.ReferenceIdeal.RefValue

end
-- ==== Proof.lean ====
/-
  The certificate. Both printed programs of the kernel are the same text (the ideal pass rewrote nothing), three
  pallas_calls among four stretches of host operations: x·W_lᵀ and x·W_rᵀ on row blocks; the neighbourhood mean on the
  host (a gather along the edges and two scatter-adds); max(mean + b_l + x·W_rᵀ, 0) on row blocks; and the per-graph
  product with W_outᵀ accumulated over 8 blocks of the contracted axis, plus b_out. The reference computes the same
  with whole-array host operations.
  The three frames: each program runs to its end, faulting nowhere, its arguments unchanged. For the kernel's two
  programs that is the run of the segments (each call's body obligation, the pipeline's launch, the host stretches
  between), proved once for any float instance and read at the word-level and at the ideal instance; for the
  reference it is its run with the result dropped. No operation was idealized, so there is nothing to preserve.
  Over the extended reals both programs end with the same array: entry (p, q) is the sum over the 65536 entries of graph
  p's flattened hidden features times row q of W_out, plus b_out[q]. The kernel's 8 partial sums regroup the same sum
  (addition is commutative and associative: no finiteness is needed, and the precondition is never opened); the
  rounding to bf16 is the identity there; and the host operations of the mean are the same on both sides, applied to
  the same first product.
-/
import proofs.«123501_j84713934946331_1_alg».proof.Defs
import proofs.«123501_j84713934946331_1_alg».proof.Proof.Gen.Kernel
import proofs.«123501_j84713934946331_1_alg».proof.Proof.Gen.KernelIdeal
import proofs.«123501_j84713934946331_1_alg».proof.Proof.Gen.ReferenceIdeal
import proofs.«123501_j84713934946331_1_alg».proof.Proof.Gen.Pre_finite_inputs
import proofs.«123501_j84713934946331_1_alg».proof.Proof.Kernel.MainRun
import proofs.«123501_j84713934946331_1_alg».proof.Proof.KernelIdeal.MainRun
import proofs.«123501_j84713934946331_1_alg».proof.Proof.Value.KernelValue
import proofs.«123501_j84713934946331_1_alg».proof.Proof.Value.RefValue
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_word : Cert.frame_Kernel := fun m ρ _ => Cert.Kernel.Hand.frame (F := Bits) m ρ

/-- The idealized program runs and leaves its arguments unchanged. -/
theorem frame_ideal : Cert.frame_KernelIdeal := fun m ρ _ => Cert.KernelIdeal.Hand.frame (F := Ideal) m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten by the ideal pass. -/
theorem preserves : Cert.preserves_Kernel_KernelIdeal := trivial

/-- From memories agreeing on the arguments both programs end with the specification's array of those arguments. -/
theorem algebraic : Cert.algebraic_KernelIdeal_ReferenceIdeal := by
  intro m ρ m' ρ' _ hagree
  refine ⟨fun c => Cert.KernelIdeal.Hand.wholeArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.Hand.run_named (F := Ideal) m ρ)
    exact ⟨(h c _ (Cert.KernelIdeal.Hand.mem_uc Cert.KernelIdeal.main_v31 (by decide))).trans (Cert.KernelIdeal.Hand.kernel_result m c),
      (h c _ (Cert.KernelIdeal.Hand.mem_uc Cert.KernelIdeal.main_arg0 (by decide))).trans (Cert.KernelIdeal.Hand.W7_main_arg0 m c),
      (h c _ (Cert.KernelIdeal.Hand.mem_uc Cert.KernelIdeal.main_arg1 (by decide))).trans (Cert.KernelIdeal.Hand.W7_main_arg1 m c),
      (h c _ (Cert.KernelIdeal.Hand.mem_uc Cert.KernelIdeal.main_arg2 (by decide))).trans (Cert.KernelIdeal.Hand.W7_main_arg2 m c),
      (h c _ (Cert.KernelIdeal.Hand.mem_uc Cert.KernelIdeal.main_arg3 (by decide))).trans (Cert.KernelIdeal.Hand.W7_main_arg3 m c),
      (h c _ (Cert.KernelIdeal.Hand.mem_uc Cert.KernelIdeal.main_arg4 (by decide))).trans (Cert.KernelIdeal.Hand.W7_main_arg4 m c),
      (h c _ (Cert.KernelIdeal.Hand.mem_uc Cert.KernelIdeal.main_arg5 (by decide))).trans (Cert.KernelIdeal.Hand.W7_main_arg5 m c),
      (h c _ (Cert.KernelIdeal.Hand.mem_uc Cert.KernelIdeal.main_arg6 (by decide))).trans (Cert.KernelIdeal.Hand.W7_main_arg6 m c)⟩
  · refine (θ_run Cert.ReferenceIdeal.defs _ _).mono (fun r h c => ⟨?_, (h c).2⟩) (Cert.ReferenceIdeal.Value.run (F := Ideal) m' ρ')
    rw [(h c).1, Cert.ReferenceIdeal.Read.val_main_v38_eq, Cert.ReferenceIdeal.RefValue.reference_result,
      (hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_word, frame_ideal, frame_reference, preserves, algebraic⟩

end Cert.Proof

end
